-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S512x128 : Shape := ⟨2, ![512, 128]⟩
abbrev S256x128 : Shape := ⟨2, ![256, 128]⟩
abbrev S128 : Shape := ⟨1, ![128]⟩
abbrev S128x24 : Shape := ⟨2, ![128, 24]⟩
abbrev S24 : Shape := ⟨1, ![24]⟩
abbrev S500000 : Shape := ⟨1, ![500000]⟩
abbrev S512x64x24 : Shape := ⟨3, ![512, 64, 24]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x24 : S_.BroadcastsInDim S128x24 (![] : Fin 0 → Fin S128x24.rank)
  reducesTo_S128x24_S_d0_1 : S128x24.ReducesTo [0, 1] S_
  bcast_S_S24 : S_.BroadcastsInDim S24 (![] : Fin 0 → Fin S24.rank)
  reducesTo_S24_S_d0 : S24.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg7 : IVec S500000 32) (main_v32 : IVec S_ 1) (main_c_12 : IVec S_ 32) : IVec S_ 1 :=
  let main_v33 : IVec S500000 32 := broadcastInDim S500000 ![] bcast_S_S500000 main_c_12
  let main_v34 : IVec S500000 1 := cmpi .slt main_arg7 main_v33
  let main_c_13 : IVec S_ 1 := constantI S_ 1 1#1
  let main_v35 : IVec S_ 1 := (fun x v => Host.reduce IntOp.andi x v reducesTo_S500000_S_d0 h_S_) main_v34 main_c_13
  let main_v36 : IVec S_ 1 := andi main_v32 main_v35
  main_v36

def fn_part1 {F : FTy → Type} [FloatOps F] (main_arg4 : FVec F S128x24 .f32) (main_arg5 : FVec F S24 .f32) (main_arg7 : IVec S500000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x24 .f32 := Host.absf main_arg4
  let main_cst_6 : FVec F S_ .f32 := constant S_ .f32 0x7F800000#32
  let main_v20 : FVec F S128x24 .f32 := broadcastInDim S128x24 ![] bcast_S_S128x24 main_cst_6
  let main_v21 : IVec S128x24 1 := cmpf .olt main_v19 main_v20
  let main_c_7 : IVec S_ 1 := constantI S_ 1 1#1
  let main_v22 : IVec S_ 1 := (fun x v => Host.reduce IntOp.andi x v reducesTo_S128x24_S_d0_1 h_S_) main_v21 main_c_7
  let main_v23 : IVec S_ 1 := andi main_v18 main_v22
  let main_v24 : FVec F S24 .f32 := Host.absf main_arg5
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  let main_c_10 : IVec S_ 32 := constantI S_ 32 0#32
  let main_v29 : IVec S500000 32 := broadcastInDim S500000 ![] bcast_S_S500000 main_c_10
  let main_v30 : IVec S500000 1 := cmpi .sge main_arg7 main_v29
  let main_c_11 : IVec S_ 1 := constantI S_ 1 1#1
  let main_v31 : IVec S_ 1 := (fun x v => Host.reduce IntOp.andi x v reducesTo_S500000_S_d0 h_S_) main_v30 main_c_11
  let main_v32 : IVec S_ 1 := andi main_v28 main_v31
  let main_c_12 : IVec S_ 32 := constantI S_ 32 512#32
  fn_part2 (F := F) main_arg7 main_v32 main_c_12

def fn {F : FTy → Type} [FloatOps F] (main_arg0 : FVec F S500000x128 .f32) (main_arg1 : FVec F S512x128 .f32) (main_arg2 : FVec F S256x128 .f32) (main_arg3 : FVec F S128 .f32) (main_arg4 : FVec F S128x24 .f32) (main_arg5 : FVec F S24 .f32) (main_arg6 : IVec S500000 1) (main_arg7 : IVec S500000 32) (main_arg8 : IVec S512x64x24 1) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg7 main_v13 main_v16
-- ==== Kernel.lean ====
abbrev S500000x128 : Shape := ⟨2, ![500000, 128]⟩
abbrev S512x128 : Shape := ⟨2, ![512, 128]⟩
abbrev S256x128 : Shape := ⟨2, ![256, 128]⟩
abbrev S128 : Shape := ⟨1, ![128]⟩
abbrev S128x24 : Shape := ⟨2, ![128, 24]⟩
abbrev S24 : Shape := ⟨1, ![24]⟩
abbrev S500000 : Shape := ⟨1, ![500000]⟩
abbrev S512x64x24 : Shape := ⟨3, ![512, 64, 24]⟩
abbrev S128x128 : Shape := ⟨2, ![128, 128]⟩
abbrev S1x128 : Shape := ⟨2, ![1, 128]⟩
abbrev S1x24 : Shape := ⟨2, ![1, 24]⟩
abbrev S500000x1 : Shape := ⟨2, ![500000, 1]⟩
abbrev S500000x24 : Shape := ⟨2, ![500000, 24]⟩
abbrev S2000x128 : Shape := ⟨2, ![2000, 128]⟩
abbrev S2000x1 : Shape := ⟨2, ![2000, 1]⟩
abbrev S2000x24 : Shape := ⟨2, ![2000, 24]⟩
abbrev S2000x512 : Shape := ⟨2, ![2000, 512]⟩
abbrev S_ : Shape := ⟨0, ![]⟩
abbrev S512 : Shape := ⟨1, ![512]⟩
abbrev S1 : Shape := ⟨1, ![1]⟩
abbrev S511 : Shape := ⟨1, ![511]⟩
abbrev S500000x2 : Shape := ⟨2, ![500000, 2]⟩
abbrev S512x1536 : Shape := ⟨2, ![512, 1536]⟩

abbrev nBuf : Space → Nat
  | .hbm => 81
  | .vmem => 12
  | .smem => 0
  | _ => 0

abbrev bufTy : (tb : Table) → Fin (tcTables nBuf tb) → BufTy
  | .hbm, ⟨0, _⟩ => ⟨S500000x128, .f32⟩
  | .hbm, ⟨1, _⟩ => ⟨S512x128, .f32⟩
  | .hbm, ⟨2, _⟩ => ⟨S256x128, .f32⟩
  | .hbm, ⟨3, _⟩ => ⟨S128, .f32⟩
  | .hbm, ⟨4, _⟩ => ⟨S128x24, .f32⟩
  | .hbm, ⟨5, _⟩ => ⟨S24, .f32⟩
  | .hbm, ⟨6, _⟩ => ⟨S500000, .i1⟩
  | .hbm, ⟨7, _⟩ => ⟨S500000, .i32⟩
  | .hbm, ⟨8, _⟩ => ⟨S512x64x24, .i1⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x24, .f32⟩
  | .hbm, ⟨13, _⟩ => ⟨S500000x1, .i32⟩
  | .hbm, ⟨14, _⟩ => ⟨S500000x24, .f32⟩
  | .hbm, ⟨15, _⟩ => ⟨S500000, .i32⟩
  | .hbm, ⟨16, _⟩ => ⟨S_, .i32⟩
  | .hbm, ⟨17, _⟩ => ⟨S_, .i32⟩
  | .hbm, ⟨18, _⟩ => ⟨S500000, .i32⟩
  | .hbm, ⟨19, _⟩ => ⟨S_, .i32⟩
  | .hbm, ⟨20, _⟩ => ⟨S512, .i32⟩
  | .hbm, ⟨21, _⟩ => ⟨S500000x1, .i32⟩
  | .hbm, ⟨22, _⟩ => ⟨S512, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S_, .i32⟩
  | .hbm, ⟨27, _⟩ => ⟨S512, .i32⟩
  | .hbm, ⟨28, _⟩ => ⟨S511, .i32⟩
  | .hbm, ⟨29, _⟩ => ⟨S512, .i32⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000, .i32⟩
  | .hbm, ⟨42, _⟩ => ⟨S500000, .i32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S500000, .i1⟩
  | .hbm, ⟨47, _⟩ => ⟨S_, .i32⟩
  | .hbm, ⟨48, _⟩ => ⟨S_, .i32⟩
  | .hbm, ⟨49, _⟩ => ⟨S500000, .i32⟩
  | .hbm, ⟨50, _⟩ => ⟨S500000, .i32⟩
  | .hbm, ⟨51, _⟩ => ⟨S_, .i32⟩
  | .hbm, ⟨52, _⟩ => ⟨S_, .i32⟩
  | .hbm, ⟨53, _⟩ => ⟨S500000, .i32⟩
  | .hbm, ⟨54, _⟩ => ⟨S500000, .i32⟩
  | .hbm, ⟨55, _⟩ => ⟨S_, .f32⟩
  | .hbm, ⟨56, _⟩ => ⟨S512x64x24, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000x1, .i32⟩
  | .hbm, ⟨73, _⟩ => ⟨S500000x2, .i32⟩
  | .hbm, ⟨74, _⟩ => ⟨S512x64x24, .f32⟩
  | .hbm, ⟨75, _⟩ => ⟨S512x1536, .f32⟩
  | .hbm, ⟨76, _⟩ => ⟨S512x1536, .i1⟩
  | .hbm, ⟨77, _⟩ => ⟨S_, .f32⟩
  | .hbm, ⟨78, _⟩ => ⟨S_, .f32⟩
  | .hbm, ⟨79, _⟩ => ⟨S512x1536, .f32⟩
  | .hbm, ⟨80, _⟩ => ⟨S512x1536, .f32⟩
  | .local _ .vmem, ⟨0, _⟩ => ⟨S2000x128, .f32⟩
  | .local _ .vmem, ⟨1, _⟩ => ⟨S2000x128, .f32⟩
  | .local _ .vmem, ⟨2, _⟩ => ⟨S2000x1, .i32⟩
  | .local _ .vmem, ⟨3, _⟩ => ⟨S2000x1, .i32⟩
  | .local _ .vmem, ⟨4, _⟩ => ⟨S512x128, .f32⟩
  | .local _ .vmem, ⟨5, _⟩ => ⟨S128x128, .f32⟩
  | .local _ .vmem, ⟨6, _⟩ => ⟨S128x128, .f32⟩
  | .local _ .vmem, ⟨7, _⟩ => ⟨S128x24, .f32⟩
  | .local _ .vmem, ⟨8, _⟩ => ⟨S1x128, .f32⟩
  | .local _ .vmem, ⟨9, _⟩ => ⟨S1x24, .f32⟩
  | .local _ .vmem, ⟨10, _⟩ => ⟨S2000x24, .f32⟩
  | .local _ .vmem, ⟨11, _⟩ => ⟨S2000x24, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_call0_c : Ref sig .tc := ⟨.hbm, 16, rfl⟩
abbrev main_call0_call0_v0 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_call1_call0_c : Ref sig .tc := ⟨.hbm, 25, rfl⟩
abbrev main_call1_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_c_6 : Ref sig .tc := ⟨.hbm, 51, rfl⟩
abbrev main_call3_v0 : Ref sig .tc := ⟨.hbm, 52, rfl⟩
abbrev main_call3_v1 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_c_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_call4_v0 : Ref sig .tc := ⟨.hbm, 78, rfl⟩
abbrev main_call4_v1 : Ref sig .tc := ⟨.hbm, 79, rfl⟩
abbrev main_v47 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  shapeCasts_S24_S1x24 : S24.ShapeCasts S1x24
  shapeCasts_S500000_S500000x1 : S500000.ShapeCasts S500000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x24_S128x24_0_0 : ∀ a, (![0, 0] : Fin 2 → Nat) a + S128x24.size a ≤ S128x24.size a
  h_S128x24 : 0 < S128x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S2000x24 : S1x24.Broadcasts S2000x24
  inb_S2000x24_S2000x24_0_0 : ∀ a, (![0, 0] : Fin 2 → Nat) a + S2000x24.size a ≤ S2000x24.size a
  h_S2000x24 : 0 < S2000x24.numel
  bcast_S_S_ : S_.BroadcastsInDim S_ (![] : Fin 0 → Fin S_.rank)
  reduceWindows_S500000_S500000_w500000s1p499999_0 : S500000.ReduceWindows (![500000] : Fin 1 → Nat) ![1] ![499999] ![0] S500000
  h_S_ : 0 < S_.numel
  bcast_S_S512 : S_.BroadcastsInDim S512 (![] : Fin 0 → Fin S512.rank)
  bcast_S500000_S500000x1_0 : S500000.BroadcastsInDim S500000x1 (![0] : Fin 1 → Fin S500000x1.rank)
  bcast_S_S1 : S_.BroadcastsInDim S1 (![] : Fin 0 → Fin S1.rank)
  reduceWindows_S512_S512_w512s1p511_0 : S512.ReduceWindows (![512] : Fin 1 → Nat) ![1] ![511] ![0] S512
  slices_S512_S511_0 : S512.Slices ![0] S511
  concatenates_S1_S511_S512_d0 : Shape.Concatenates [S1, S511] S512 0
  bcast_S_S500000 : S_.BroadcastsInDim S500000 (![] : Fin 0 → Fin S500000.rank)
  bcast_S_S512x64x24 : S_.BroadcastsInDim S512x64x24 (![] : Fin 0 → Fin S512x64x24.rank)
  concatenates_S500000x1_S500000x1_S500000x2_d1 : Shape.Concatenates [S500000x1, S500000x1] S500000x2 1
  shapeCasts_S512x64x24_S512x1536 : S512x64x24.ShapeCasts S512x1536
  bcast_S_S512x1536 : S_.BroadcastsInDim S512x1536 (![] : Fin 0 → Fin S512x1536.rank)
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  dot_S2000x128_S128x24_S2000x24_1_0_0_1_n_n_wf : DotDims.WF S2000x128 S128x24 S2000x24 [1] [0] [0] [1] [] []
  scatter_S512_S500000x1_S500000_n_0_0_1_wf : ScatterDims.WF S512 S500000x1 S500000 [] [0] [0] 1
  gather_S512_S500000x1_S500000_n_0_n_n_0_1_1_wf : GatherDims.WF S512 S500000x1 S500000 [] [0] [] [0] [] 1 ![1]
  scatter_S512x64x24_S500000x2_S500000x24_1_01_01_1_wf : ScatterDims.WF S512x64x24 S500000x2 S500000x24 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S500000x1.size a
  hwx0_1 : ∀ i : grid0.Coords, EltTy.bits .i32 = 32 ∨ (Rect.block (s := S500000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x24.size a ≤ S128x24.size a
  hwx0_5 : ∀ i : grid0.Coords, EltTy.bits .f32 = 32 ∨ (Rect.block (s := S128x24) S128x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x24.size a ≤ S1x24.size a
  hwx0_7 : ∀ i : grid0.Coords, EltTy.bits .f32 = 32 ∨ (Rect.block (s := S1x24) S1x24.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x24.size a ≤ S500000x24.size a
  hwx0_8 : ∀ i : grid0.Coords, EltTy.bits .f32 = 32 ∨ (Rect.block (s := S500000x24) S2000x24.size (cc0_transform_8 i) (hinb0_8 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x24_S2000x24_1_0_0_1_n_n : DotDims S2000x128 S128x24 S2000x24 where
  lhsContracting := [1]
  rhsContracting := [0]
  lhsNonContracting := [0]
  rhsNonContracting := [1]
  lhsBatch := []
  rhsBatch := []
  wf := dot_S2000x128_S128x24_S2000x24_1_0_0_1_n_n_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def gather_S512_S500000x1_S500000_n_0_n_n_0_1_1 : GatherDims S512 S500000x1 S500000 where
  offsetDims := []
  collapsedSliceDims := [0]
  operandBatchingDims := []
  startIndicesBatchingDims := []
  startIndexMap := [0]
  indexVectorDim := 1
  sliceSizes := ![1]
  wf := gather_S512_S500000x1_S500000_n_0_n_n_0_1_1_wf
def scatter_S512x64x24_S500000x2_S500000x24_1_01_01_1 : ScatterDims S512x64x24 S500000x2 S500000x24 where
  updateWindowDims := [1]
  insertedWindowDims := [0, 1]
  scatterDimsToOperandDims := [0, 1]
  indexVectorDim := 1
  wf := scatter_S512x64x24_S500000x2_S500000x24_1_01_01_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x24.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S2000x24.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S500000x128 : Shape := ⟨2, ![500000, 128]⟩
abbrev S512x128 : Shape := ⟨2, ![512, 128]⟩
abbrev S256x128 : Shape := ⟨2, ![256, 128]⟩
abbrev S128 : Shape := ⟨1, ![128]⟩
abbrev S128x24 : Shape := ⟨2, ![128, 24]⟩
abbrev S24 : Shape := ⟨1, ![24]⟩
abbrev S500000 : Shape := ⟨1, ![500000]⟩
abbrev S512x64x24 : Shape := ⟨3, ![512, 64, 24]⟩
abbrev S_ : Shape := ⟨0, ![]⟩
abbrev S500000x1 : Shape := ⟨2, ![500000, 1]⟩
abbrev S500000x256 : Shape := ⟨2, ![500000, 256]⟩
abbrev S1x128 : Shape := ⟨2, ![1, 128]⟩
abbrev S500000x24 : Shape := ⟨2, ![500000, 24]⟩
abbrev S1x24 : Shape := ⟨2, ![1, 24]⟩
abbrev S512 : Shape := ⟨1, ![512]⟩
abbrev S1 : Shape := ⟨1, ![1]⟩
abbrev S511 : Shape := ⟨1, ![511]⟩
abbrev S500000x2 : Shape := ⟨2, ![500000, 2]⟩
abbrev S512x1536 : Shape := ⟨2, ![512, 1536]⟩

abbrev nBuf : Space → Nat
  | .hbm => 96
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S512x128, .f32⟩
  | .hbm, ⟨2, _⟩ => ⟨S256x128, .f32⟩
  | .hbm, ⟨3, _⟩ => ⟨S128, .f32⟩
  | .hbm, ⟨4, _⟩ => ⟨S128x24, .f32⟩
  | .hbm, ⟨5, _⟩ => ⟨S24, .f32⟩
  | .hbm, ⟨6, _⟩ => ⟨S500000, .i1⟩
  | .hbm, ⟨7, _⟩ => ⟨S500000, .i32⟩
  | .hbm, ⟨8, _⟩ => ⟨S512x64x24, .i1⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S500000x256, .f32⟩
  | .hbm, ⟨19, _⟩ => ⟨S500000x128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S_, .f32⟩
  | .hbm, ⟨24, _⟩ => ⟨S500000x128, .f32⟩
  | .hbm, ⟨25, _⟩ => ⟨S500000x128, .f32⟩
  | .hbm, ⟨26, _⟩ => ⟨S500000x24, .f32⟩
  | .hbm, ⟨27, _⟩ => ⟨S1x24, .f32⟩
  | .hbm, ⟨28, _⟩ => ⟨S500000x24, .f32⟩
  | .hbm, ⟨29, _⟩ => ⟨S500000x24, .f32⟩
  | .hbm, ⟨30, _⟩ => ⟨S500000, .i32⟩
  | .hbm, ⟨31, _⟩ => ⟨S_, .i32⟩
  | .hbm, ⟨32, _⟩ => ⟨S_, .i32⟩
  | .hbm, ⟨33, _⟩ => ⟨S500000, .i32⟩
  | .hbm, ⟨34, _⟩ => ⟨S_, .i32⟩
  | .hbm, ⟨35, _⟩ => ⟨S512, .i32⟩
  | .hbm, ⟨36, _⟩ => ⟨S500000x1, .i32⟩
  | .hbm, ⟨37, _⟩ => ⟨S512, .i32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S_, .i32⟩
  | .hbm, ⟨42, _⟩ => ⟨S512, .i32⟩
  | .hbm, ⟨43, _⟩ => ⟨S511, .i32⟩
  | .hbm, ⟨44, _⟩ => ⟨S512, .i32⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000, .i32⟩
  | .hbm, ⟨57, _⟩ => ⟨S500000, .i32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S500000, .i1⟩
  | .hbm, ⟨62, _⟩ => ⟨S_, .i32⟩
  | .hbm, ⟨63, _⟩ => ⟨S_, .i32⟩
  | .hbm, ⟨64, _⟩ => ⟨S500000, .i32⟩
  | .hbm, ⟨65, _⟩ => ⟨S500000, .i32⟩
  | .hbm, ⟨66, _⟩ => ⟨S_, .i32⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S_, .f32⟩
  | .hbm, ⟨71, _⟩ => ⟨S512x64x24, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S_, .i32⟩
  | .hbm, ⟨80, _⟩ => ⟨S500000, .i32⟩
  | .hbm, ⟨81, _⟩ => ⟨S500000, .i1⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S500000, .i32⟩
  | .hbm, ⟨86, _⟩ => ⟨S500000x1, .i32⟩
  | .hbm, ⟨87, _⟩ => ⟨S500000x1, .i32⟩
  | .hbm, ⟨88, _⟩ => ⟨S500000x2, .i32⟩
  | .hbm, ⟨89, _⟩ => ⟨S512x64x24, .f32⟩
  | .hbm, ⟨90, _⟩ => ⟨S512x1536, .f32⟩
  | .hbm, ⟨91, _⟩ => ⟨S512x1536, .i1⟩
  | .hbm, ⟨92, _⟩ => ⟨S_, .f32⟩
  | .hbm, ⟨93, _⟩ => ⟨S_, .f32⟩
  | .hbm, ⟨94, _⟩ => ⟨S512x1536, .f32⟩
  | .hbm, ⟨95, _⟩ => ⟨S512x1536, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call1_call0_c : Ref sig .tc := ⟨.hbm, 31, rfl⟩
abbrev main_call1_call0_v0 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_call2_call0_c : Ref sig .tc := ⟨.hbm, 40, rfl⟩
abbrev main_call2_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_call3_v0 : Ref sig .tc := ⟨.hbm, 63, rfl⟩
abbrev main_call3_v1 : Ref sig .tc := ⟨.hbm, 64, rfl⟩
abbrev main_v39 : Ref sig .tc := ⟨.hbm, 65, rfl⟩
abbrev main_c_8 : Ref sig .tc := ⟨.hbm, 66, rfl⟩
abbrev main_call4_v0 : Ref sig .tc := ⟨.hbm, 67, rfl⟩
abbrev main_call4_v1 : Ref sig .tc := ⟨.hbm, 68, rfl⟩
abbrev main_v40 : Ref sig .tc := ⟨.hbm, 69, rfl⟩
abbrev main_cst : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_c_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_call5_v0 : Ref sig .tc := ⟨.hbm, 93, rfl⟩
abbrev main_call5_v1 : Ref sig .tc := ⟨.hbm, 94, rfl⟩
abbrev main_v58 : Ref sig .tc := ⟨.hbm, 95, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S24_S1x24_1 : S24.BroadcastsInDim S1x24 (![1] : Fin 1 → Fin S1x24.rank)
  bcast_S1x24_S500000x24_0_1 : S1x24.BroadcastsInDim S500000x24 (![0, 1] : Fin 2 → Fin S500000x24.rank)
  natLt_1_32 : 1 < 32
  bcast_S_S_ : S_.BroadcastsInDim S_ (![] : Fin 0 → Fin S_.rank)
  reduceWindows_S500000_S500000_w500000s1p499999_0 : S500000.ReduceWindows (![500000] : Fin 1 → Nat) ![1] ![499999] ![0] S500000
  h_S_ : 0 < S_.numel
  bcast_S_S512 : S_.BroadcastsInDim S512 (![] : Fin 0 → Fin S512.rank)
  bcast_S_S1 : S_.BroadcastsInDim S1 (![] : Fin 0 → Fin S1.rank)
  reduceWindows_S512_S512_w512s1p511_0 : S512.ReduceWindows (![512] : Fin 1 → Nat) ![1] ![511] ![0] S512
  slices_S512_S511_0 : S512.Slices ![0] S511
  concatenates_S1_S511_S512_d0 : Shape.Concatenates [S1, S511] S512 0
  bcast_S_S512x64x24 : S_.BroadcastsInDim S512x64x24 (![] : Fin 0 → Fin S512x64x24.rank)
  concatenates_S500000x1_S500000x1_S500000x2_d1 : Shape.Concatenates [S500000x1, S500000x1] S500000x2 1
  shapeCasts_S512x64x24_S512x1536 : S512x64x24.ShapeCasts S512x1536
  bcast_S_S512x1536 : S_.BroadcastsInDim S512x1536 (![] : Fin 0 → Fin S512x1536.rank)
  gather_S512x128_S500000x1_S500000x128_1_0_n_n_0_1_1128_wf : GatherDims.WF S512x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x24_S500000x24_1_0_0_1_n_n_wf : DotDims.WF S500000x128 S128x24 S500000x24 [1] [0] [0] [1] [] []
  scatter_S512_S500000x1_S500000_n_0_0_1_wf : ScatterDims.WF S512 S500000x1 S500000 [] [0] [0] 1
  gather_S512_S500000x1_S500000_n_0_n_n_0_1_1_wf : GatherDims.WF S512 S500000x1 S500000 [] [0] [] [0] [] 1 ![1]
  scatter_S512x64x24_S500000x2_S500000x24_1_01_01_1_wf : ScatterDims.WF S512x64x24 S500000x2 S500000x24 [1] [0, 1] [0, 1] 1

variable [Facts₀]

def gather_S512x128_S500000x1_S500000x128_1_0_n_n_0_1_1128 : GatherDims S512x128 S500000x1 S500000x128 where
  offsetDims := [1]
  collapsedSliceDims := [0]
  operandBatchingDims := []
  startIndicesBatchingDims := []
  startIndexMap := [0]
  indexVectorDim := 1
  sliceSizes := ![1, 128]
  wf := gather_S512x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x24_S500000x24_1_0_0_1_n_n : DotDims S500000x128 S128x24 S500000x24 where
  lhsContracting := [1]
  rhsContracting := [0]
  lhsNonContracting := [0]
  rhsNonContracting := [1]
  lhsBatch := []
  rhsBatch := []
  wf := dot_S500000x128_S128x24_S500000x24_1_0_0_1_n_n_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def gather_S512_S500000x1_S500000_n_0_n_n_0_1_1 : GatherDims S512 S500000x1 S500000 where
  offsetDims := []
  collapsedSliceDims := [0]
  operandBatchingDims := []
  startIndicesBatchingDims := []
  startIndexMap := [0]
  indexVectorDim := 1
  sliceSizes := ![1]
  wf := gather_S512_S500000x1_S500000_n_0_n_n_0_1_1_wf
def scatter_S512x64x24_S500000x2_S500000x24_1_01_01_1 : ScatterDims S512x64x24 S500000x2 S500000x24 where
  updateWindowDims := [1]
  insertedWindowDims := [0, 1]
  scatterDimsToOperandDims := [0, 1]
  indexVectorDim := 1
  wf := scatter_S512x64x24_S500000x2_S500000x24_1_01_01_1_wf

class Facts : Prop extends Facts₀ where

variable [Facts]
-- ==== Proof.KDefsBits.lean ====
/-
  The proof data of the one pallas_call: what the region finds in each array, each window's block at a grid point,
  and what the body leaves in each window's staging buffer.

  The grid has 250 points; point `t` handles nodes 2000 t … 2000 t + 1999. Windows 0 and 1 (the node features and the
  column of graph words) move with the point, windows 2 … 7 (the graph table, the two halves of the first layer's
  weights, the second layer's weights, and the two bias rows) are the whole arrays at every point, and window 8 is the
  block of scores the point writes back. The body loads every input block whole, computes one block of scores (the
  skeleton's one payload) and stores it over the whole output block: the staging buffer of window 8 after the body is
  that payload of the eight loaded blocks, and every input's buffer is left as it was.
-/
import proofs.«423639_j43971875176948_1_alg».proof.Proof.Gen.Kernel.Launch
import proofs.«423639_j43971875176948_1_alg».proof.Proof.Gen.Kernel.Skeleton
import proofs.«423639_j43971875176948_1_alg».proof.Proof.Gen.Kernel.Points
import Idealize.ShloMosaic.Lib.Pipeline.FrameBody
import Idealize.ShloMosaic.Lib.Pipeline.FrameSuffix

set_option maxRecDepth 16384

noncomputable section

namespace Cert.Kernel.Frame

open Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-- The ten stretches of host operations that follow the region, in program order. -/
abbrev tailOps : List (List (HloOp τ sig (Elt F))) :=
  [hostOps1, hostOps1_1, hostOps1_2, hostOps1_3, hostOps1_4, hostOps1_5, hostOps1_6, hostOps1_7, hostOps1_8, hostOps1_9]

/-- Core `c`'s buffer contents when the region is entered: the launch contents after the five host operations before
    it (the two halves of `W1`, the two bias rows, the graph words as a column). -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole block -/

abbrev rX : Rect S2000x128 := Rect.unit (s := S2000x128) ![0, 0] S2000x128.size inb_S2000x128_S2000x128_0_0
abbrev rB : Rect S2000x1 := Rect.unit (s := S2000x1) ![0, 0] S2000x1.size inb_S2000x1_S2000x1_0_0
abbrev rG : Rect S512x128 := Rect.unit (s := S512x128) ![0, 0] S512x128.size inb_S512x128_S512x128_0_0
abbrev rW1 : Rect S128x128 := Rect.unit (s := S128x128) ![0, 0] S128x128.size inb_S128x128_S128x128_0_0
abbrev rW2 : Rect S128x24 := Rect.unit (s := S128x24) ![0, 0] S128x24.size inb_S128x24_S128x24_0_0
abbrev rb1 : Rect S1x128 := Rect.unit (s := S1x128) ![0, 0] S1x128.size inb_S1x128_S1x128_0_0
abbrev rb2 : Rect S1x24 := Rect.unit (s := S1x24) ![0, 0] S1x24.size inb_S1x24_S1x24_0_0
abbrev rOut : Rect S2000x24 := Rect.unit (s := S2000x24) ![0, 0] S2000x24.size inb_S2000x24_S2000x24_0_0

/-- The block of scores the body leaves in window 8's staging buffer, from the eight input blocks: its one store, of the
    payload of the eight loads (node features, graph words, graph table, upper and lower half of `W1`, `W2`, the row of
    `b1`, the row of `b2`). -/
def scoresBlock (x0 : Vec F S2000x128 .f32) (x1 : Vec F S2000x1 .i32) (x2 : Vec F S512x128 .f32) (x3 x4 : Vec F S128x128 .f32)
    (x5 : Vec F S128x24 .f32) (x6 : Vec F S1x128 .f32) (x7 : Vec F S1x24 .f32) : Vec F S2000x24 .f32 :=
  View.canon [⟨rOut, k0_pay1 (View.ld x1 rB) (View.ld x2 rG) (View.ld x0 rX) (View.ld x3 rW1) (View.ld x4 rW1) (View.ld x6 rb1) (View.ld x5 rW2) (View.ld x7 rb2)⟩]

/-- The proof data of the pipeline on core `c`: the arrays as the region finds them; after the body at point `t` each
    input's buffer at its block and the output's at the block of scores of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => scoresBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = scoresBlock (iblk m c 0 t) (iblk m c 1 t) (iblk m c 2 t) (iblk m c 3 t) (iblk m c 4 t) (iblk m c 5 t) (iblk m c 6 t) (iblk m c 7 t) := by
  dsimp only [dats]

end Cert.Kernel.Frame

end
-- ==== Proof.KFrameBits.lean ====
/-
  The frame run of the kernel program: @main runs to its end, and its nine argument arrays end as launched.

  @main is five host operations (the two halves of `W1`, the two bias rows, the graph words as a column), the one region,
  and 66 host operations in ten stretches that scatter the scores into the padded table. The region is a pipeline over 250
  points with nine windows; its body loads each of its eight input blocks whole, computes one block of scores and stores
  it over the whole output block. So the proof has three parts: the lines around the region touch neither an argument nor,
  after it, a window's array; every input's buffer holds its block at every point, whether the window moves with the
  point or is fetched once; and the body's one store, a payload of the eight loads, covers the output block.
-/
import proofs.«423639_j43971875176948_1_alg».proof.Proof.KDefsBits
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines of @main around the region -/

theorem hostOps0_fresh : (hostOps0 : List (HloOp τ sig (Elt F))).Forall fun op => op.fresh = ∅ := by
  simp only [List.Forall]; repeat' constructor

/-- No operation after the region allocates. -/
theorem tail_fresh : (List.flatten tailOps : List (HloOp τ sig (Elt F))).Forall fun op => op.fresh = ∅ := by
  simp only [List.flatten_cons, List.flatten_nil, List.append_nil, List.cons_append, List.nil_append, List.Forall]
  repeat' constructor

/-- Every operation after the region stays within the TensorCore's references. -/
theorem tail_sub : ∀ ops ∈ (tailOps : List (List (HloOp τ sig (Elt F)))), ops.Forall fun op => op.bufs ⊆ StableHlo.tcRefs τ sig := by
  intro ops hops
  simp only [List.mem_cons, List.mem_nil_iff, or_false] at hops
  rcases hops with rfl | rfl | rfl | rfl | rfl | rfl | rfl | rfl | rfl | rfl
  · exact hostOps1_sub
  · exact hostOps1_1_sub
  · exact hostOps1_2_sub
  · exact hostOps1_3_sub
  · exact hostOps1_4_sub
  · exact hostOps1_5_sub
  · exact hostOps1_6_sub
  · exact hostOps1_7_sub
  · exact hostOps1_8_sub
  · exact hostOps1_9_sub

theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The buffers the operations after the region write, in program order: each operation writes its one result. -/
def tailWrites : List (Ref sig .tc) :=
  [main_v6, main_call0_call0_c, main_call0_call0_v0, main_v7, main_c, main_v8, main_v9, main_v10, main_c_0, main_v11,
   main_call1_call0_c, main_call1_call0_v0, main_v12, main_v13, main_v14, main_c_1, main_v15, main_v16, main_c_2, main_v17,
   main_v18, main_c_3, main_v19, main_v20, main_v21, main_v22, main_v23, main_v24, main_c_4, main_v25, main_v26, main_v27,
   main_c_5, main_call2_v0, main_call2_v1, main_v28, main_c_6, main_call3_v0, main_call3_v1, main_v29, main_cst, main_v30,
   main_c_7, main_v31, main_v32, main_c_8, main_v33, main_v34, main_v35, main_c_9, main_v36, main_v37, main_c_10, main_v38,
   main_v39, main_v40, main_v41, main_v42, main_v43, main_v44, main_v45, main_v46, main_cst_11, main_call4_v0, main_call4_v1,
   main_v47]

/-- A result buffer listed in `tailWrites` is, as a device buffer, among the listed device buffers. -/
theorem single_sub_tailWrites {y : Ref sig .tc} (hy : y ∈ tailWrites) :
    ({Proc.devRef (τ := τ) .tc y} : Finset (DevRef τ sig)) ⊆ (tailWrites.map (Proc.devRef (τ := τ) .tc)).toFinset :=
  Finset.singleton_subset_iff.mpr (List.mem_toFinset.mpr (List.mem_map.mpr ⟨y, hy, rfl⟩))

/-- Every operation after the region writes only buffers of that list. -/
theorem tail_writes : (List.flatten tailOps : List (HloOp τ sig (Elt F))).Forall fun op =>
    op.writes ⊆ (tailWrites.map (Proc.devRef (τ := τ) .tc)).toFinset := by
  simp only [List.flatten_cons, List.flatten_nil, List.append_nil, List.cons_append, List.nil_append, List.Forall,
    StableHlo.nullary_writes, StableHlo.unary_writes, StableHlo.binary_writes, StableHlo.ternary_writes, StableHlo.reshape_writes]
  repeat' apply And.intro
  all_goals exact single_sub_tailWrites (by decide)

/-- A buffer outside that list is written by no operation after the region. -/
theorem tail_not_writes {b : Ref sig .tc} (hb : b ∉ tailWrites) :
    ∀ op ∈ (List.flatten tailOps : List (HloOp τ sig (Elt F))), Proc.devRef .tc b ∉ op.writes := fun op hop hw => by
  obtain ⟨y, hy, he⟩ := List.mem_map.mp (List.mem_toFinset.mp ((List.forall_iff_forall_mem.mp tail_writes) op hop hw))
  exact hb (Proc.devRef_injective _ he ▸ hy)

/-- The lines after the region touch the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)
/-- They allocate nothing. -/
theorem sfx_fresh : ∀ ops ∈ (tailOps : List (List (HloOp τ sig (Elt F)))), ∀ op ∈ ops, op.fresh = ∅ := fun ops hops op hop =>
  (List.forall_iff_forall_mem.mp tail_fresh) op (List.mem_flatten.mpr ⟨ops, hops, hop⟩)
/-- And they write no array of the pipeline: no window's array is among the result buffers. -/
theorem sfx_keeps : ∀ ops ∈ (tailOps : List (List (HloOp τ sig (Elt F)))), ∀ op ∈ ops,
    ∀ w, Proc.devRef .tc (Pipeline.arrRef spec0 w) ∉ op.writes := fun ops hops op hop w =>
  tail_not_writes ((by decide : ∀ w, Pipeline.arrRef spec0 w ∉ tailWrites) w) op (List.mem_flatten.mpr ⟨ops, hops, hop⟩)

/-! ## The argument arrays before and after the region

The five operations before the region write the two halves of `W1`, the two bias rows and the column of graph words, each
a buffer of its own; the 66 after it write their own results. No argument is among either, so each argument array is, at
the region's entry and at the end, what the launch put there. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem W_main_arg2 (dats' : (p : Fin 1) → (c : Dev nD) → Dat τ (Elt F) Unit ℕ (UR sig nD τ) ℕ (cfgs p) c) (c : Dev nD) :
    Pipeline.afterTail₀ cfgs dats' 0 (V0 m) tailOps c main_arg2 = m ((c : Thread nD τ).loc main_arg2) := by
  unfold Pipeline.afterTail₀
  rw [StableHlo.after_of_forall_not_mem (b := Proc.devRef .tc main_arg2) _ _ (tail_not_writes (by decide)),
    Pipeline.withArrays_of_ne _ c (V0 m c) _ main_arg2 (by exact (by decide : ∀ w, Pipeline.arrRef spec0 w ≠ main_arg2))]
  exact V_main_arg2 m c

theorem W_main_arg3 (dats' : (p : Fin 1) → (c : Dev nD) → Dat τ (Elt F) Unit ℕ (UR sig nD τ) ℕ (cfgs p) c) (c : Dev nD) :
    Pipeline.afterTail₀ cfgs dats' 0 (V0 m) tailOps c main_arg3 = m ((c : Thread nD τ).loc main_arg3) := by
  unfold Pipeline.afterTail₀
  rw [StableHlo.after_of_forall_not_mem (b := Proc.devRef .tc main_arg3) _ _ (tail_not_writes (by decide)),
    Pipeline.withArrays_of_ne _ c (V0 m c) _ main_arg3 (by exact (by decide : ∀ w, Pipeline.arrRef spec0 w ≠ main_arg3))]
  exact V_main_arg3 m c

theorem W_main_arg5 (dats' : (p : Fin 1) → (c : Dev nD) → Dat τ (Elt F) Unit ℕ (UR sig nD τ) ℕ (cfgs p) c) (c : Dev nD) :
    Pipeline.afterTail₀ cfgs dats' 0 (V0 m) tailOps c main_arg5 = m ((c : Thread nD τ).loc main_arg5) := by
  unfold Pipeline.afterTail₀
  rw [StableHlo.after_of_forall_not_mem (b := Proc.devRef .tc main_arg5) _ _ (tail_not_writes (by decide)),
    Pipeline.withArrays_of_ne _ c (V0 m c) _ main_arg5 (by exact (by decide : ∀ w, Pipeline.arrRef spec0 w ≠ main_arg5))]
  exact V_main_arg5 m c

theorem W_main_arg6 (dats' : (p : Fin 1) → (c : Dev nD) → Dat τ (Elt F) Unit ℕ (UR sig nD τ) ℕ (cfgs p) c) (c : Dev nD) :
    Pipeline.afterTail₀ cfgs dats' 0 (V0 m) tailOps c main_arg6 = m ((c : Thread nD τ).loc main_arg6) := by
  unfold Pipeline.afterTail₀
  rw [StableHlo.after_of_forall_not_mem (b := Proc.devRef .tc main_arg6) _ _ (tail_not_writes (by decide)),
    Pipeline.withArrays_of_ne _ c (V0 m c) _ main_arg6 (by exact (by decide : ∀ w, Pipeline.arrRef spec0 w ≠ main_arg6))]
  exact V_main_arg6 m c

theorem W_main_arg7 (dats' : (p : Fin 1) → (c : Dev nD) → Dat τ (Elt F) Unit ℕ (UR sig nD τ) ℕ (cfgs p) c) (c : Dev nD) :
    Pipeline.afterTail₀ cfgs dats' 0 (V0 m) tailOps c main_arg7 = m ((c : Thread nD τ).loc main_arg7) := by
  unfold Pipeline.afterTail₀
  rw [StableHlo.after_of_forall_not_mem (b := Proc.devRef .tc main_arg7) _ _ (tail_not_writes (by decide)),
    Pipeline.withArrays_of_ne _ c (V0 m c) _ main_arg7 (by exact (by decide : ∀ w, Pipeline.arrRef spec0 w ≠ main_arg7))]
  exact V_main_arg7 m c

theorem W_main_arg8 (dats' : (p : Fin 1) → (c : Dev nD) → Dat τ (Elt F) Unit ℕ (UR sig nD τ) ℕ (cfgs p) c) (c : Dev nD) :
    Pipeline.afterTail₀ cfgs dats' 0 (V0 m) tailOps c main_arg8 = m ((c : Thread nD τ).loc main_arg8) := by
  unfold Pipeline.afterTail₀
  rw [StableHlo.after_of_forall_not_mem (b := Proc.devRef .tc main_arg8) _ _ (tail_not_writes (by decide)),
    Pipeline.withArrays_of_ne _ c (V0 m c) _ main_arg8 (by exact (by decide : ∀ w, Pipeline.arrRef spec0 w ≠ main_arg8))]
  exact V_main_arg8 m c

theorem W_main_arg0 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) tailOps c main_arg0 = m ((c : Thread nD τ).loc main_arg0) := by
  unfold Pipeline.afterTail₀
  rw [StableHlo.after_of_forall_not_mem (b := Proc.devRef .tc main_arg0) _ _ (tail_not_writes (by decide))]
  exact (Pipeline.withArrays_arr spec0 launch0.win.arr_inj c (V0 m c) _ 0).trans
    (((dats' 0 c).arrAt_in 0 rfl _).trans ((hA c 0).trans (V_main_arg0 m c)))

theorem W_main_arg1 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) tailOps c main_arg1 = m ((c : Thread nD τ).loc main_arg1) := by
  unfold Pipeline.afterTail₀
  rw [StableHlo.after_of_forall_not_mem (b := Proc.devRef .tc main_arg1) _ _ (tail_not_writes (by decide))]
  exact (Pipeline.withArrays_arr spec0 launch0.win.arr_inj c (V0 m c) _ 2).trans
    (((dats' 0 c).arrAt_in 2 rfl _).trans ((hA c 2).trans (V_main_arg1 m c)))

theorem W_main_arg4 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) tailOps c main_arg4 = m ((c : Thread nD τ).loc main_arg4) := by
  unfold Pipeline.afterTail₀
  rw [StableHlo.after_of_forall_not_mem (b := Proc.devRef .tc main_arg4) _ _ (tail_not_writes (by decide))]
  exact (Pipeline.withArrays_arr spec0 launch0.win.arr_inj c (V0 m c) _ 5).trans
    (((dats' 0 c).arrAt_in 5 rfl _).trans ((hA c 5).trans (V_main_arg4 m c)))

/-! ## What the body finds in each input's buffer

A window's block at a point is a function of its block index there. An input fetched at the point holds that block; one
not fetched has the block index of the point before, whose block the body left in place: the same block. So every
input's current buffer holds its block at every point, the resident windows' (fetched once) as the moving ones'. -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq m c 0]; try rfl) t d).trans
    (by unfold Dat.fetched Dat.blockOf iblk; rw [A_eq m c 0]; try rfl)

theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq m c 1]; try rfl) t d).trans
    (by unfold Dat.fetched Dat.blockOf iblk; rw [A_eq m c 1]; try rfl)

theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq m c 2]; try rfl) t d).trans
    (by unfold Dat.fetched Dat.blockOf iblk; rw [A_eq m c 2]; try rfl)

theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq m c 3]; try rfl) t d).trans
    (by unfold Dat.fetched Dat.blockOf iblk; rw [A_eq m c 3]; try rfl)

theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq m c 4]; try rfl) t d).trans
    (by unfold Dat.fetched Dat.blockOf iblk; rw [A_eq m c 4]; try rfl)

theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq m c 5]; try rfl) t d).trans
    (by unfold Dat.fetched Dat.blockOf iblk; rw [A_eq m c 5]; try rfl)

theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq m c 6]; try rfl) t d).trans
    (by unfold Dat.fetched Dat.blockOf iblk; rw [A_eq m c 6]; try rfl)

theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq m c 7]; try rfl) t d).trans
    (by unfold Dat.fetched Dat.blockOf iblk; rw [A_eq m c 7]; try rfl)

/-! ## The body's one store covers the output block -/

theorem cover0_8 (p0 : Vec F S2000x24 .f32) (y : S2000x24.Idx) :
    ∃ pc ∈ ([⟨rOut, p0⟩] : List (View.Piece (Elt F) S2000x24 .f32)), y ∈ pc.1.set :=
  View.cover_of_tiled [⟨rOut, p0⟩] S2000x24.size (by rfl) y

/-! ## The body's triple -/

set_option maxHeartbeats 1000000 in
/-- The kernel body on whole staging memrefs, the eight inputs' reading `x0 … x7` and the output's anything, runs to its
    continuation with the inputs' as they were and the output's reading the block of scores of the eight: it loads each
    input whole, and its one store of the payload of those loads covers the output block. -/
theorem sound_kernel (c : Dev nD) (E : Set ℕ) (i : grid0.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x24 .f32) (harg6 : arg6.IsWhole) (arg7 : Memref sig .tc .vmem S1x128 .f32) (harg7 : arg7.IsWhole) (arg8 : Memref sig .tc .vmem S1x24 .f32) (harg8 : arg8.IsWhole) (arg9 : Memref sig .tc .vmem S2000x24 .f32) (harg9 : arg9.IsWhole)
    (x0 : Vec F S2000x128 .f32) (x1 : Vec F S2000x1 .i32) (x2 : Vec F S512x128 .f32) (x3 : Vec F S128x128 .f32) (x4 : Vec F S128x128 .f32) (x5 : Vec F S128x24 .f32) (x6 : Vec F S1x128 .f32) (x7 : Vec F S1x24 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (scoresBlock x0 x1 x2 x3 x4 x5 x6 x7)) -∗ K ⟨⟩))
      ⊢ wp frame (wpE (defs₀ (F := F)) Variants.none c none) E (cc0__mlp_gather_kernel i arg1 harg1 arg2 harg2 arg3 harg3 arg4 harg4 arg5 harg5 arg6 harg6 arg7 harg7 arg8 harg8 arg9 harg9) K := by
  simp only [cc0__mlp_gather_kernel_eq_skeleton]; unfold cc0__mlp_gather_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The body obligation, at a generic point -/

/-- What the body is called with at point `t`: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: each input's buffer holds its block, so the body's triple applies at the eight blocks; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has each array of the pipeline at what the proof data say (an input as
    the region found it, the scores' array with each point's block of scores written back) and every other unscoped
    buffer as the 66 operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Frame.run_main' depends on axioms: [propext, Classical.choice, Quot.sound] -/
#guard_msgs in #print axioms run_main

/-- The nine argument arrays in a final state of the frame run, for any proof data whose arrays are the region-entry
    contents: the node features, the graph table and `W2` are inputs the region stages, left as found; the other six
    bypass the region and no later operation writes them. Each is then what no operation before the region wrote: the
    launch contents. -/
theorem args_of_post (dats' : (p : Fin 1) → (c : Dev nD) → Dat τ (Elt F) Unit ℕ (UR sig nD τ) ℕ (cfgs p) c)
    (hA : ∀ c w, (dats' 0 c).A w = V m c (Pipeline.arrRef spec0 w)) (r : PUnit × MemSt nD τ sig (Elt F))
    (h : Pipeline.FramePost cfgs dats' 0 (Pipeline.afterTail₀ cfgs dats' 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats' 0 c).arrAt_in 0 rfl _).trans ((hA c 0).trans (V_main_arg0 m c))),
   ((h c).1 2).trans (((dats' 0 c).arrAt_in 2 rfl _).trans ((hA c 2).trans (V_main_arg1 m c))),
   ((h c).2 main_arg2 (Pipeline.mem_restRefs_of main_arg2 (by decide) (by decide))).trans (W_main_arg2 m dats' c),
   ((h c).2 main_arg3 (Pipeline.mem_restRefs_of main_arg3 (by decide) (by decide))).trans (W_main_arg3 m dats' c),
   ((h c).1 5).trans (((dats' 0 c).arrAt_in 5 rfl _).trans ((hA c 5).trans (V_main_arg4 m c))),
   ((h c).2 main_arg5 (Pipeline.mem_restRefs_of main_arg5 (by decide) (by decide))).trans (W_main_arg5 m dats' c),
   ((h c).2 main_arg6 (Pipeline.mem_restRefs_of main_arg6 (by decide) (by decide))).trans (W_main_arg6 m dats' c),
   ((h c).2 main_arg7 (Pipeline.mem_restRefs_of main_arg7 (by decide) (by decide))).trans (W_main_arg7 m dats' c),
   ((h c).2 main_arg8 (Pipeline.mem_restRefs_of main_arg8 (by decide) (by decide))).trans (W_main_arg8 m dats' c)⟩

/-- The frame: @main runs and its nine argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_post m (dats m) (A_eq m) r h c) (run_main m ρ)

end Cert.Kernel.Frame

end
-- ==== Proof.KDefsIdeal.lean ====
/-
  The proof data of the one pallas_call: what the region finds in each array, each window's block at a grid point,
  and what the body leaves in each window's staging buffer.

  The grid has 250 points; point `t` handles nodes 2000 t … 2000 t + 1999. Windows 0 and 1 (the node features and the
  column of graph words) move with the point, windows 2 … 7 (the graph table, the two halves of the first layer's
  weights, the second layer's weights, and the two bias rows) are the whole arrays at every point, and window 8 is the
  block of scores the point writes back. The body loads every input block whole, computes one block of scores (the
  skeleton's one payload) and stores it over the whole output block: the staging buffer of window 8 after the body is
  that payload of the eight loaded blocks, and every input's buffer is left as it was.
-/
import proofs.«423639_j43971875176948_1_alg».proof.Proof.Gen.KernelIdeal.Launch
import proofs.«423639_j43971875176948_1_alg».proof.Proof.Gen.KernelIdeal.Skeleton
import proofs.«423639_j43971875176948_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frame

open Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ)

/-- The ten stretches of host operations that follow the region, in program order. -/
abbrev tailOps : List (List (HloOp τ sig (Elt F))) :=
  [hostOps1, hostOps1_1, hostOps1_2, hostOps1_3, hostOps1_4, hostOps1_5, hostOps1_6, hostOps1_7, hostOps1_8, hostOps1_9]

/-- Core `c`'s buffer contents when the region is entered: the launch contents after the five host operations before
    it (the two halves of `W1`, the two bias rows, the graph words as a column). -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a whole block -/

abbrev rX : Rect S2000x128 := Rect.unit (s := S2000x128) ![0, 0] S2000x128.size inb_S2000x128_S2000x128_0_0
abbrev rB : Rect S2000x1 := Rect.unit (s := S2000x1) ![0, 0] S2000x1.size inb_S2000x1_S2000x1_0_0
abbrev rG : Rect S512x128 := Rect.unit (s := S512x128) ![0, 0] S512x128.size inb_S512x128_S512x128_0_0
abbrev rW1 : Rect S128x128 := Rect.unit (s := S128x128) ![0, 0] S128x128.size inb_S128x128_S128x128_0_0
abbrev rW2 : Rect S128x24 := Rect.unit (s := S128x24) ![0, 0] S128x24.size inb_S128x24_S128x24_0_0
abbrev rb1 : Rect S1x128 := Rect.unit (s := S1x128) ![0, 0] S1x128.size inb_S1x128_S1x128_0_0
abbrev rb2 : Rect S1x24 := Rect.unit (s := S1x24) ![0, 0] S1x24.size inb_S1x24_S1x24_0_0
abbrev rOut : Rect S2000x24 := Rect.unit (s := S2000x24) ![0, 0] S2000x24.size inb_S2000x24_S2000x24_0_0

/-- The block of scores the body leaves in window 8's staging buffer, from the eight input blocks: its one store, of the
    payload of the eight loads (node features, graph words, graph table, upper and lower half of `W1`, `W2`, the row of
    `b1`, the row of `b2`). -/
def scoresBlock (x0 : Vec F S2000x128 .f32) (x1 : Vec F S2000x1 .i32) (x2 : Vec F S512x128 .f32) (x3 x4 : Vec F S128x128 .f32)
    (x5 : Vec F S128x24 .f32) (x6 : Vec F S1x128 .f32) (x7 : Vec F S1x24 .f32) : Vec F S2000x24 .f32 :=
  View.canon [⟨rOut, k0_pay1 (View.ld x1 rB) (View.ld x2 rG) (View.ld x0 rX) (View.ld x3 rW1) (View.ld x4 rW1) (View.ld x6 rb1) (View.ld x5 rW2) (View.ld x7 rb2)⟩]

/-- The proof data of the pipeline on core `c`: the arrays as the region finds them; after the body at point `t` each
    input's buffer at its block and the output's at the block of scores of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => scoresBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = scoresBlock (iblk m c 0 t) (iblk m c 1 t) (iblk m c 2 t) (iblk m c 3 t) (iblk m c 4 t) (iblk m c 5 t) (iblk m c 6 t) (iblk m c 7 t) := by
  dsimp only [dats]

end Cert.KernelIdeal.Frame

end
-- ==== Proof.KFrameIdeal.lean ====
/-
  The frame run of the kernel program: @main runs to its end, and its nine argument arrays end as launched.

  @main is five host operations (the two halves of `W1`, the two bias rows, the graph words as a column), the one region,
  and 66 host operations in ten stretches that scatter the scores into the padded table. The region is a pipeline over 250
  points with nine windows; its body loads each of its eight input blocks whole, computes one block of scores and stores
  it over the whole output block. So the proof has three parts: the lines around the region touch neither an argument nor,
  after it, a window's array; every input's buffer holds its block at every point, whether the window moves with the
  point or is fetched once; and the body's one store, a payload of the eight loads, covers the output block.
-/
import proofs.«423639_j43971875176948_1_alg».proof.Proof.KDefsIdeal
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines of @main around the region -/

theorem hostOps0_fresh : (hostOps0 : List (HloOp τ sig (Elt F))).Forall fun op => op.fresh = ∅ := by
  simp only [List.Forall]; repeat' constructor

/-- No operation after the region allocates. -/
theorem tail_fresh : (List.flatten tailOps : List (HloOp τ sig (Elt F))).Forall fun op => op.fresh = ∅ := by
  simp only [List.flatten_cons, List.flatten_nil, List.append_nil, List.cons_append, List.nil_append, List.Forall]
  repeat' constructor

/-- Every operation after the region stays within the TensorCore's references. -/
theorem tail_sub : ∀ ops ∈ (tailOps : List (List (HloOp τ sig (Elt F)))), ops.Forall fun op => op.bufs ⊆ StableHlo.tcRefs τ sig := by
  intro ops hops
  simp only [List.mem_cons, List.mem_nil_iff, or_false] at hops
  rcases hops with rfl | rfl | rfl | rfl | rfl | rfl | rfl | rfl | rfl | rfl
  · exact hostOps1_sub
  · exact hostOps1_1_sub
  · exact hostOps1_2_sub
  · exact hostOps1_3_sub
  · exact hostOps1_4_sub
  · exact hostOps1_5_sub
  · exact hostOps1_6_sub
  · exact hostOps1_7_sub
  · exact hostOps1_8_sub
  · exact hostOps1_9_sub

theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The buffers the operations after the region write, in program order: each operation writes its one result. -/
def tailWrites : List (Ref sig .tc) :=
  [main_v6, main_call0_call0_c, main_call0_call0_v0, main_v7, main_c, main_v8, main_v9, main_v10, main_c_0, main_v11,
   main_call1_call0_c, main_call1_call0_v0, main_v12, main_v13, main_v14, main_c_1, main_v15, main_v16, main_c_2, main_v17,
   main_v18, main_c_3, main_v19, main_v20, main_v21, main_v22, main_v23, main_v24, main_c_4, main_v25, main_v26, main_v27,
   main_c_5, main_call2_v0, main_call2_v1, main_v28, main_c_6, main_call3_v0, main_call3_v1, main_v29, main_cst, main_v30,
   main_c_7, main_v31, main_v32, main_c_8, main_v33, main_v34, main_v35, main_c_9, main_v36, main_v37, main_c_10, main_v38,
   main_v39, main_v40, main_v41, main_v42, main_v43, main_v44, main_v45, main_v46, main_cst_11, main_call4_v0, main_call4_v1,
   main_v47]

/-- A result buffer listed in `tailWrites` is, as a device buffer, among the listed device buffers. -/
theorem single_sub_tailWrites {y : Ref sig .tc} (hy : y ∈ tailWrites) :
    ({Proc.devRef (τ := τ) .tc y} : Finset (DevRef τ sig)) ⊆ (tailWrites.map (Proc.devRef (τ := τ) .tc)).toFinset :=
  Finset.singleton_subset_iff.mpr (List.mem_toFinset.mpr (List.mem_map.mpr ⟨y, hy, rfl⟩))

/-- Every operation after the region writes only buffers of that list. -/
theorem tail_writes : (List.flatten tailOps : List (HloOp τ sig (Elt F))).Forall fun op =>
    op.writes ⊆ (tailWrites.map (Proc.devRef (τ := τ) .tc)).toFinset := by
  simp only [List.flatten_cons, List.flatten_nil, List.append_nil, List.cons_append, List.nil_append, List.Forall,
    StableHlo.nullary_writes, StableHlo.unary_writes, StableHlo.binary_writes, StableHlo.ternary_writes, StableHlo.reshape_writes]
  repeat' apply And.intro
  all_goals exact single_sub_tailWrites (by decide)

/-- A buffer outside that list is written by no operation after the region. -/
theorem tail_not_writes {b : Ref sig .tc} (hb : b ∉ tailWrites) :
    ∀ op ∈ (List.flatten tailOps : List (HloOp τ sig (Elt F))), Proc.devRef .tc b ∉ op.writes := fun op hop hw => by
  obtain ⟨y, hy, he⟩ := List.mem_map.mp (List.mem_toFinset.mp ((List.forall_iff_forall_mem.mp tail_writes) op hop hw))
  exact hb (Proc.devRef_injective _ he ▸ hy)

/-- The lines after the region touch the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)
/-- They allocate nothing. -/
theorem sfx_fresh : ∀ ops ∈ (tailOps : List (List (HloOp τ sig (Elt F)))), ∀ op ∈ ops, op.fresh = ∅ := fun ops hops op hop =>
  (List.forall_iff_forall_mem.mp tail_fresh) op (List.mem_flatten.mpr ⟨ops, hops, hop⟩)
/-- And they write no array of the pipeline: no window's array is among the result buffers. -/
theorem sfx_keeps : ∀ ops ∈ (tailOps : List (List (HloOp τ sig (Elt F)))), ∀ op ∈ ops,
    ∀ w, Proc.devRef .tc (Pipeline.arrRef spec0 w) ∉ op.writes := fun ops hops op hop w =>
  tail_not_writes ((by decide : ∀ w, Pipeline.arrRef spec0 w ∉ tailWrites) w) op (List.mem_flatten.mpr ⟨ops, hops, hop⟩)

/-! ## The argument arrays before and after the region

The five operations before the region write the two halves of `W1`, the two bias rows and the column of graph words, each
a buffer of its own; the 66 after it write their own results. No argument is among either, so each argument array is, at
the region's entry and at the end, what the launch put there. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

theorem W_main_arg2 (dats' : (p : Fin 1) → (c : Dev nD) → Dat τ (Elt F) Unit ℕ (UR sig nD τ) ℕ (cfgs p) c) (c : Dev nD) :
    Pipeline.afterTail₀ cfgs dats' 0 (V0 m) tailOps c main_arg2 = m ((c : Thread nD τ).loc main_arg2) := by
  unfold Pipeline.afterTail₀
  rw [StableHlo.after_of_forall_not_mem (b := Proc.devRef .tc main_arg2) _ _ (tail_not_writes (by decide)),
    Pipeline.withArrays_of_ne _ c (V0 m c) _ main_arg2 (by exact (by decide : ∀ w, Pipeline.arrRef spec0 w ≠ main_arg2))]
  exact V_main_arg2 m c

theorem W_main_arg3 (dats' : (p : Fin 1) → (c : Dev nD) → Dat τ (Elt F) Unit ℕ (UR sig nD τ) ℕ (cfgs p) c) (c : Dev nD) :
    Pipeline.afterTail₀ cfgs dats' 0 (V0 m) tailOps c main_arg3 = m ((c : Thread nD τ).loc main_arg3) := by
  unfold Pipeline.afterTail₀
  rw [StableHlo.after_of_forall_not_mem (b := Proc.devRef .tc main_arg3) _ _ (tail_not_writes (by decide)),
    Pipeline.withArrays_of_ne _ c (V0 m c) _ main_arg3 (by exact (by decide : ∀ w, Pipeline.arrRef spec0 w ≠ main_arg3))]
  exact V_main_arg3 m c

theorem W_main_arg5 (dats' : (p : Fin 1) → (c : Dev nD) → Dat τ (Elt F) Unit ℕ (UR sig nD τ) ℕ (cfgs p) c) (c : Dev nD) :
    Pipeline.afterTail₀ cfgs dats' 0 (V0 m) tailOps c main_arg5 = m ((c : Thread nD τ).loc main_arg5) := by
  unfold Pipeline.afterTail₀
  rw [StableHlo.after_of_forall_not_mem (b := Proc.devRef .tc main_arg5) _ _ (tail_not_writes (by decide)),
    Pipeline.withArrays_of_ne _ c (V0 m c) _ main_arg5 (by exact (by decide : ∀ w, Pipeline.arrRef spec0 w ≠ main_arg5))]
  exact V_main_arg5 m c

theorem W_main_arg6 (dats' : (p : Fin 1) → (c : Dev nD) → Dat τ (Elt F) Unit ℕ (UR sig nD τ) ℕ (cfgs p) c) (c : Dev nD) :
    Pipeline.afterTail₀ cfgs dats' 0 (V0 m) tailOps c main_arg6 = m ((c : Thread nD τ).loc main_arg6) := by
  unfold Pipeline.afterTail₀
  rw [StableHlo.after_of_forall_not_mem (b := Proc.devRef .tc main_arg6) _ _ (tail_not_writes (by decide)),
    Pipeline.withArrays_of_ne _ c (V0 m c) _ main_arg6 (by exact (by decide : ∀ w, Pipeline.arrRef spec0 w ≠ main_arg6))]
  exact V_main_arg6 m c

theorem W_main_arg7 (dats' : (p : Fin 1) → (c : Dev nD) → Dat τ (Elt F) Unit ℕ (UR sig nD τ) ℕ (cfgs p) c) (c : Dev nD) :
    Pipeline.afterTail₀ cfgs dats' 0 (V0 m) tailOps c main_arg7 = m ((c : Thread nD τ).loc main_arg7) := by
  unfold Pipeline.afterTail₀
  rw [StableHlo.after_of_forall_not_mem (b := Proc.devRef .tc main_arg7) _ _ (tail_not_writes (by decide)),
    Pipeline.withArrays_of_ne _ c (V0 m c) _ main_arg7 (by exact (by decide : ∀ w, Pipeline.arrRef spec0 w ≠ main_arg7))]
  exact V_main_arg7 m c

theorem W_main_arg8 (dats' : (p : Fin 1) → (c : Dev nD) → Dat τ (Elt F) Unit ℕ (UR sig nD τ) ℕ (cfgs p) c) (c : Dev nD) :
    Pipeline.afterTail₀ cfgs dats' 0 (V0 m) tailOps c main_arg8 = m ((c : Thread nD τ).loc main_arg8) := by
  unfold Pipeline.afterTail₀
  rw [StableHlo.after_of_forall_not_mem (b := Proc.devRef .tc main_arg8) _ _ (tail_not_writes (by decide)),
    Pipeline.withArrays_of_ne _ c (V0 m c) _ main_arg8 (by exact (by decide : ∀ w, Pipeline.arrRef spec0 w ≠ main_arg8))]
  exact V_main_arg8 m c

theorem W_main_arg0 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) tailOps c main_arg0 = m ((c : Thread nD τ).loc main_arg0) := by
  unfold Pipeline.afterTail₀
  rw [StableHlo.after_of_forall_not_mem (b := Proc.devRef .tc main_arg0) _ _ (tail_not_writes (by decide))]
  exact (Pipeline.withArrays_arr spec0 launch0.win.arr_inj c (V0 m c) _ 0).trans
    (((dats' 0 c).arrAt_in 0 rfl _).trans ((hA c 0).trans (V_main_arg0 m c)))

theorem W_main_arg1 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) tailOps c main_arg1 = m ((c : Thread nD τ).loc main_arg1) := by
  unfold Pipeline.afterTail₀
  rw [StableHlo.after_of_forall_not_mem (b := Proc.devRef .tc main_arg1) _ _ (tail_not_writes (by decide))]
  exact (Pipeline.withArrays_arr spec0 launch0.win.arr_inj c (V0 m c) _ 2).trans
    (((dats' 0 c).arrAt_in 2 rfl _).trans ((hA c 2).trans (V_main_arg1 m c)))

theorem W_main_arg4 (dats' : (p : Fin 1) → (c : Dev nD) → Dat τ (Elt F) Unit ℕ (UR sig nD τ) ℕ (cfgs p) c)
    (hA : ∀ c w, (dats' 0 c).A w = V m c (Pipeline.arrRef spec0 w)) (c : Dev nD) :
    Pipeline.afterTail₀ cfgs dats' 0 (V0 m) tailOps c main_arg4 = m ((c : Thread nD τ).loc main_arg4) := by
  unfold Pipeline.afterTail₀
  rw [StableHlo.after_of_forall_not_mem (b := Proc.devRef .tc main_arg4) _ _ (tail_not_writes (by decide))]
  exact (Pipeline.withArrays_arr spec0 launch0.win.arr_inj c (V0 m c) _ 5).trans
    (((dats' 0 c).arrAt_in 5 rfl _).trans ((hA c 5).trans (V_main_arg4 m c)))

/-! ## What the body finds in each input's buffer

A window's block at a point is a function of its block index there. An input fetched at the point holds that block; one
not fetched has the block index of the point before, whose block the body left in place: the same block. So every
input's current buffer holds its block at every point, the resident windows' (fetched once) as the moving ones'. -/

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq m c 0]; try rfl) t d).trans
    (by unfold Dat.fetched Dat.blockOf iblk; rw [A_eq m c 0]; try rfl)

theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq m c 1]; try rfl) t d).trans
    (by unfold Dat.fetched Dat.blockOf iblk; rw [A_eq m c 1]; try rfl)

theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq m c 2]; try rfl) t d).trans
    (by unfold Dat.fetched Dat.blockOf iblk; rw [A_eq m c 2]; try rfl)

theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq m c 3]; try rfl) t d).trans
    (by unfold Dat.fetched Dat.blockOf iblk; rw [A_eq m c 3]; try rfl)

theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq m c 4]; try rfl) t d).trans
    (by unfold Dat.fetched Dat.blockOf iblk; rw [A_eq m c 4]; try rfl)

theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq m c 5]; try rfl) t d).trans
    (by unfold Dat.fetched Dat.blockOf iblk; rw [A_eq m c 5]; try rfl)

theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq m c 6]; try rfl) t d).trans
    (by unfold Dat.fetched Dat.blockOf iblk; rw [A_eq m c 6]; try rfl)

theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq m c 7]; try rfl) t d).trans
    (by unfold Dat.fetched Dat.blockOf iblk; rw [A_eq m c 7]; try rfl)

/-! ## The body's one store covers the output block -/

theorem cover0_8 (p0 : Vec F S2000x24 .f32) (y : S2000x24.Idx) :
    ∃ pc ∈ ([⟨rOut, p0⟩] : List (View.Piece (Elt F) S2000x24 .f32)), y ∈ pc.1.set :=
  View.cover_of_tiled [⟨rOut, p0⟩] S2000x24.size (by rfl) y

/-! ## The body's triple -/

set_option maxHeartbeats 1000000 in
/-- The kernel body on whole staging memrefs, the eight inputs' reading `x0 … x7` and the output's anything, runs to its
    continuation with the inputs' as they were and the output's reading the block of scores of the eight: it loads each
    input whole, and its one store of the payload of those loads covers the output block. -/
theorem sound_kernel (c : Dev nD) (E : Set ℕ) (i : grid0.Coords) (arg1 : Memref sig .tc .vmem S2000x128 .f32) (harg1 : arg1.IsWhole) (arg2 : Memref sig .tc .vmem S2000x1 .i32) (harg2 : arg2.IsWhole) (arg3 : Memref sig .tc .vmem S512x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x24 .f32) (harg6 : arg6.IsWhole) (arg7 : Memref sig .tc .vmem S1x128 .f32) (harg7 : arg7.IsWhole) (arg8 : Memref sig .tc .vmem S1x24 .f32) (harg8 : arg8.IsWhole) (arg9 : Memref sig .tc .vmem S2000x24 .f32) (harg9 : arg9.IsWhole)
    (x0 : Vec F S2000x128 .f32) (x1 : Vec F S2000x1 .i32) (x2 : Vec F S512x128 .f32) (x3 : Vec F S128x128 .f32) (x4 : Vec F S128x128 .f32) (x5 : Vec F S128x24 .f32) (x6 : Vec F S1x128 .f32) (x7 : Vec F S1x24 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (scoresBlock x0 x1 x2 x3 x4 x5 x6 x7)) -∗ K ⟨⟩))
      ⊢ wp frame (wpE (defs₀ (F := F)) Variants.none c none) E (cc0__mlp_gather_kernel i arg1 harg1 arg2 harg2 arg3 harg3 arg4 harg4 arg5 harg5 arg6 harg6 arg7 harg7 arg8 harg8 arg9 harg9) K := by
  simp only [cc0__mlp_gather_kernel_eq_skeleton]; unfold cc0__mlp_gather_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The body obligation, at a generic point -/

/-- What the body is called with at point `t`: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: each input's buffer holds its block, so the body's triple applies at the eight blocks; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has each array of the pipeline at what the proof data say (an input as
    the region found it, the scores' array with each point's block of scores written back) and every other unscoped
    buffer as the 66 operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Frame.run_main' depends on axioms: [propext, Classical.choice, Quot.sound] -/
#guard_msgs in #print axioms run_main

/-- The nine argument arrays in a final state of the frame run, for any proof data whose arrays are the region-entry
    contents: the node features, the graph table and `W2` are inputs the region stages, left as found; the other six
    bypass the region and no later operation writes them. Each is then what no operation before the region wrote: the
    launch contents. -/
theorem args_of_post (dats' : (p : Fin 1) → (c : Dev nD) → Dat τ (Elt F) Unit ℕ (UR sig nD τ) ℕ (cfgs p) c)
    (hA : ∀ c w, (dats' 0 c).A w = V m c (Pipeline.arrRef spec0 w)) (r : PUnit × MemSt nD τ sig (Elt F))
    (h : Pipeline.FramePost cfgs dats' 0 (Pipeline.afterTail₀ cfgs dats' 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats' 0 c).arrAt_in 0 rfl _).trans ((hA c 0).trans (V_main_arg0 m c))),
   ((h c).1 2).trans (((dats' 0 c).arrAt_in 2 rfl _).trans ((hA c 2).trans (V_main_arg1 m c))),
   ((h c).2 main_arg2 (Pipeline.mem_restRefs_of main_arg2 (by decide) (by decide))).trans (W_main_arg2 m dats' c),
   ((h c).2 main_arg3 (Pipeline.mem_restRefs_of main_arg3 (by decide) (by decide))).trans (W_main_arg3 m dats' c),
   ((h c).1 5).trans (((dats' 0 c).arrAt_in 5 rfl _).trans ((hA c 5).trans (V_main_arg4 m c))),
   ((h c).2 main_arg5 (Pipeline.mem_restRefs_of main_arg5 (by decide) (by decide))).trans (W_main_arg5 m dats' c),
   ((h c).2 main_arg6 (Pipeline.mem_restRefs_of main_arg6 (by decide) (by decide))).trans (W_main_arg6 m dats' c),
   ((h c).2 main_arg7 (Pipeline.mem_restRefs_of main_arg7 (by decide) (by decide))).trans (W_main_arg7 m dats' c),
   ((h c).2 main_arg8 (Pipeline.mem_restRefs_of main_arg8 (by decide) (by decide))).trans (W_main_arg8 m dats' c)⟩

/-- The frame: @main runs and its nine argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_of_post m (dats m) (A_eq m) r h c) (run_main m ρ)

end Cert.KernelIdeal.Frame

end
-- ==== Proof.Spec.lean ====
/-
  The per-node score of the move head, as one function of the argument arrays over the extended reals.

  For node `n` whose graph is `g`, hidden unit `h` is the positive part of
  `sum_k x[n,k] * W1[k,h] + sum_k G[g,k] * W1[128+k,h] + b1[h]`: the first layer applied to the node's own
  features and to its graph's features, each against its own half of the rows of `W1`. The score of move `q` is
  `sum_h hidden[h] * W2[h,q] + b2[q]`. Both programs compute this function; they differ in how the graph's row
  reaches the first layer (a product with a one-hot row, or a row read at an index followed by one product over
  the concatenated 256 features).
-/
import Idealize.ShloMosaic.PureOps.Ideal
import Idealize.ShloMosaic.Lib.ValueIdx

noncomputable section

open scoped BigOperators

namespace Cert.Spec

open Idealize.ShloMosaic Idealize.ShloMosaic.ValueIdx

/-- Row `k` of the upper half of `W1` (the rows that meet the node's own features). -/
def lo (k : Fin 128) : Fin 256 := ⟨k.val, by have := k.isLt; omega⟩
/-- Row `128 + k` of `W1` (the rows that meet the graph's features). -/
def hi (k : Fin 128) : Fin 256 := ⟨128 + k.val, by have := k.isLt; omega⟩

/-- Hidden unit `h` of node `n` in graph `g`: the positive part of the first layer. -/
def hidden (x : (⟨2, ![500000, 128]⟩ : Shape).Idx → EReal) (G : (⟨2, ![512, 128]⟩ : Shape).Idx → EReal)
    (W1 : (⟨2, ![256, 128]⟩ : Shape).Idx → EReal) (b1 : (⟨1, ![128]⟩ : Shape).Idx → EReal)
    (g : Fin 512) (n : Fin 500000) (h : Fin 128) : EReal :=
  max ((∑ k : Fin 128, x (ix2 n k) * W1 (ix2 (lo k) h)) + (∑ k : Fin 128, G (ix2 g k) * W1 (ix2 (hi k) h)) + b1 (ix1 h)) 0

/-- The score of move `q` for node `n` in graph `g`: the second layer over the hidden units. -/
def score (x : (⟨2, ![500000, 128]⟩ : Shape).Idx → EReal) (G : (⟨2, ![512, 128]⟩ : Shape).Idx → EReal)
    (W1 : (⟨2, ![256, 128]⟩ : Shape).Idx → EReal) (b1 : (⟨1, ![128]⟩ : Shape).Idx → EReal)
    (W2 : (⟨2, ![128, 24]⟩ : Shape).Idx → EReal) (b2 : (⟨1, ![24]⟩ : Shape).Idx → EReal)
    (g : Fin 512) (n : Fin 500000) (q : Fin 24) : EReal :=
  (∑ h : Fin 128, hidden x G W1 b1 g n h * W2 (ix2 h q)) + b2 (ix1 q)

end Cert.Spec

end
-- ==== Proof.KBlocks.lean ====
/-
  The eight input blocks of a grid point, entry by entry, as entries of the argument arrays.

  Point `t` of the grid handles the 2000 nodes `2000 t + p`. Its block of node features is rows `2000 t … 2000 t + 1999`
  of the feature array and its block of graph words the same rows of the word column; the other six blocks are whole
  arrays. Five of the arrays the region reads are made by host operations before it: the upper and the lower 128 rows of
  `W1` (two slices), the two biases as rows (a vector `[a]` laid out as `[1, a]`), and the graph words as a column (a vector
  `[n]` laid out as `[n, 1]`); each is read here at an index as the entry of the argument it comes from.
-/
import proofs.«423639_j43971875176948_1_alg».proof.Proof.KDefsIdeal
import proofs.«423639_j43971875176948_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Node `2000 t + p`: row `p` of grid point `t`'s block. -/
def node (t : Fin cfg0.N) (p : Fin 2000) : Fin 500000 :=
  ⟨2000 * t.val + p.val, by have ht : t.val < 250 := lt_of_lt_of_eq t.isLt N_0; have := p.isLt; omega⟩

theorem node_val (t : Fin cfg0.N) (p : Fin 2000) : (node t p).val = 2000 * t.val + p.val := rfl

/-! ## The arrays the region finds, from the launch memory -/

theorem V_arg0 (c : Dev nD) : (V m c main_arg0 : S500000x128.Idx → EReal) = m ((c : Thread nD τ).loc main_arg0) := by
  show StableHlo.after hostOps0 (fun b => m (c, b)) (Proc.devRef .tc main_arg0) = _
  after_results

theorem V_arg1 (c : Dev nD) : (V m c main_arg1 : S512x128.Idx → EReal) = m ((c : Thread nD τ).loc main_arg1) := by
  show StableHlo.after hostOps0 (fun b => m (c, b)) (Proc.devRef .tc main_arg1) = _
  after_results

theorem V_arg4 (c : Dev nD) : (V m c main_arg4 : S128x24.Idx → EReal) = m ((c : Thread nD τ).loc main_arg4) := by
  show StableHlo.after hostOps0 (fun b => m (c, b)) (Proc.devRef .tc main_arg4) = _
  after_results

/-- The upper 128 rows of `W1`. -/
theorem V_v0 (c : Dev nD) : (V m c main_v0 : S128x128.Idx → EReal)
    = extractStridedSlice S128x128 ![0, 0] (m ((c : Thread nD τ).loc main_arg2)) slices_S256x128_S128x128_0_0 := by
  show StableHlo.after hostOps0 (fun b => m (c, b)) (Proc.devRef .tc main_v0) = _
  after_results

/-- The lower 128 rows of `W1`. -/
theorem V_v1 (c : Dev nD) : (V m c main_v1 : S128x128.Idx → EReal)
    = extractStridedSlice S128x128 ![128, 0] (m ((c : Thread nD τ).loc main_arg2)) slices_S256x128_S128x128_128_0 := by
  show StableHlo.after hostOps0 (fun b => m (c, b)) (Proc.devRef .tc main_v1) = _
  after_results

/-- `b1` as a row. -/
theorem V_v2 (c : Dev nD) : (V m c main_v2 : S1x128.Idx → EReal)
    = shapeCast S1x128 (m ((c : Thread nD τ).loc main_arg3)) shapeCasts_S128_S1x128 := by
  show StableHlo.after hostOps0 (fun b => m (c, b)) (Proc.devRef .tc main_v2) = _
  after_results
  rfl

/-- `b2` as a row. -/
theorem V_v3 (c : Dev nD) : (V m c main_v3 : S1x24.Idx → EReal)
    = shapeCast S1x24 (m ((c : Thread nD τ).loc main_arg5)) shapeCasts_S24_S1x24 := by
  show StableHlo.after hostOps0 (fun b => m (c, b)) (Proc.devRef .tc main_v3) = _
  after_results
  rfl

/-- The graph words as a column. -/
theorem V_v4 (c : Dev nD) : (V m c main_v4 : S500000x1.Idx → BitVec 32)
    = shapeCast S500000x1 (m ((c : Thread nD τ).loc main_arg7)) shapeCasts_S500000_S500000x1 := by
  show StableHlo.after hostOps0 (fun b => m (c, b)) (Proc.devRef .tc main_v4) = _
  after_results
  rfl

/-! ## The three layouts read at an index -/

/-- A vector of 500000 words laid out as a column reads, at `(n, 0)`, the vector at `n`. -/
theorem col_apply (x : S500000.Idx → BitVec 32) (n : Fin 500000) :
    shapeCast S500000x1 x shapeCasts_S500000_S500000x1 (ix2 n 0) = x (ix1 n) :=
  shapeCast_apply x _ _ _ (by
    rw [Shape.rowMajor_val_two, Shape.rowMajor_val_one]
    show n.val = n.val * 1 + 0
    omega)

/-- A vector of 128 laid out as a row reads, at `(0, h)`, the vector at `h`. -/
theorem row128_apply (x : S128.Idx → EReal) (h : Fin 128) :
    shapeCast S1x128 x shapeCasts_S128_S1x128 (ix2 0 h) = x (ix1 h) :=
  shapeCast_a_1a_apply x _ 0 h

/-- A vector of 24 laid out as a row reads, at `(0, q)`, the vector at `q`. -/
theorem row24_apply (x : S24.Idx → EReal) (q : Fin 24) :
    shapeCast S1x24 x shapeCasts_S24_S1x24 (ix2 0 q) = x (ix1 q) :=
  shapeCast_a_1a_apply x _ 0 q

/-! ## Where each window's block sits -/

/-- The printed index maps, decided over the 250 grid points: windows 0, 1 and 8 are at block row `t`, the others at
    block 0; every block column is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The blocks, entry by entry -/

/-- Row `p` of point `t`'s block of node features is node `2000 t + p`'s row. -/
theorem blkX (c : Dev nD) (t : Fin cfg0.N) (p : Fin 2000) (k : Fin 128) :
    iblk m c 0 t (ix2 p k) = m ((c : Thread nD τ).loc main_arg0) (ix2 (node t p) k) := by
  show V m c main_arg0 (((cfg0.win 0).blk t).view.emb (ix2 p k)) = _
  rw [V_arg0]
  refine congrArg _ (funext fun a => Fin.ext ?_)
  obtain ⟨e0, e1, -⟩ := idx_facts t
  match a with
  | ⟨0, _⟩ => show win0_0.index t (0 : Fin 2) * 2000 + 1 * p.val = 2000 * t.val + p.val; omega
  | ⟨1, _⟩ => show win0_0.index t (1 : Fin 2) * 128 + 1 * k.val = k.val; omega

/-- Row `p` of point `t`'s block of graph words is node `2000 t + p`'s word. -/
theorem blkB (c : Dev nD) (t : Fin cfg0.N) (p : Fin 2000) :
    iblk m c 1 t (ix2 p 0) = m ((c : Thread nD τ).loc main_arg7) (ix1 (node t p)) := by
  show V m c main_v4 (((cfg0.win 1).blk t).view.emb (ix2 p 0)) = _
  have he : (((cfg0.win 1).blk t).view.emb (ix2 p 0) : S500000x1.Idx) = ix2 (node t p) 0 := by
    funext a; apply Fin.ext
    obtain ⟨-, -, e0, e1, -⟩ := idx_facts t
    match a with
    | ⟨0, _⟩ => show win0_1.index t (0 : Fin 2) * 2000 + 1 * p.val = 2000 * t.val + p.val; omega
    | ⟨1, _⟩ => show win0_1.index t (1 : Fin 2) * 1 + 1 * 0 = 0; omega
  rw [he, V_v4]
  exact col_apply _ _

/-- The graph table's block is the whole table. -/
theorem blkG (c : Dev nD) (t : Fin cfg0.N) (g : Fin 512) (k : Fin 128) :
    iblk m c 2 t (ix2 g k) = m ((c : Thread nD τ).loc main_arg1) (ix2 g k) := by
  show V m c main_arg1 (((cfg0.win 2).blk t).view.emb (ix2 g k)) = _
  rw [V_arg1]
  refine congrArg _ (funext fun a => Fin.ext ?_)
  obtain ⟨-, -, -, -, e0, e1, -⟩ := idx_facts t
  match a with
  | ⟨0, _⟩ => show win0_2.index t (0 : Fin 2) * 512 + 1 * g.val = g.val; omega
  | ⟨1, _⟩ => show win0_2.index t (1 : Fin 2) * 128 + 1 * k.val = k.val; omega

/-- The block of the upper half of `W1` is rows 0 … 127 of `W1`. -/
theorem blkW1a (c : Dev nD) (t : Fin cfg0.N) (k h : Fin 128) :
    iblk m c 3 t (ix2 k h) = m ((c : Thread nD τ).loc main_arg2) (ix2 (Cert.Spec.lo k) h) := by
  show V m c main_v0 (((cfg0.win 3).blk t).view.emb (ix2 k h)) = _
  rw [V_v0]
  refine extractStridedSlice_apply _ _ _ _ _ fun a => ?_
  obtain ⟨-, -, -, -, -, -, e0, e1, -⟩ := idx_facts t
  match a with
  | ⟨0, _⟩ => show k.val = 0 + (win0_3.index t (0 : Fin 2) * 128 + 1 * k.val); omega
  | ⟨1, _⟩ => show h.val = 0 + (win0_3.index t (1 : Fin 2) * 128 + 1 * h.val); omega

/-- The block of the lower half of `W1` is rows 128 … 255 of `W1`. -/
theorem blkW1b (c : Dev nD) (t : Fin cfg0.N) (k h : Fin 128) :
    iblk m c 4 t (ix2 k h) = m ((c : Thread nD τ).loc main_arg2) (ix2 (Cert.Spec.hi k) h) := by
  show V m c main_v1 (((cfg0.win 4).blk t).view.emb (ix2 k h)) = _
  rw [V_v1]
  refine extractStridedSlice_apply _ _ _ _ _ fun a => ?_
  obtain ⟨-, -, -, -, -, -, -, -, e0, e1, -⟩ := idx_facts t
  match a with
  | ⟨0, _⟩ => show 128 + k.val = 128 + (win0_4.index t (0 : Fin 2) * 128 + 1 * k.val); omega
  | ⟨1, _⟩ => show h.val = 0 + (win0_4.index t (1 : Fin 2) * 128 + 1 * h.val); omega

/-- The block of `W2` is the whole of `W2`. -/
theorem blkW2 (c : Dev nD) (t : Fin cfg0.N) (h : Fin 128) (q : Fin 24) :
    iblk m c 5 t (ix2 h q) = m ((c : Thread nD τ).loc main_arg4) (ix2 h q) := by
  show V m c main_arg4 (((cfg0.win 5).blk t).view.emb (ix2 h q)) = _
  rw [V_arg4]
  refine congrArg _ (funext fun a => Fin.ext ?_)
  obtain ⟨-, -, -, -, -, -, -, -, -, -, e0, e1, -⟩ := idx_facts t
  match a with
  | ⟨0, _⟩ => show win0_5.index t (0 : Fin 2) * 128 + 1 * h.val = h.val; omega
  | ⟨1, _⟩ => show win0_5.index t (1 : Fin 2) * 24 + 1 * q.val = q.val; omega

/-- The row of `b1`. -/
theorem blkb1 (c : Dev nD) (t : Fin cfg0.N) (h : Fin 128) :
    iblk m c 6 t (ix2 0 h) = m ((c : Thread nD τ).loc main_arg3) (ix1 h) := by
  show V m c main_v2 (((cfg0.win 6).blk t).view.emb (ix2 0 h)) = _
  have he : (((cfg0.win 6).blk t).view.emb (ix2 0 h) : S1x128.Idx) = ix2 0 h := by
    funext a; apply Fin.ext
    obtain ⟨-, -, -, -, -, -, -, -, -, -, -, -, e0, e1, -⟩ := idx_facts t
    match a with
    | ⟨0, _⟩ => show win0_6.index t (0 : Fin 2) * 1 + 1 * 0 = 0; omega
    | ⟨1, _⟩ => show win0_6.index t (1 : Fin 2) * 128 + 1 * h.val = h.val; omega
  rw [he, V_v2]
  exact row128_apply _ _

/-- The row of `b2`. -/
theorem blkb2 (c : Dev nD) (t : Fin cfg0.N) (q : Fin 24) :
    iblk m c 7 t (ix2 0 q) = m ((c : Thread nD τ).loc main_arg5) (ix1 q) := by
  show V m c main_v3 (((cfg0.win 7).blk t).view.emb (ix2 0 q)) = _
  have he : (((cfg0.win 7).blk t).view.emb (ix2 0 q) : S1x24.Idx) = ix2 0 q := by
    funext a; apply Fin.ext
    obtain ⟨-, -, -, -, -, -, -, -, -, -, -, -, -, -, e0, e1, -⟩ := idx_facts t
    match a with
    | ⟨0, _⟩ => show win0_7.index t (0 : Fin 2) * 1 + 1 * 0 = 0; omega
    | ⟨1, _⟩ => show win0_7.index t (1 : Fin 2) * 24 + 1 * q.val = q.val; omega
  rw [he, V_v3]
  exact row24_apply _ _

end Cert.KernelIdeal.Blocks

end
-- ==== Proof.PayAt.lean ====
/-
  The kernel body's value at an index, over the extended reals.

  The body's arithmetic is one term of its eight loaded blocks. Read at node p of the block and move q it is
  sum_h max (sum_k x[p,k] * A[k,h] + sum_k G[g,k] * B[k,h] + b1[h]) 0 * W2[h,q] + b2[q], where g is the graph of
  node p, A and B the two halves of the first layer's weights. Each product into a zero accumulator is the plain sum
  over its one contracted axis; a format change is the identity; a row broadcast reads its one row. The graph's
  features reach the first layer as a product of a one-hot row with the graph table: the row of node p has 1 at the
  graph of p and 0 elsewhere (two graph numbers below 512 have different 32-bit words), so the sum over the 512 graphs
  keeps the one term at g, by 0 * a = 0 and 1 * a = a, which hold for every extended real a.
-/
import proofs.«423639_j43971875176948_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## The three products: operand indices coordinate by coordinate, then the plain sum

For each product the left operand is read at (row, contraction position) and the right at (contraction position,
column); re-indexing the one-axis contraction by its coordinate turns the contraction's sum into a sum over the
contracted extent. -/

theorem lhsG_0 (j : S2000x128.Idx) (k : dot_S2000x512_S512x128_S2000x128_1_0_0_1_n_n.contr.Idx) :
    (dot_S2000x512_S512x128_S2000x128_1_0_0_1_n_n.lhsIdx j k 0).val = (j 0).val := rfl

theorem rhsG_1 (j : S2000x128.Idx) (k : dot_S2000x512_S512x128_S2000x128_1_0_0_1_n_n.contr.Idx) :
    (dot_S2000x512_S512x128_S2000x128_1_0_0_1_n_n.rhsIdx j k 1).val = (j 1).val := rfl

theorem lhsG_1 (j : S2000x128.Idx) (k : dot_S2000x512_S512x128_S2000x128_1_0_0_1_n_n.contr.Idx) :
    (dot_S2000x512_S512x128_S2000x128_1_0_0_1_n_n.lhsIdx j k 1).val = (k ⟨0, by decide⟩).val :=
  dot_S2000x512_S512x128_S2000x128_1_0_0_1_n_n.lhsIdx_val_of_single rfl j k

theorem rhsG_0 (j : S2000x128.Idx) (k : dot_S2000x512_S512x128_S2000x128_1_0_0_1_n_n.contr.Idx) :
    (dot_S2000x512_S512x128_S2000x128_1_0_0_1_n_n.rhsIdx j k 0).val = (k ⟨0, by decide⟩).val :=
  dot_S2000x512_S512x128_S2000x128_1_0_0_1_n_n.rhsIdx_val_of_single rfl j k

/-- The product with the graph table: the plain sum over the 512 graphs. -/
theorem matmulG_apply (a : FVec Ideal S2000x512 .bf16) (b : FVec Ideal S512x128 .bf16) (p : Fin 2000) (h : Fin 128) :
    matmul dot_S2000x512_S512x128_S2000x128_1_0_0_1_n_n none a b (constant (F := Ideal) S2000x128 .f32 0x00000000#32) (ix2 p h)
      = ∑ j : Fin 512, a (ix2 p j) * b (ix2 j h) := by
  refine (Ideal.matmul_constant_zero_apply dot_S2000x512_S512x128_S2000x128_1_0_0_1_n_n none a b (ix2 p h)).trans ?_
  rw [← Equiv.sum_comp (contrEquiv1 dot_S2000x512_S512x128_S2000x128_1_0_0_1_n_n 512 rfl rfl).symm]
  refine Finset.sum_congr rfl fun k _ => ?_
  have hl : dot_S2000x512_S512x128_S2000x128_1_0_0_1_n_n.lhsIdx (ix2 p h)
      ((contrEquiv1 dot_S2000x512_S512x128_S2000x128_1_0_0_1_n_n 512 rfl rfl).symm k) = ix2 p k :=
    Shape.idx_ext₂ (lhsG_0 _ _) ((lhsG_1 _ _).trans (contrEquiv1_symm_val _ 512 rfl rfl k))
  have hr : dot_S2000x512_S512x128_S2000x128_1_0_0_1_n_n.rhsIdx (ix2 p h)
      ((contrEquiv1 dot_S2000x512_S512x128_S2000x128_1_0_0_1_n_n 512 rfl rfl).symm k) = ix2 k h :=
    Shape.idx_ext₂ ((rhsG_0 _ _).trans (contrEquiv1_symm_val _ 512 rfl rfl k)) (rhsG_1 _ _)
  rw [hl, hr]

theorem lhsH_0 (j : S2000x128.Idx) (k : dot_S2000x128_S128x128_S2000x128_1_0_0_1_n_n.contr.Idx) :
    (dot_S2000x128_S128x128_S2000x128_1_0_0_1_n_n.lhsIdx j k 0).val = (j 0).val := rfl

theorem rhsH_1 (j : S2000x128.Idx) (k : dot_S2000x128_S128x128_S2000x128_1_0_0_1_n_n.contr.Idx) :
    (dot_S2000x128_S128x128_S2000x128_1_0_0_1_n_n.rhsIdx j k 1).val = (j 1).val := rfl

theorem lhsH_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k

theorem rhsH_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k

/-- A first-layer product: the plain sum over the 128 features. -/
theorem matmulH_apply (a : FVec Ideal S2000x128 .bf16) (b : FVec Ideal S128x128 .bf16) (p : Fin 2000) (h : Fin 128) :
    matmul dot_S2000x128_S128x128_S2000x128_1_0_0_1_n_n none a b (constant (F := Ideal) S2000x128 .f32 0x00000000#32) (ix2 p h)
      = ∑ j : Fin 128, a (ix2 p j) * b (ix2 j h) := by
  refine (Ideal.matmul_constant_zero_apply dot_S2000x128_S128x128_S2000x128_1_0_0_1_n_n none a b (ix2 p h)).trans ?_
  rw [← Equiv.sum_comp (contrEquiv1 dot_S2000x128_S128x128_S2000x128_1_0_0_1_n_n 128 rfl rfl).symm]
  refine Finset.sum_congr rfl fun k _ => ?_
  have hl : dot_S2000x128_S128x128_S2000x128_1_0_0_1_n_n.lhsIdx (ix2 p h)
      ((contrEquiv1 dot_S2000x128_S128x128_S2000x128_1_0_0_1_n_n 128 rfl rfl).symm k) = ix2 p k :=
    Shape.idx_ext₂ (lhsH_0 _ _) ((lhsH_1 _ _).trans (contrEquiv1_symm_val _ 128 rfl rfl k))
  have hr : dot_S2000x128_S128x128_S2000x128_1_0_0_1_n_n.rhsIdx (ix2 p h)
      ((contrEquiv1 dot_S2000x128_S128x128_S2000x128_1_0_0_1_n_n 128 rfl rfl).symm k) = ix2 k h :=
    Shape.idx_ext₂ ((rhsH_0 _ _).trans (contrEquiv1_symm_val _ 128 rfl rfl k)) (rhsH_1 _ _)
  rw [hl, hr]

theorem lhsO_0 (j : S2000x24.Idx) (k : dot_S2000x128_S128x24_S2000x24_1_0_0_1_n_n.contr.Idx) :
    (dot_S2000x128_S128x24_S2000x24_1_0_0_1_n_n.lhsIdx j k 0).val = (j 0).val := rfl

theorem rhsO_1 (j : S2000x24.Idx) (k : dot_S2000x128_S128x24_S2000x24_1_0_0_1_n_n.contr.Idx) :
    (dot_S2000x128_S128x24_S2000x24_1_0_0_1_n_n.rhsIdx j k 1).val = (j 1).val := rfl

theorem lhsO_1 (j : S2000x24.Idx) (k : dot_S2000x128_S128x24_S2000x24_1_0_0_1_n_n.contr.Idx) :
    (dot_S2000x128_S128x24_S2000x24_1_0_0_1_n_n.lhsIdx j k 1).val = (k ⟨0, by decide⟩).val :=
  dot_S2000x128_S128x24_S2000x24_1_0_0_1_n_n.lhsIdx_val_of_single rfl j k

theorem rhsO_0 (j : S2000x24.Idx) (k : dot_S2000x128_S128x24_S2000x24_1_0_0_1_n_n.contr.Idx) :
    (dot_S2000x128_S128x24_S2000x24_1_0_0_1_n_n.rhsIdx j k 0).val = (k ⟨0, by decide⟩).val :=
  dot_S2000x128_S128x24_S2000x24_1_0_0_1_n_n.rhsIdx_val_of_single rfl j k

/-- The second-layer product: the plain sum over the 128 hidden units. -/
theorem matmulO_apply (a : FVec Ideal S2000x128 .bf16) (b : FVec Ideal S128x24 .bf16) (p : Fin 2000) (h : Fin 24) :
    matmul dot_S2000x128_S128x24_S2000x24_1_0_0_1_n_n none a b (constant (F := Ideal) S2000x24 .f32 0x00000000#32) (ix2 p h)
      = ∑ j : Fin 128, a (ix2 p j) * b (ix2 j h) := by
  refine (Ideal.matmul_constant_zero_apply dot_S2000x128_S128x24_S2000x24_1_0_0_1_n_n none a b (ix2 p h)).trans ?_
  rw [← Equiv.sum_comp (contrEquiv1 dot_S2000x128_S128x24_S2000x24_1_0_0_1_n_n 128 rfl rfl).symm]
  refine Finset.sum_congr rfl fun k _ => ?_
  have hl : dot_S2000x128_S128x24_S2000x24_1_0_0_1_n_n.lhsIdx (ix2 p h)
      ((contrEquiv1 dot_S2000x128_S128x24_S2000x24_1_0_0_1_n_n 128 rfl rfl).symm k) = ix2 p k :=
    Shape.idx_ext₂ (lhsO_0 _ _) ((lhsO_1 _ _).trans (contrEquiv1_symm_val _ 128 rfl rfl k))
  have hr : dot_S2000x128_S128x24_S2000x24_1_0_0_1_n_n.rhsIdx (ix2 p h)
      ((contrEquiv1 dot_S2000x128_S128x24_S2000x24_1_0_0_1_n_n 128 rfl rfl).symm k) = ix2 k h :=
    Shape.idx_ext₂ ((rhsO_0 _ _).trans (contrEquiv1_symm_val _ 128 rfl rfl k)) (rhsO_1 _ _)
  rw [hl, hr]

/-! ## The one-hot row and the graph's features -/

/-- A column broadcast along the rows: at (p, c) it reads the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two graph numbers below 512 with the same 32-bit word are equal. -/
theorem word_inj (g j : Fin 512) (h : BitVec.ofNat 32 g.val = BitVec.ofNat 32 j.val) : j = g := by
  have e := congrArg BitVec.toNat h
  simp only [BitVec.toNat_ofNat] at e
  have hg := g.isLt
  have hj := j.isLt
  exact Fin.ext (by omega)

/-- Comparing the words of two graph numbers: the bit 1 exactly when the numbers agree. -/
theorem cmpi_eq_word (g j : Fin 512) :
    IntOp.cmpi .eq (BitVec.ofNat 32 g.val) (BitVec.ofNat 32 j.val) = if j = g then 1#1 else 0#1 := by
  show BitVec.ofBool (BitVec.ofNat 32 g.val == BitVec.ofNat 32 j.val) = _
  by_cases h : j = g
  · subst h
    rw [if_pos rfl, beq_self_eq_true]
    rfl
  · rw [if_neg h]
    have hne : (BitVec.ofNat 32 g.val == BitVec.ofNat 32 j.val) = false :=
      beq_eq_false_iff_ne.mpr fun e => h (word_inj g j e)
    rw [hne]
    rfl

/-- The bit 1, widened and converted, is the extended real 1. -/
theorem sitofp_bit_one : (FloatOps.sitofp (F := Ideal) .f32 ((1#1 : BitVec 1).setWidth 32) : EReal) = 1 := by
  show ((((1#1 : BitVec 1).setWidth 32).toInt : ℝ) : EReal) = 1
  have e : ((1#1 : BitVec 1).setWidth 32).toInt = 1 := by decide
  rw [e, Int.cast_one, EReal.coe_one]

/-- The bit 0, widened and converted, is the extended real 0. -/
theorem sitofp_bit_zero : (FloatOps.sitofp (F := Ideal) .f32 ((0#1 : BitVec 1).setWidth 32) : EReal) = 0 := by
  show ((((0#1 : BitVec 1).setWidth 32).toInt : ℝ) : EReal) = 0
  have e : ((0#1 : BitVec 1).setWidth 32).toInt = 0 := by decide
  rw [e, Int.cast_zero, EReal.coe_zero]

/-- The one-hot entry at (p, j): 1 when j is the graph of node p, 0 otherwise. -/
theorem onehot_apply (v0 : Vec Ideal S2000x1 .i32) (p : Fin 2000) (g j : Fin 512)
    (hg : v0 (ix2 p 0) = BitVec.ofNat 32 g.val) :
    (sitofp (F := Ideal) .f32 (extui 32 (cmpi .eq
        (broadcastTo S2000x512 v0 broadcasts_S2000x1_S2000x512)
        (iota .tc S2000x512 32 [1] iota_S2000x512_d1_w32)) natLt_1_32) : FVec Ideal S2000x512 .f32) (ix2 p j)
      = if j = g then 1 else 0 := by
  rw [sitofp_apply, extui_apply]
  show FloatOps.sitofp .f32 ((IntOp.cmpi .eq
      (broadcastTo S2000x512 v0 broadcasts_S2000x1_S2000x512 (ix2 p j))
      (iota .tc S2000x512 32 [1] iota_S2000x512_d1_w32 (ix2 p j))).setWidth 32) = _
  rw [iota_single_apply, broadcastTo_a1_ab_apply, hg]
  show FloatOps.sitofp .f32 ((IntOp.cmpi .eq (BitVec.ofNat 32 g.val) (BitVec.ofNat 32 j.val)).setWidth 32) = _
  rw [cmpi_eq_word]
  by_cases h : j = g
  · rw [if_pos h, if_pos h]; exact sitofp_bit_one
  · rw [if_neg h, if_neg h]; exact sitofp_bit_zero

/-- A sum against a one-hot row keeps the one term at the hot position. -/
theorem onehot_sum (f : Fin 512 → EReal) (g : Fin 512) :
    ∑ j : Fin 512, (if j = g then (1 : EReal) else 0) * f j = f g := by
  rw [Finset.sum_eq_single g]
  · rw [if_pos rfl, one_mul]
  · intro j _ hj
    rw [if_neg hj, zero_mul]
  · intro h
    exact absurd (Finset.mem_univ g) h

/-- The one-hot rows times the graph table: at (p, k) the entry (g, k) of the table, g the graph of node p. -/
theorem gathered_row (v0 : Vec Ideal S2000x1 .i32) (v8 : Vec Ideal S512x128 .f32) (p : Fin 2000) (g : Fin 512)
    (hg : v0 (ix2 p 0) = BitVec.ofNat 32 g.val) (k : Fin 128) :
    matmul dot_S2000x512_S512x128_S2000x128_1_0_0_1_n_n none
        (truncf .bf16 (sitofp (F := Ideal) .f32 (extui 32 (cmpi .eq
          (broadcastTo S2000x512 v0 broadcasts_S2000x1_S2000x512)
          (iota .tc S2000x512 32 [1] iota_S2000x512_d1_w32)) natLt_1_32)) bitsLt_bf16_f32)
        (truncf .bf16 v8 bitsLt_bf16_f32) (constant (F := Ideal) S2000x128 .f32 0x00000000#32) (ix2 p k)
      = v8 (ix2 g k) := by
  rw [matmulG_apply]
  refine (Finset.sum_congr rfl fun j _ => ?_).trans (onehot_sum (fun j => v8 (ix2 j k)) g)
  rw [truncf_apply, truncf_apply, onehot_apply v0 p g j hg]

/-! ## The body's value -/

/-- The kernel body's value at node p of the block and move q, g the graph of node p: the second layer over the
    positive parts of the first layer, the graph's features read as row g of the graph table. -/
theorem pay_apply (v0 : Vec Ideal S2000x1 .i32) (v8 : Vec Ideal S512x128 .f32) (v11 : Vec Ideal S2000x128 .f32)
    (v13 v16 : Vec Ideal S128x128 .f32) (v23 : Vec Ideal S1x128 .f32) (v29 : Vec Ideal S128x24 .f32) (v33 : Vec Ideal S1x24 .f32)
    (p : Fin 2000) (q : Fin 24) (g : Fin 512) (hg : v0 (ix2 p 0) = BitVec.ofNat 32 g.val) :
    k0_pay1 (F := Ideal) v0 v8 v11 v13 v16 v23 v29 v33 (ix2 p q)
      = (∑ h : Fin 128, max ((∑ k : Fin 128, v11 (ix2 p k) * v13 (ix2 k h)) + (∑ k : Fin 128, v8 (ix2 g k) * v16 (ix2 k h))
          + v23 (ix2 0 h)) 0 * v29 (ix2 h q)) + v33 (ix2 0 q) := by
  unfold k0_pay1
  dsimp only
  simp only [shapeCast_self]
  rw [addf_apply, broadcastTo_1b_ab_apply, matmulO_apply]
  refine congrArg (· + v33 (ix2 0 q)) (Finset.sum_congr rfl fun h _ => ?_)
  rw [truncf_apply, truncf_apply, maximumf_apply, broadcast_apply, addf_apply, addf_apply, broadcastTo_1b_ab_apply,
    matmulH_apply, matmulH_apply]
  simp only [truncf_apply, gathered_row v0 v8 p g hg, Ideal.ofBits_def, Ideal.ofBits_zero_f32]

end Cert.KernelIdeal.PayAt

end
-- ==== Proof.KScores.lean ====
/-
  The array of scores after the run, as one function of the argument arrays.

  Grid point `t` writes back block `t` of the scores: rows `2000 t … 2000 t + 1999`. Row `p` of that block is the body's
  payload at row `p` of the point's input blocks; read entry by entry (the payload at an index, then each block entry as
  an entry of an argument array) it is the score of node `2000 t + p` in the graph its word names. The 250 blocks tile
  the 500000 rows (node `n` is in block `n / 2000`), so the array ends holding that score at every entry.
-/
import proofs.«423639_j43971875176948_1_alg».proof.Proof.KBlocks
import proofs.«423639_j43971875176948_1_alg».proof.Proof.PayAt

set_option maxRecDepth 16384

noncomputable section

namespace Cert.KernelIdeal.Scores

open Cert.KernelIdeal Cert.KernelIdeal.Gen Cert.KernelIdeal.Frame Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The scores of all nodes from the launch arguments, node `n` taken in graph `bt n`. -/
def scoresK (c : Dev nD) (bt : Fin 500000 → Fin 512) : S500000x24.Idx → EReal := fun i =>
  Cert.Spec.score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (bt (i 0)) (i 0) (i 1)

theorem hz : (![0, 0] : Fin 2 → Nat) = fun _ => 0 := funext fun a => by fin_cases a <;> rfl

/-- Entry `(p, q)` of point `t`'s output block sits at `(2000 t + p, q)` of the scores. -/
theorem emb8 (t : Fin cfg0.N) (p : Fin 2000) (q : Fin 24) :
    (((cfg0.win 8).blk t).view.emb (ix2 p q) : S500000x24.Idx) = ix2 (node t p) q := by
  funext a; apply Fin.ext
  obtain ⟨-, -, -, -, -, -, -, -, -, -, -, -, -, -, -, -, e0, e1⟩ := idx_facts t
  match a with
  | ⟨0, _⟩ => show win0_8.index t (0 : Fin 2) * 2000 + 1 * p.val = 2000 * t.val + p.val; omega
  | ⟨1, _⟩ => show win0_8.index t (1 : Fin 2) * 24 + 1 * q.val = q.val; omega

/-- WHAT POINT `t` WRITES BACK is block `t` of the scores, when `bt` reads the graph words. -/
theorem flushed8_eq (c : Dev nD) (bt : Fin 500000 → Fin 512)
    (hbt : ∀ n : Fin 500000, m ((c : Thread nD τ).loc main_arg7) (ix1 n) = BitVec.ofNat 32 (bt n).val)
    (t : Fin cfg0.N) :
    (dats m 0 c).flushed 8 t = ((cfg0.win 8).blk t).view.read (Elt Ideal) (scoresK m c bt) := by
  show (cfg0.win 8).cut (grid0.coords t) ((dats m 0 c).after 8 t) = _
  rw [after0_8]
  unfold scoresBlock
  rw [View.canon_unit_zero hz]
  simp only [View.ld_unit_zero (S := S2000x128) hz, View.ld_unit_zero (S := S2000x1) hz, View.ld_unit_zero (S := S512x128) hz,
    View.ld_unit_zero (S := S128x128) hz, View.ld_unit_zero (S := S128x24) hz, View.ld_unit_zero (S := S1x128) hz,
    View.ld_unit_zero (S := S1x24) hz]
  funext j
  obtain ⟨p, q, rfl⟩ : ∃ (p : Fin 2000) (q : Fin 24), j = ix2 p q := ⟨j 0, j 1, eq_ix2 j⟩
  show k0_pay1 (F := Ideal) (iblk m c 1 t) (iblk m c 2 t) (iblk m c 0 t) (iblk m c 3 t) (iblk m c 4 t) (iblk m c 6 t) (iblk m c 5 t) (iblk m c 7 t) (ix2 p q)
    = scoresK m c bt (((cfg0.win 8).blk t).view.emb (ix2 p q))
  rw [emb8]
  refine (Cert.KernelIdeal.PayAt.pay_apply (iblk m c 1 t) (iblk m c 2 t) (iblk m c 0 t) (iblk m c 3 t) (iblk m c 4 t) (iblk m c 6 t)
    (iblk m c 5 t) (iblk m c 7 t) p q (bt (node t p)) ((blkB m c t p).trans (hbt (node t p)))).trans ?_
  show _ = Cert.Spec.score _ _ _ _ _ _ (bt (node t p)) (node t p) q
  unfold Cert.Spec.score Cert.Spec.hidden
  simp only [blkX, blkG, blkW1a, blkW1b, blkW2, blkb1, blkb2]

/-- An index of the scores is in point `t`'s block iff each coordinate is in the block's range on its axis. -/
theorem mem_blk8 (t : Fin cfg0.N) (i : S500000x24.Idx) :
    i ∈ ((cfg0.win 8).blk t).view.set ↔ ∀ a : Fin 2, win0_8.index t a * S2000x24.size a ≤ (i a).val ∧ (i a).val < win0_8.index t a * S2000x24.size a + S2000x24.size a := by
  show i ∈ ((View.whole main_v5).slice (win0_8.rect t)).set ↔ _
  rw [View.set_slice_whole, Rect.mem_set_unit]
  exact Iff.rfl

/-- Every entry of the scores is in some point's block: node `n` in block `n / 2000`. -/
theorem cover8 (i : S500000x24.Idx) : ∃ t : Fin cfg0.N, (cfg0.win 8).flush t = true ∧ i ∈ ((cfg0.win 8).blk t).view.set := by
  have hi0 : (i 0).val < 500000 := (i 0).isLt
  have hi1 : (i 1).val < 24 := (i 1).isLt
  have hN : cfg0.N = 250 := N_0
  have hN' : grid0.N = 250 := N_0
  refine ⟨⟨(i 0).val / 2000, by omega⟩, flush0_8 _, ?_⟩
  rw [mem_blk8]
  obtain ⟨-, -, -, -, -, -, -, -, -, -, -, -, -, -, -, -, e0, e1⟩ := idx_facts ⟨(i 0).val / 2000, by omega⟩
  intro a
  match a with
  | ⟨0, _⟩ =>
    show win0_8.index ⟨(i 0).val / 2000, _⟩ (0 : Fin 2) * 2000 ≤ (i 0).val ∧ (i 0).val < win0_8.index ⟨(i 0).val / 2000, _⟩ (0 : Fin 2) * 2000 + 2000
    have e0' : win0_8.index ⟨(i 0).val / 2000, by omega⟩ (0 : Fin 2) = (i 0).val / 2000 := e0
    omega
  | ⟨1, _⟩ =>
    show win0_8.index ⟨(i 0).val / 2000, _⟩ (1 : Fin 2) * 24 ≤ (i 1).val ∧ (i 1).val < win0_8.index ⟨(i 0).val / 2000, _⟩ (1 : Fin 2) * 24 + 24
    omega

/-- THE SCORES AFTER THE RUN: every entry the score of its node in the graph its word names. -/
theorem final8 (c : Dev nD) (bt : Fin 500000 → Fin 512)
    (hbt : ∀ n : Fin 500000, m ((c : Thread nD τ).loc main_arg7) (ix1 n) = BitVec.ofNat 32 (bt n).val) :
    (dats m 0 c).arrAt 8 cfg0.N = scoresK m c bt :=
  (dats m 0 c).arrAt_eq_of_cover 8 (scoresK m c bt) (fun t _ => flushed8_eq m c bt hbt t) cover8

end Cert.KernelIdeal.Scores

end
-- ==== Proof.TailPieces.lean ====
/-
  The pieces of the logits table (the running counts, the cube index, validity, the two scatter coordinates, the table from
  its coordinate columns), and the first three stages of the host lines after the scores read from any buffer contents:
  the counts (13 lines), the cube index and validity (20 lines), the two scatter coordinates (7 lines).
-/
import proofs.«423639_j43971875176948_1_alg».proof.Proof.KDefsIdeal
import Idealize.ShloMosaic.Lib.StableHlo.Run
import Idealize.ShloMosaic.PureOps.Ideal

set_option maxRecDepth 16384

noncomputable section

namespace Cert.KernelIdeal.Tail

open Cert.KernelIdeal Cert.KernelIdeal.Gen Cert.KernelIdeal.Frame
open Idealize.ShloMosaic Idealize.ShloMosaic.TcCoe Idealize.SL.Sem Idealize.ShloMosaic.StableHlo

/-! ## The pieces -/

/-- The cube mask as words. -/
def maskW (a6 : IVec S500000 1) : IVec S500000 32 := extui 32 a6 natLt_1_32
/-- Its running count over the nodes. -/
def cum (a6 : IVec S500000 1) : IVec S500000 32 :=
  Host.reduceWindow IntOp.addi ![500000] ![1] ![499999] ![0] (maskW a6)
    (broadcastInDim S_ ![] bcast_S_S_ (constantI S_ 32 0#32)) reduceWindows_S500000_S500000_w500000s1p499999_0 h_S_
/-- Cube nodes per graph: the mask accumulated at the graph words. -/
def counts (a6 : IVec S500000 1) (a7 : IVec S500000 32) : IVec S512 32 :=
  Host.scatter scatter_S512_S500000x1_S500000_n_0_0_1 IntOp.addi (broadcastInDim S512 ![] bcast_S_S512 (constantI S_ 32 0#32))
    (broadcastInDim S500000x1 ![0] bcast_S500000_S500000x1_0 a7) (maskW a6)
/-- The running count of those over the graphs. -/
def ccum (a6 : IVec S500000 1) (a7 : IVec S500000 32) : IVec S512 32 :=
  Host.reduceWindow IntOp.addi ![512] ![1] ![511] ![0] (counts a6 a7)
    (broadcastInDim S_ ![] bcast_S_S_ (constantI S_ 32 0#32)) reduceWindows_S512_S512_w512s1p511_0 h_S_
/-- The offset of graph 0. -/
def first0 : IVec S1 32 := broadcastInDim S1 ![] bcast_S_S1 (constantI S_ 32 0#32)
/-- A node's cube index from the running count `v7`, the graphs' running counts `v12`, the first offset `v11` and the graph
    words: the count less one less the graph's offset, the offsets being `v11` followed by all but the last of `v12`. -/
def cubeIdxOf (v7 : IVec S500000 32) (v12 : IVec S512 32) (v11 : IVec S1 32) (a7 : IVec S500000 32) : IVec S500000 32 :=
  subi (subi v7 (broadcastInDim S500000 ![] bcast_S_S500000 (constantI S_ 32 1#32)))
    (Host.gather gather_S512_S500000x1_S500000_n_0_n_n_0_1_1
      (concatenate S512 0 [⟨S1, v11⟩, ⟨S511, extractStridedSlice S511 ![0] v12 slices_S512_S511_0⟩] concatenates_S1_S511_S512_d0)
      (broadcastInDim S500000x1 ![0] bcast_S500000_S500000x1_0
        (select (cmpi .slt a7 (broadcastInDim S500000 ![] bcast_S_S500000 (constantI S_ 32 0#32)))
          (addi a7 (broadcastInDim S500000 ![] bcast_S_S500000 (constantI S_ 32 512#32))) a7)))
/-- A cube node of cube index below 64. -/
def validOf (a6 : IVec S500000 1) (cidx : IVec S500000 32) : IVec S500000 1 :=
  andi a6 (cmpi .slt cidx (broadcastInDim S500000 ![] bcast_S_S500000 (constantI S_ 32 64#32)))
/-- The table row a node's scores go to: its graph word when valid, the word `c5` otherwise. -/
def rowOf (valid : IVec S500000 1) (a7 : IVec S500000 32) (c5 : IVec S_ 32) : IVec S500000 32 :=
  select valid a7 (broadcastInDim S500000 ![] bcast_S_S500000 (id c5))
/-- The table column: the cube index when valid, 0 otherwise. -/
def colOf (valid : IVec S500000 1) (cidx : IVec S500000 32) : IVec S500000 32 :=
  select valid cidx (broadcastInDim S500000 ![] bcast_S_S500000 (id (constantI S_ 32 0#32)))
/-- A coordinate as a column of scatter indices: a negative word counts from the end of an axis of extent `n`. -/
def colWrap (v : IVec S500000 32) (n : BitVec 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 n))) v)

/-- The table from its fill, the scores and the two coordinate columns: the fill, then each landing row of scores;
    flattened, and kept only where the move mask is set (the constant -1e9 elsewhere). -/
def tableOfCols' (fill : FVec Ideal S512x64x24 .f32) (sc : FVec Ideal S500000x24 .f32) (cb cc : IVec S500000x1 32)
    (a8 : IVec S512x64x24 1) : FVec Ideal S512x1536 .f32 :=
  select (shapeCast S512x1536 a8 shapeCasts_S512x64x24_S512x1536)
    (shapeCast S512x1536
      (Host.scatter scatter_S512x64x24_S500000x2_S500000x24_1_01_01_1 (fun _ b => b) fill
        (concatenate S500000x2 1 [⟨S500000x1, cb⟩, ⟨S500000x1, cc⟩] concatenates_S500000x1_S500000x1_S500000x2_d1)
        sc)
      shapeCasts_S512x64x24_S512x1536)
    (broadcastInDim S512x1536 ![] bcast_S_S512x1536 (id (constant (F := Ideal) S_ .f32 0xCE6E6B28#32)))

/-- The same with the fill the constant -1e9 everywhere. -/
def tableOfCols (sc : FVec Ideal S500000x24 .f32) (cb cc : IVec S500000x1 32) (a8 : IVec S512x64x24 1) : FVec Ideal S512x1536 .f32 :=
  tableOfCols' (broadcastInDim S512x64x24 ![] bcast_S_S512x64x24 (constant (F := Ideal) S_ .f32 0xCE6E6B28#32)) sc cb cc a8

/-- The table from the scores and the two coordinates (each wrapped if negative). -/
def tableOf (sc : FVec Ideal S500000x24 .f32) (ib ic : IVec S500000 32) (a8 : IVec S512x64x24 1) : FVec Ideal S512x1536 .f32 :=
  tableOfCols sc (colWrap ib 512#32) (colWrap ic 64#32) a8

/-- The cube index of every node, from the cube mask and the graph words. -/
def cubeIdx (a6 : IVec S500000 1) (a7 : IVec S500000 32) : IVec S500000 32 := cubeIdxOf (cum a6) (ccum a6 a7) first0 a7

/-- The logits table from the scores `sc`, the cube mask `a6`, the graph words `a7` and the move mask `a8`. -/
def tail (sc : FVec Ideal S500000x24 .f32) (a6 : IVec S500000 1) (a7 : IVec S500000 32) (a8 : IVec S512x64x24 1) :
    FVec Ideal S512x1536 .f32 :=
  tableOf sc (rowOf (validOf a6 (cubeIdx a6 a7)) a7 (constantI S_ 32 512#32)) (colOf (validOf a6 (cubeIdx a6 a7)) (cubeIdx a6 a7)) a8

/-! ## The ten stretches, from any buffer contents -/

abbrev s0 : List (HloOp τ sig (Elt Ideal)) := hostOps1
abbrev s1 : List (HloOp τ sig (Elt Ideal)) := hostOps1_1
abbrev s2 : List (HloOp τ sig (Elt Ideal)) := hostOps1_2
abbrev s3 : List (HloOp τ sig (Elt Ideal)) := hostOps1_3
abbrev s4 : List (HloOp τ sig (Elt Ideal)) := hostOps1_4
abbrev s5 : List (HloOp τ sig (Elt Ideal)) := hostOps1_5
abbrev s6 : List (HloOp τ sig (Elt Ideal)) := hostOps1_6
abbrev s7 : List (HloOp τ sig (Elt Ideal)) := hostOps1_7
abbrev s8 : List (HloOp τ sig (Elt Ideal)) := hostOps1_8
abbrev s9 : List (HloOp τ sig (Elt Ideal)) := hostOps1_9

/-- The first stage: the mask as words, its running count, the counts per graph and their running count. -/
abbrev stA (W : Valuation τ sig (Elt Ideal)) : Valuation τ sig (Elt Ideal) := after s3 (after s2 (after s1 (after s0 W)))
/-- The third stage: the two scatter coordinates. -/
abbrev stB (X : Valuation τ sig (Elt Ideal)) : Valuation τ sig (Elt Ideal) := after s7 (after s6 (after s5 X))
/-- The last stage: the table. -/
abbrev stC (X : Valuation τ sig (Elt Ideal)) : Valuation τ sig (Elt Ideal) := after s9 (after s8 X)

section StageA
variable (W : Valuation τ sig (Elt Ideal))

theorem a_v7 : stA W (Proc.devRef .tc main_v7) = cum (W (Proc.devRef .tc main_arg6)) := by
  show after s3 (after s2 (after s1 (after s0 W))) _ = _
  rw [← StableHlo.after_append, ← StableHlo.after_append, ← StableHlo.after_append]
  simp only [s0, s1, s2, s3, hostOps1, hostOps1_1, hostOps1_2, hostOps1_3, List.cons_append, List.nil_append]
  after_results_simp
  unfold cum maskW
  simp only [TRef.toBuf, TRef.ofBuf, cast_eq]

theorem a_v12 : stA W (Proc.devRef .tc main_v12) = ccum (W (Proc.devRef .tc main_arg6)) (W (Proc.devRef .tc main_arg7)) := by
  show after s3 (after s2 (after s1 (after s0 W))) _ = _
  rw [← StableHlo.after_append, ← StableHlo.after_append, ← StableHlo.after_append]
  simp only [s0, s1, s2, s3, hostOps1, hostOps1_1, hostOps1_2, hostOps1_3, List.cons_append, List.nil_append]
  after_results_simp
  unfold ccum counts maskW
  simp only [TRef.toBuf, TRef.ofBuf, cast_eq]

theorem a_v11 : stA W (Proc.devRef .tc main_v11) = first0 := by
  show after s3 (after s2 (after s1 (after s0 W))) _ = _
  rw [← StableHlo.after_append, ← StableHlo.after_append, ← StableHlo.after_append]
  simp only [s0, s1, s2, s3, hostOps1, hostOps1_1, hostOps1_2, hostOps1_3, List.cons_append, List.nil_append]
  after_results_simp
  rfl

theorem a_keep (r : Ref sig .tc) (hr : r = main_arg6 ∨ r = main_arg7 ∨ r = main_arg8 ∨ r = main_v5) :
    stA W (Proc.devRef .tc r) = W (Proc.devRef .tc r) := by
  show after s3 (after s2 (after s1 (after s0 W))) _ = _
  rw [← StableHlo.after_append, ← StableHlo.after_append, ← StableHlo.after_append]
  simp only [s0, s1, s2, s3, hostOps1, hostOps1_1, hostOps1_2, hostOps1_3, List.cons_append, List.nil_append]
  rcases hr with rfl | rfl | rfl | rfl <;> after_results_simp

end StageA

section StageA2
variable (X : Valuation τ sig (Elt Ideal))

theorem a2_v24 : after s4 X (Proc.devRef .tc main_v24)
    = cubeIdxOf (X (Proc.devRef .tc main_v7)) (X (Proc.devRef .tc main_v12)) (X (Proc.devRef .tc main_v11)) (X (Proc.devRef .tc main_arg7)) := by
  simp only [s4, hostOps1_4]
  after_results_simp
  rfl

theorem a2_v27 : after s4 X (Proc.devRef .tc main_v27)
    = validOf (X (Proc.devRef .tc main_arg6)) (cubeIdxOf (X (Proc.devRef .tc main_v7)) (X (Proc.devRef .tc main_v12)) (X (Proc.devRef .tc main_v11)) (X (Proc.devRef .tc main_arg7))) := by
  simp only [s4, hostOps1_4]
  after_results_simp
  rfl

theorem a2_c5 : after s4 X (Proc.devRef .tc main_c_5) = constantI S_ 32 512#32 := by
  simp only [s4, hostOps1_4]
  after_results_simp

theorem a2_keep (r : Ref sig .tc) (hr : r = main_arg7 ∨ r = main_arg8 ∨ r = main_v5) :
    after s4 X (Proc.devRef .tc r) = X (Proc.devRef .tc r) := by
  simp only [s4, hostOps1_4]
  rcases hr with rfl | rfl | rfl <;> after_results_simp

end StageA2

section StageB
variable (X : Valuation τ sig (Elt Ideal))

theorem b_v28 : stB X (Proc.devRef .tc main_v28) = rowOf (X (Proc.devRef .tc main_v27)) (X (Proc.devRef .tc main_arg7)) (X (Proc.devRef .tc main_c_5)) := by
  show after s7 (after s6 (after s5 X)) _ = _
  rw [← StableHlo.after_append, ← StableHlo.after_append]
  simp only [s5, s6, s7, hostOps1_5, hostOps1_6, hostOps1_7, List.cons_append, List.nil_append]
  after_results_simp
  rfl

theorem b_v29 : stB X (Proc.devRef .tc main_v29) = colOf (X (Proc.devRef .tc main_v27)) (X (Proc.devRef .tc main_v24)) := by
  show after s7 (after s6 (after s5 X)) _ = _
  rw [← StableHlo.after_append, ← StableHlo.after_append]
  simp only [s5, s6, s7, hostOps1_5, hostOps1_6, hostOps1_7, List.cons_append, List.nil_append]
  after_results_simp
  rfl

theorem b_keep (r : Ref sig .tc) (hr : r = main_arg8 ∨ r = main_v5) : stB X (Proc.devRef .tc r) = X (Proc.devRef .tc r) := by
  show after s7 (after s6 (after s5 X)) _ = _
  rw [← StableHlo.after_append, ← StableHlo.after_append]
  simp only [s5, s6, s7, hostOps1_5, hostOps1_6, hostOps1_7, List.cons_append, List.nil_append]
  rcases hr with rfl | rfl <;> after_results_simp

end StageB

end Cert.KernelIdeal.Tail

end
-- ==== Proof.Tail.lean ====
/-
  What the host lines after the scores compute: the logits table, as ONE function of the scores and of three arguments.

  From the mask of cube nodes `a6`, the graph words `a7` and the move mask `a8`: the mask as words; its running count
  over the nodes; the count of cube nodes per graph (an accumulating scatter of the mask at the graph words) and the
  running count of those, shifted by one place, as each graph's offset; a node's cube index, its running count less one
  less its graph's offset (read at the graph word, a negative word counting from the end); a node is valid when it is a cube
  node of cube index below 64; a valid node scatters its row of scores to (graph word, cube index) of a 512 x 64 x 24 table
  filled with the constant -1e9, an invalid one to row 512, which is no row; the table, flattened to 512 x 1536, keeps its
  entries where the move mask is set and is -1e9 elsewhere. The scores enter in one place only, as the scatter's updates:
  two programs that apply these lines to equal scores and equal arguments end with equal tables.

  The 66 lines are read in four stages (the counts; the cube index and validity; the two scatter coordinates; the table),
  each from ANY buffer contents, and joined: a stage reads a few buffers of the stage before and leaves the others alone.
-/
import proofs.«423639_j43971875176948_1_alg».proof.Proof.TailPieces

set_option maxRecDepth 16384

noncomputable section

namespace Cert.KernelIdeal.Tail

open Cert.KernelIdeal Cert.KernelIdeal.Gen Cert.KernelIdeal.Frame
open Idealize.ShloMosaic Idealize.ShloMosaic.TcCoe Idealize.SL.Sem Idealize.ShloMosaic.StableHlo

section StageC
variable (X : Valuation τ sig (Elt Ideal))

/-- The first 18 lines of the last plain stretch: the table's fill and the two coordinates wrapped and laid out as columns. -/
abbrev s8a : List (HloOp τ sig (Elt Ideal)) := List.take 18 hostOps1_8
/-- Its last 5 lines: the two columns side by side, the scatter, the two flattenings, the fill again. -/
abbrev s8b : List (HloOp τ sig (Elt Ideal)) := List.drop 18 hostOps1_8

theorem c8_v41 : after s8a X (Proc.devRef .tc main_v41) = colWrap (X (Proc.devRef .tc main_v28)) 512#32 := by
  simp only [s8a, hostOps1_8, List.take_succ_cons, List.take_zero]
  after_results_simp
  rfl

theorem c8_v42 : after s8a X (Proc.devRef .tc main_v42) = colWrap (X (Proc.devRef .tc main_v29)) 64#32 := by
  simp only [s8a, hostOps1_8, List.take_succ_cons, List.take_zero]
  after_results_simp
  rfl

theorem c8_v30 : after s8a X (Proc.devRef .tc main_v30)
    = broadcastInDim S512x64x24 ![] bcast_S_S512x64x24 (constant (F := Ideal) S_ .f32 0xCE6E6B28#32) := by
  simp only [s8a, hostOps1_8, List.take_succ_cons, List.take_zero]
  after_results_simp
  try rfl

theorem c8_keep (r : Ref sig .tc) (hr : r = main_arg8 ∨ r = main_v5) : after s8a X (Proc.devRef .tc r) = X (Proc.devRef .tc r) := by
  simp only [s8a, hostOps1_8, List.take_succ_cons, List.take_zero]
  rcases hr with rfl | rfl <;> after_results_simp

/-- The stretch's last 5 lines, from any buffer contents `Y`: the scattered table, flattened; -/
theorem c8b_v45 (Y : Valuation τ sig (Elt Ideal)) : after s8b Y (Proc.devRef .tc main_v45)
    = shapeCast S512x1536
        (Host.scatter scatter_S512x64x24_S500000x2_S500000x24_1_01_01_1 (fun _ b => b) (Y (Proc.devRef .tc main_v30))
          (concatenate S500000x2 1 [⟨S500000x1, Y (Proc.devRef .tc main_v41)⟩, ⟨S500000x1, Y (Proc.devRef .tc main_v42)⟩] concatenates_S500000x1_S500000x1_S500000x2_d1)
          (Y (Proc.devRef .tc main_v5)))
        shapeCasts_S512x64x24_S512x1536 := by
  simp only [s8b, hostOps1_8, List.drop_succ_cons, List.drop_zero]
  after_results_simp
  rfl

/-- the move mask, flattened; -/
theorem c8b_v46 (Y : Valuation τ sig (Elt Ideal)) : after s8b Y (Proc.devRef .tc main_v46)
    = shapeCast S512x1536 (Y (Proc.devRef .tc main_arg8)) shapeCasts_S512x64x24_S512x1536 := by
  simp only [s8b, hostOps1_8, List.drop_succ_cons, List.drop_zero]
  after_results_simp
  rfl

/-- and the fill constant. -/
theorem c8b_cst (Y : Valuation τ sig (Elt Ideal)) : after s8b Y (Proc.devRef .tc main_cst_11) = constant (F := Ideal) S_ .f32 0xCE6E6B28#32 := by
  simp only [s8b, hostOps1_8, List.drop_succ_cons, List.drop_zero]
  after_results_simp
  try rfl

/-- The final masking, from any buffer contents `Z`. -/
theorem c9_v47 (Z : Valuation τ sig (Elt Ideal)) : after s9 Z (Proc.devRef .tc main_v47)
    = select (Z (Proc.devRef .tc main_v46)) (Z (Proc.devRef .tc main_v45)) (broadcastInDim S512x1536 ![] bcast_S_S512x1536 (id (Z (Proc.devRef .tc main_cst_11)))) := by
  simp only [s9, hostOps1_9]
  after_results_simp
  rfl

theorem c_v47 : stC X (Proc.devRef .tc main_v47)
    = tableOf (X (Proc.devRef .tc main_v5)) (X (Proc.devRef .tc main_v28)) (X (Proc.devRef .tc main_v29)) (X (Proc.devRef .tc main_arg8)) := by
  show after s9 (after s8 X) _ = _
  have hs : (s8 : List (HloOp τ sig (Elt Ideal))) = s8a ++ s8b := (List.take_append_drop 18 _).symm
  rw [hs, StableHlo.after_append, c9_v47, c8b_v45, c8b_v46, c8b_cst, c8_v41, c8_v42, c8_v30,
    c8_keep _ main_v5 (Or.inr rfl), c8_keep _ main_arg8 (Or.inl rfl)]
  rfl

end StageC

/-- The ten stretches of host lines after the region, run from ANY buffer contents `W`, leave in the result buffer `tail`
    of what `W` holds in the scores buffer and in the three arguments they read. -/
theorem tail_read (W : Valuation τ sig (Elt Ideal)) :
    StableHlo.after (List.flatten (tailOps (F := Ideal))) W (Proc.devRef .tc main_v47)
      = tail (W (Proc.devRef .tc main_v5)) (W (Proc.devRef .tc main_arg6)) (W (Proc.devRef .tc main_arg7)) (W (Proc.devRef .tc main_arg8)) := by
  have hsplit : StableHlo.after (List.flatten (tailOps (F := Ideal))) W = stC (stB (after s4 (stA W))) := by
    simp only [tailOps, List.flatten_cons, List.flatten_nil, List.append_nil, StableHlo.after_append]
  rw [hsplit, c_v47, b_v28, b_v29, b_keep _ main_arg8 (Or.inl rfl), b_keep _ main_v5 (Or.inr rfl),
    a2_v27, a2_v24, a2_c5, a2_keep _ main_arg7 (Or.inl rfl), a2_keep _ main_arg8 (Or.inr (Or.inl rfl)),
    a2_keep _ main_v5 (Or.inr (Or.inr rfl)), a_v7, a_v12, a_v11,
    a_keep _ main_arg6 (Or.inl rfl), a_keep _ main_arg7 (Or.inr (Or.inl rfl)), a_keep _ main_arg8 (Or.inr (Or.inr (Or.inl rfl))),
    a_keep _ main_v5 (Or.inr (Or.inr (Or.inr rfl)))]
  rfl

end Cert.KernelIdeal.Tail

end
-- ==== Proof.KRun.lean ====
/-
  The kernel program's run, read: the result buffer after the run is the logits table of the scores, and the nine
  arguments end as launched.

  The frame run leaves the scores array at what the 250 points wrote back and every other buffer at what the later host
  lines make of it. Those lines read four buffers: the scores (the one array a window writes), and the cube mask, the
  graph words and the move mask, which no earlier line and no window has changed.
-/
import proofs.«423639_j43971875176948_1_alg».proof.Proof.KFrameIdeal
import proofs.«423639_j43971875176948_1_alg».proof.Proof.KScores
import proofs.«423639_j43971875176948_1_alg».proof.Proof.Tail

set_option maxRecDepth 16384

noncomputable section

namespace Cert.KernelIdeal.Result

open Cert.KernelIdeal Cert.KernelIdeal.Gen Cert.KernelIdeal.Frame Cert.KernelIdeal.Scores Cert.KernelIdeal.Tail
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result buffer after the later lines, when `bt` reads core `c`'s graph words. -/
theorem result_eq (c : Dev nD) (bt : Fin 500000 → Fin 512)
    (hbt : ∀ n : Fin 500000, m ((c : Thread nD τ).loc main_arg7) (ix1 n) = BitVec.ofNat 32 (bt n).val) :
    Pipeline.afterTail₀ cfgs (dats m) 0 (V0 m) tailOps c main_v47
      = tail (scoresK m c bt) (m ((c : Thread nD τ).loc main_arg6)) (m ((c : Thread nD τ).loc main_arg7)) (m ((c : Thread nD τ).loc main_arg8)) := by
  unfold Pipeline.afterTail₀
  rw [tail_read]
  have h5 : Pipeline.withArrays spec0 c (V0 m c) (fun w => (dats m 0 c).arrAt w cfg0.N) (Proc.devRef .tc main_v5) = scoresK m c bt :=
    (Pipeline.withArrays_arr spec0 launch0.win.arr_inj c (V0 m c) (fun w => (dats m 0 c).arrAt w cfg0.N) 8).trans (final8 m c bt hbt)
  have h6 : Pipeline.withArrays spec0 c (V0 m c) (fun w => (dats m 0 c).arrAt w cfg0.N) (Proc.devRef .tc main_arg6) = m ((c : Thread nD τ).loc main_arg6) :=
    (Pipeline.withArrays_of_ne spec0 c (V0 m c) _ main_arg6 (by exact (by decide : ∀ w, Pipeline.arrRef spec0 w ≠ main_arg6))).trans (V_main_arg6 m c)
  have h7 : Pipeline.withArrays spec0 c (V0 m c) (fun w => (dats m 0 c).arrAt w cfg0.N) (Proc.devRef .tc main_arg7) = m ((c : Thread nD τ).loc main_arg7) :=
    (Pipeline.withArrays_of_ne spec0 c (V0 m c) _ main_arg7 (by exact (by decide : ∀ w, Pipeline.arrRef spec0 w ≠ main_arg7))).trans (V_main_arg7 m c)
  have h8 : Pipeline.withArrays spec0 c (V0 m c) (fun w => (dats m 0 c).arrAt w cfg0.N) (Proc.devRef .tc main_arg8) = m ((c : Thread nD τ).loc main_arg8) :=
    (Pipeline.withArrays_of_ne spec0 c (V0 m c) _ main_arg8 (by exact (by decide : ∀ w, Pipeline.arrRef spec0 w ≠ main_arg8))).trans (V_main_arg8 m c)
  rw [h5, h6, h7, h8]

/-- THE KERNEL PROGRAM'S RUN, READ: every weakly fair execution ends with the result buffer at the logits table of the
    scores and the arguments as launched, for any reading `bt` of the graph words as graphs. -/
theorem run_value (bt : Dev nD → Fin 500000 → Fin 512)
    (hbt : ∀ (c : Dev nD) (n : Fin 500000), m ((c : Thread nD τ).loc main_arg7) (ix1 n) = BitVec.ofNat 32 (bt c n).val) :
    θ_run defs (onTc (τ := τ) (main (F := Ideal))) ⟨m, fun _ => 0, ρ⟩ fun r => ∀ c : Dev nD,
      r.2.mem ((c.tc : Thread nD τ).loc main_v47)
          = tail (scoresK m c (bt c)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
      ⟨((h c).2 main_v47 (Pipeline.mem_restRefs_of main_v47 (by decide) (by decide))).trans (result_eq m c (bt c) (hbt c)),
        args_of_post m (dats m) (A_eq m) r h c⟩)
    (run_main m ρ)

end Cert.KernelIdeal.Result

end
-- ==== Proof.RefRun.lean ====
/-
  The reference program's run.

  @main is a straight line of 87 host operations: its own 69, and at each of its six calls the three operations of
  the outlined function called (for the two running counts, of the function that one calls in turn), stated over
  that call's buffers. They are listed in program order, cut into consecutive stretches at the calls; the program
  equals the line of the concatenation (sequencing is associative, a function's closing return is the unit of
  sequencing); every operation touches TensorCore buffers only, determines what it writes, and writes a buffer of
  its own that is none of the nine argument buffers. Hence every weakly fair execution terminates with each buffer
  at the fold of the operations over the launch contents, and with the arguments as launched.
-/
import proofs.«423639_j43971875176948_1_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in program order -/

/-- @main's first fourteen operations: the graph index made non-negative, the graph's row read at it, the row set beside the node's features, the first layer's product and its bias. -/
abbrev opsA : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg7 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 512#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg7 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg7 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.binary main_arg1 main_v5 main_v6 ((fun x i => Host.gather gather_S512x128_S500000x1_S500000x128_1_0_n_n_0_1_1128 x i) : (⟨S512x128, .f32⟩ : BufTy).Contents (Elt F) → (⟨S500000x1, .i32⟩ : BufTy).Contents (Elt F) → (⟨S500000x128, .f32⟩ : BufTy).Contents (Elt F)),
    StableHlo.binary main_arg0 main_v6 main_v7 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    StableHlo.binary main_v7 main_arg2 main_v8 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    StableHlo.unary main_arg3 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S500000x128 ![0, 1] bcast_S1x128_S500000x128_0_1 : (⟨S1x128, .f32⟩ : BufTy).Contents (Elt F) → (⟨S500000x128, .f32⟩ : BufTy).Contents (Elt F)),
    StableHlo.binary main_v8 main_v10 main_v11 (addf : (⟨S500000x128, .f32⟩ : BufTy).Contents (Elt F) → (⟨S500000x128, .f32⟩ : BufTy).Contents (Elt F) → (⟨S500000x128, .f32⟩ : BufTy).Contents (Elt F)) ]

/-- The positive part, the outlined function's three operations over its call's buffers. -/
abbrev opsRelu : List (HloOp τ sig (Elt F)) :=
  [ StableHlo.TRef.nullary main_call0.cst (constant S_ .f32 0x00000000#32),
    StableHlo.TRef.unary main_call0.cst main_call0.v0 (broadcastInDim S500000x128 ![] bcast_S_S500000x128),
    StableHlo.TRef.binary (.of main_v11 : StableHlo.TRef sig ⟨S500000x128, .f32⟩) main_call0.v0 main_call0.v1 maximumf ]

/-- The second layer: the product with the second weight matrix and its bias, the scores. -/
abbrev opsB : List (HloOp τ sig (Elt F)) :=
  [ StableHlo.binary main_v12 main_arg4 main_v13 ((fun l r => Host.dotGeneral dot_S500000x128_S128x24_S500000x24_1_0_0_1_n_n none l r) : (⟨S500000x128, .f32⟩ : BufTy).Contents (Elt F) → (⟨S128x24, .f32⟩ : BufTy).Contents (Elt F) → (⟨S500000x24, .f32⟩ : BufTy).Contents (Elt F)),
    StableHlo.unary main_arg5 main_v14 (broadcastInDim S1x24 ![1] bcast_S24_S1x24_1 : (⟨S24, .f32⟩ : BufTy).Contents (Elt F) → (⟨S1x24, .f32⟩ : BufTy).Contents (Elt F)),
    StableHlo.unary main_v14 main_v15 (broadcastInDim S500000x24 ![0, 1] bcast_S1x24_S500000x24_0_1 : (⟨S1x24, .f32⟩ : BufTy).Contents (Elt F) → (⟨S500000x24, .f32⟩ : BufTy).Contents (Elt F)),
    StableHlo.binary main_v13 main_v15 main_v16 (addf : (⟨S500000x24, .f32⟩ : BufTy).Contents (Elt F) → (⟨S500000x24, .f32⟩ : BufTy).Contents (Elt F) → (⟨S500000x24, .f32⟩ : BufTy).Contents (Elt F)) ]

/-- The mask as integers. -/
abbrev opsT0 : List (HloOp τ sig (Elt F)) :=
  [ StableHlo.unary main_arg6 main_v17 ((extui 32 · natLt_1_32) : (⟨S500000, .i1⟩ : BufTy).Contents (Elt F) → (⟨S500000, .i32⟩ : BufTy).Contents (Elt F)) ]

/-- The running count of the mask over the nodes: the inner outlined function's three operations over its call's buffers. -/
abbrev opsT1 : List (HloOp τ sig (Elt F)) :=
  [ StableHlo.TRef.nullary main_call1.call0.c (constantI S_ 32 0#32),
    StableHlo.TRef.unary main_call1.call0.c main_call1.call0.v0 (broadcastInDim S_ ![] bcast_S_S_),
    StableHlo.TRef.binary (.of main_v17 : StableHlo.TRef sig ⟨S500000, .i32⟩) main_call1.call0.v0 main_call1.call0.v1 (fun x v => Host.reduceWindow IntOp.addi ![500000] ![1] ![499999] ![0] x v reduceWindows_S500000_S500000_w500000s1p499999_0 h_S_) ]

/-- The per-graph counts (a scatter-add of the mask at the graph indices) and the one-element zero. -/
abbrev opsT2 : List (HloOp τ sig (Elt F)) :=
  [ StableHlo.nullary main_c_1 (constantI S_ 32 0#32),
    StableHlo.unary main_c_1 main_v19 (broadcastInDim S512 ![] bcast_S_S512 : (⟨S_, .i32⟩ : BufTy).Contents (Elt F) → (⟨S512, .i32⟩ : BufTy).Contents (Elt F)),
    StableHlo.unary main_arg7 main_v20 (broadcastInDim S500000x1 ![0] bcast_S500000_S500000x1_0 : (⟨S500000, .i32⟩ : BufTy).Contents (Elt F) → (⟨S500000x1, .i32⟩ : BufTy).Contents (Elt F)),
    StableHlo.ternary main_v19 main_v20 main_v17 main_v21 ((fun x i u => Host.scatter scatter_S512_S500000x1_S500000_n_0_0_1 IntOp.addi x i u) : (⟨S512, .i32⟩ : BufTy).Contents (Elt F) → (⟨S500000x1, .i32⟩ : BufTy).Contents (Elt F) → (⟨S500000, .i32⟩ : BufTy).Contents (Elt F) → (⟨S512, .i32⟩ : BufTy).Contents (Elt F)),
    StableHlo.nullary main_c_2 (constantI S_ 32 0#32),
    StableHlo.unary main_c_2 main_v22 (broadcastInDim S1 ![] bcast_S_S1 : (⟨S_, .i32⟩ : BufTy).Contents (Elt F) → (⟨S1, .i32⟩ : BufTy).Contents (Elt F)) ]

/-- The running count over the graphs: the inner outlined function's three operations over its call's buffers. -/
abbrev opsT3 : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v21 : StableHlo.TRef sig ⟨S512, .i32⟩) main_call2.call0.v0 main_call2.call0.v1 (fun x v => Host.reduceWindow IntOp.addi ![512] ![1] ![511] ![0] x v reduceWindows_S512_S512_w512s1p511_0 h_S_) ]

/-- Each node's position within its graph, the test that it is below 64 and masked, and the constant 512. -/
abbrev opsT4 : List (HloOp τ sig (Elt F)) :=
  [ StableHlo.unary main_v23 main_v24 ((extractStridedSlice S511 ![0] · slices_S512_S511_0) : (⟨S512, .i32⟩ : BufTy).Contents (Elt F) → (⟨S511, .i32⟩ : BufTy).Contents (Elt F)),
    StableHlo.binary main_v22 main_v24 main_v25 ((fun a b => concatenate S512 0 [⟨S1, a⟩, ⟨S511, b⟩] concatenates_S1_S511_S512_d0) : (⟨S1, .i32⟩ : BufTy).Contents (Elt F) → (⟨S511, .i32⟩ : BufTy).Contents (Elt F) → (⟨S512, .i32⟩ : BufTy).Contents (Elt F)),
    StableHlo.nullary main_c_3 (constantI S_ 32 1#32),
    StableHlo.unary main_c_3 main_v26 (broadcastInDim S500000 ![] bcast_S_S500000 : (⟨S_, .i32⟩ : BufTy).Contents (Elt F) → (⟨S500000, .i32⟩ : BufTy).Contents (Elt F)),
    StableHlo.binary main_v18 main_v26 main_v27 (subi : (⟨S500000, .i32⟩ : BufTy).Contents (Elt F) → (⟨S500000, .i32⟩ : BufTy).Contents (Elt F) → (⟨S500000, .i32⟩ : BufTy).Contents (Elt F)),
    StableHlo.nullary main_c_4 (constantI S_ 32 0#32),
    StableHlo.unary main_c_4 main_v28 (broadcastInDim S500000 ![] bcast_S_S500000 : (⟨S_, .i32⟩ : BufTy).Contents (Elt F) → (⟨S500000, .i32⟩ : BufTy).Contents (Elt F)),
    StableHlo.binary main_arg7 main_v28 main_v29 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 512#32),
    StableHlo.unary main_c_5 main_v30 (broadcastInDim S500000 ![] bcast_S_S500000 : (⟨S_, .i32⟩ : BufTy).Contents (Elt F) → (⟨S500000, .i32⟩ : BufTy).Contents (Elt F)),
    StableHlo.binary main_arg7 main_v30 main_v31 (addi : (⟨S500000, .i32⟩ : BufTy).Contents (Elt F) → (⟨S500000, .i32⟩ : BufTy).Contents (Elt F) → (⟨S500000, .i32⟩ : BufTy).Contents (Elt F)),
    StableHlo.ternary main_v29 main_v31 main_arg7 main_v32 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v32 main_v33 (broadcastInDim S500000x1 ![0] bcast_S500000_S500000x1_0 : (⟨S500000, .i32⟩ : BufTy).Contents (Elt F) → (⟨S500000x1, .i32⟩ : BufTy).Contents (Elt F)),
    StableHlo.binary main_v25 main_v33 main_v34 ((fun x i => Host.gather gather_S512_S500000x1_S500000_n_0_n_n_0_1_1 x i) : (⟨S512, .i32⟩ : BufTy).Contents (Elt F) → (⟨S500000x1, .i32⟩ : BufTy).Contents (Elt F) → (⟨S500000, .i32⟩ : BufTy).Contents (Elt F)),
    StableHlo.binary main_v27 main_v34 main_v35 (subi : (⟨S500000, .i32⟩ : BufTy).Contents (Elt F) → (⟨S500000, .i32⟩ : BufTy).Contents (Elt F) → (⟨S500000, .i32⟩ : BufTy).Contents (Elt F)),
    StableHlo.nullary main_c_6 (constantI S_ 32 64#32),
    StableHlo.unary main_c_6 main_v36 (broadcastInDim S500000 ![] bcast_S_S500000 : (⟨S_, .i32⟩ : BufTy).Contents (Elt F) → (⟨S500000, .i32⟩ : BufTy).Contents (Elt F)),
    StableHlo.binary main_v35 main_v36 main_v37 (cmpi .slt : (⟨S500000, .i32⟩ : BufTy).Contents (Elt F) → (⟨S500000, .i32⟩ : BufTy).Contents (Elt F) → (⟨S500000, .i1⟩ : BufTy).Contents (Elt F)),
    StableHlo.binary main_arg6 main_v37 main_v38 (andi : (⟨S500000, .i1⟩ : BufTy).Contents (Elt F) → (⟨S500000, .i1⟩ : BufTy).Contents (Elt F) → (⟨S500000, .i1⟩ : BufTy).Contents (Elt F)),
    StableHlo.nullary main_c_7 (constantI S_ 32 512#32) ]

/-- The first selection (the graph index where the test holds, 512 elsewhere): the outlined function's three operations. -/
abbrev opsT5 : List (HloOp τ sig (Elt F)) :=
  [ StableHlo.TRef.unary (.of main_c_7 : StableHlo.TRef sig ⟨S_, .i32⟩) main_call3.v0 id,
    StableHlo.TRef.unary main_call3.v0 main_call3.v1 (broadcastInDim S500000 ![] bcast_S_S500000),
    StableHlo.TRef.ternary (.of main_v38 : StableHlo.TRef sig ⟨S500000, .i1⟩) (.of main_arg7 : StableHlo.TRef sig ⟨S500000, .i32⟩) main_call3.v1 main_call3.v2 select ]

/-- The constant zero. -/
abbrev opsT6 : List (HloOp τ sig (Elt F)) :=
  [ StableHlo.nullary main_c_8 (constantI S_ 32 0#32) ]

/-- The second selection (the position where the test holds, zero elsewhere): the outlined function's three operations. -/
abbrev opsT7 : List (HloOp τ sig (Elt F)) :=
  [ StableHlo.TRef.unary (.of main_c_8 : StableHlo.TRef sig ⟨S_, .i32⟩) main_call4.v0 id,
    StableHlo.TRef.unary main_call4.v0 main_call4.v1 (broadcastInDim S500000 ![] bcast_S_S500000),
    StableHlo.TRef.ternary (.of main_v38 : StableHlo.TRef sig ⟨S500000, .i1⟩) (.of main_v35 : StableHlo.TRef sig ⟨S500000, .i32⟩) main_call4.v1 main_call4.v2 select ]

/-- The padded table filled with the large negative constant, the two index columns made non-negative and set side by side, the scores scattered at them, the two reshapes and the fill constant. -/
abbrev opsT8 : List (HloOp τ sig (Elt F)) :=
  [ StableHlo.nullary main_cst (constant S_ .f32 0xCE6E6B28#32),
    StableHlo.unary main_cst main_v41 (broadcastInDim S512x64x24 ![] bcast_S_S512x64x24 : (⟨S_, .f32⟩ : BufTy).Contents (Elt F) → (⟨S512x64x24, .f32⟩ : BufTy).Contents (Elt F)),
    StableHlo.nullary main_c_9 (constantI S_ 32 0#32),
    StableHlo.unary main_c_9 main_v42 (broadcastInDim S500000 ![] bcast_S_S500000 : (⟨S_, .i32⟩ : BufTy).Contents (Elt F) → (⟨S500000, .i32⟩ : BufTy).Contents (Elt F)),
    StableHlo.binary main_v39 main_v42 main_v43 (cmpi .slt : (⟨S500000, .i32⟩ : BufTy).Contents (Elt F) → (⟨S500000, .i32⟩ : BufTy).Contents (Elt F) → (⟨S500000, .i1⟩ : BufTy).Contents (Elt F)),
    StableHlo.nullary main_c_10 (constantI S_ 32 512#32),
    StableHlo.unary main_c_10 main_v44 (broadcastInDim S500000 ![] bcast_S_S500000 : (⟨S_, .i32⟩ : BufTy).Contents (Elt F) → (⟨S500000, .i32⟩ : BufTy).Contents (Elt F)),
    StableHlo.binary main_v39 main_v44 main_v45 (addi : (⟨S500000, .i32⟩ : BufTy).Contents (Elt F) → (⟨S500000, .i32⟩ : BufTy).Contents (Elt F) → (⟨S500000, .i32⟩ : BufTy).Contents (Elt F)),
    StableHlo.ternary main_v43 main_v45 main_v39 main_v46 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_11 (constantI S_ 32 0#32),
    StableHlo.unary main_c_11 main_v47 (broadcastInDim S500000 ![] bcast_S_S500000 : (⟨S_, .i32⟩ : BufTy).Contents (Elt F) → (⟨S500000, .i32⟩ : BufTy).Contents (Elt F)),
    StableHlo.binary main_v40 main_v47 main_v48 (cmpi .slt : (⟨S500000, .i32⟩ : BufTy).Contents (Elt F) → (⟨S500000, .i32⟩ : BufTy).Contents (Elt F) → (⟨S500000, .i1⟩ : BufTy).Contents (Elt F)),
    StableHlo.nullary main_c_12 (constantI S_ 32 64#32),
    StableHlo.unary main_c_12 main_v49 (broadcastInDim S500000 ![] bcast_S_S500000 : (⟨S_, .i32⟩ : BufTy).Contents (Elt F) → (⟨S500000, .i32⟩ : BufTy).Contents (Elt F)),
    StableHlo.binary main_v40 main_v49 main_v50 (addi : (⟨S500000, .i32⟩ : BufTy).Contents (Elt F) → (⟨S500000, .i32⟩ : BufTy).Contents (Elt F) → (⟨S500000, .i32⟩ : BufTy).Contents (Elt F)),
    StableHlo.ternary main_v48 main_v50 main_v40 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v46 main_v52 (broadcastInDim S500000x1 ![0] bcast_S500000_S500000x1_0 : (⟨S500000, .i32⟩ : BufTy).Contents (Elt F) → (⟨S500000x1, .i32⟩ : BufTy).Contents (Elt F)),
    StableHlo.unary main_v51 main_v53 (broadcastInDim S500000x1 ![0] bcast_S500000_S500000x1_0 : (⟨S500000, .i32⟩ : BufTy).Contents (Elt F) → (⟨S500000x1, .i32⟩ : BufTy).Contents (Elt F)),
    StableHlo.binary main_v52 main_v53 main_v54 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.ternary main_v41 main_v54 main_v16 main_v55 ((fun x i u => Host.scatter scatter_S512x64x24_S500000x2_S500000x24_1_01_01_1 (fun _ b => b) x i u) : (⟨S512x64x24, .f32⟩ : BufTy).Contents (Elt F) → (⟨S500000x2, .i32⟩ : BufTy).Contents (Elt F) → (⟨S500000x24, .f32⟩ : BufTy).Contents (Elt F) → (⟨S512x64x24, .f32⟩ : BufTy).Contents (Elt F)),
    StableHlo.reshape main_v55 main_v56 rfl shapeCasts_S512x64x24_S512x1536,
    StableHlo.reshape main_arg8 main_v57 rfl shapeCasts_S512x64x24_S512x1536,
    StableHlo.nullary main_cst_13 (constant S_ .f32 0xCE6E6B28#32) ]

/-- The last selection (the table where the move mask holds, the large negative constant elsewhere): the outlined function's three operations. -/
abbrev opsT9 : List (HloOp τ sig (Elt F)) :=
  [ StableHlo.TRef.unary (.of main_cst_13 : StableHlo.TRef sig ⟨S_, .f32⟩) main_call5.v0 id,
    StableHlo.TRef.unary main_call5.v0 main_call5.v1 (broadcastInDim S512x1536 ![] bcast_S_S512x1536),
    StableHlo.TRef.ternary (.of main_v57 : StableHlo.TRef sig ⟨S512x1536, .i1⟩) (.of main_v56 : StableHlo.TRef sig ⟨S512x1536, .f32⟩) main_call5.v1 main_call5.v2 select ]

/-- All 87, in order: the stretches joined, each to the rest of the line after it. -/
abbrev ops : List (HloOp τ sig (Elt F)) :=
  opsA ++ (opsRelu ++ (opsB ++ (opsT0 ++ (opsT1 ++ (opsT2 ++ (opsT3 ++ (opsT4 ++ (opsT5 ++ (opsT6 ++ (opsT7 ++ (opsT8 ++ opsT9)))))))))))

/-! ## The program is that line -/

/-- @main is that straight line: with the outlined functions unfolded at their calls and the two windows of @main
    joined, both sides are the same chain of operation steps, sequencing being associative by computation. -/
theorem main_eq (c : Dev nD) : main (F := F) c = StableHlo.seq ops := by
  chain_rfl

/-! ## What each operation touches, determines and leaves alone -/

/-- The nine argument buffers. -/
abbrev args : List (Ref sig .tc) :=
  [main_arg0, main_arg1, main_arg2, main_arg3, main_arg4, main_arg5, main_arg6, main_arg7, main_arg8]

/-- The operation writes none of the argument buffers. -/
def Keeps (op : HloOp τ sig (Elt F)) : Prop :=
  ∀ r ∈ args, Proc.devRef (τ := τ) .tc r ∉ op.writes

/-- An operation whose one written buffer is the reference `y`, not an argument, writes no argument: distinct
    references are distinct buffers. -/
theorem keeps {op : HloOp τ sig (Elt F)} {y : Ref sig .tc} (hw : op.writes = {Proc.devRef (τ := τ) .tc y})
    (hy : y ∉ args := by decide) : Keeps op := by
  intro r hr hm
  rw [hw, Finset.mem_singleton] at hm
  exact hy (Proc.devRef_injective _ hm ▸ hr)

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl⟩
theorem opsA_keeps : (opsA : List (HloOp τ sig (Elt F))).Forall Keeps :=
  ⟨keeps (nullary_writes ..), keeps (unary_writes ..), keeps (binary_writes ..), keeps (nullary_writes ..), keeps (unary_writes ..), keeps (binary_writes ..), keeps (ternary_writes ..), keeps (unary_writes ..), keeps (binary_writes ..), keeps (binary_writes ..), keeps (binary_writes ..), keeps (unary_writes ..), keeps (unary_writes ..), keeps (binary_writes ..)⟩

theorem opsRelu_sub : (opsRelu : List (HloOp τ sig (Elt F))).Forall fun op => op.bufs ⊆ tcRefs τ sig :=
  ⟨nullary_bufs_sub .., unary_bufs_sub .., binary_bufs_sub ..⟩
theorem opsRelu_fresh : (opsRelu : List (HloOp τ sig (Elt F))).Forall fun op => op.fresh = ∅ :=
  ⟨rfl, rfl, rfl⟩
theorem opsRelu_keeps : (opsRelu : List (HloOp τ sig (Elt F))).Forall Keeps :=
  ⟨keeps (nullary_writes ..), keeps (unary_writes ..), keeps (binary_writes ..)⟩

theorem opsB_sub : (opsB : List (HloOp τ sig (Elt F))).Forall fun op => op.bufs ⊆ tcRefs τ sig :=
  ⟨binary_bufs_sub .., unary_bufs_sub .., unary_bufs_sub .., binary_bufs_sub ..⟩
theorem opsB_fresh : (opsB : List (HloOp τ sig (Elt F))).Forall fun op => op.fresh = ∅ :=
  ⟨rfl, rfl, rfl, rfl⟩
theorem opsB_keeps : (opsB : List (HloOp τ sig (Elt F))).Forall Keeps :=
  ⟨keeps (binary_writes ..), keeps (unary_writes ..), keeps (unary_writes ..), keeps (binary_writes ..)⟩

theorem opsT0_sub : (opsT0 : List (HloOp τ sig (Elt F))).Forall fun op => op.bufs ⊆ tcRefs τ sig :=
  unary_bufs_sub ..
theorem opsT0_fresh : (opsT0 : List (HloOp τ sig (Elt F))).Forall fun op => op.fresh = ∅ :=
  rfl
theorem opsT0_keeps : (opsT0 : List (HloOp τ sig (Elt F))).Forall Keeps :=
  keeps (unary_writes ..)

theorem opsT1_sub : (opsT1 : List (HloOp τ sig (Elt F))).Forall fun op => op.bufs ⊆ tcRefs τ sig :=
  ⟨nullary_bufs_sub .., unary_bufs_sub .., binary_bufs_sub ..⟩
theorem opsT1_fresh : (opsT1 : List (HloOp τ sig (Elt F))).Forall fun op => op.fresh = ∅ :=
  ⟨rfl, rfl, rfl⟩
theorem opsT1_keeps : (opsT1 : List (HloOp τ sig (Elt F))).Forall Keeps :=
  ⟨keeps (nullary_writes ..), keeps (unary_writes ..), keeps (binary_writes ..)⟩

theorem opsT2_sub : (opsT2 : List (HloOp τ sig (Elt F))).Forall fun op => op.bufs ⊆ tcRefs τ sig :=
  ⟨nullary_bufs_sub .., unary_bufs_sub .., unary_bufs_sub .., ternary_bufs_sub .., nullary_bufs_sub .., unary_bufs_sub ..⟩
theorem opsT2_fresh : (opsT2 : List (HloOp τ sig (Elt F))).Forall fun op => op.fresh = ∅ :=
  ⟨rfl, rfl, rfl, rfl, rfl, rfl⟩
theorem opsT2_keeps : (opsT2 : List (HloOp τ sig (Elt F))).Forall Keeps :=
  ⟨keeps (nullary_writes ..), keeps (unary_writes ..), keeps (unary_writes ..), keeps (ternary_writes ..), keeps (nullary_writes ..), keeps (unary_writes ..)⟩

theorem opsT3_sub : (opsT3 : List (HloOp τ sig (Elt F))).Forall fun op => op.bufs ⊆ tcRefs τ sig :=
  ⟨nullary_bufs_sub .., unary_bufs_sub .., binary_bufs_sub ..⟩
theorem opsT3_fresh : (opsT3 : List (HloOp τ sig (Elt F))).Forall fun op => op.fresh = ∅ :=
  ⟨rfl, rfl, rfl⟩
theorem opsT3_keeps : (opsT3 : List (HloOp τ sig (Elt F))).Forall Keeps :=
  ⟨keeps (nullary_writes ..), keeps (unary_writes ..), keeps (binary_writes ..)⟩

theorem opsT4_sub : (opsT4 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., nullary_bufs_sub ..⟩
theorem opsT4_fresh : (opsT4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem opsT4_keeps : (opsT4 : List (HloOp τ sig (Elt F))).Forall Keeps :=
  ⟨keeps (unary_writes ..), keeps (binary_writes ..), keeps (nullary_writes ..), keeps (unary_writes ..), keeps (binary_writes ..), keeps (nullary_writes ..), keeps (unary_writes ..), keeps (binary_writes ..), keeps (nullary_writes ..), keeps (unary_writes ..), keeps (binary_writes ..), keeps (ternary_writes ..), keeps (unary_writes ..), keeps (binary_writes ..), keeps (binary_writes ..), keeps (nullary_writes ..), keeps (unary_writes ..), keeps (binary_writes ..), keeps (binary_writes ..), keeps (nullary_writes ..)⟩

theorem opsT5_sub : (opsT5 : List (HloOp τ sig (Elt F))).Forall fun op => op.bufs ⊆ tcRefs τ sig :=
  ⟨unary_bufs_sub .., unary_bufs_sub .., ternary_bufs_sub ..⟩
theorem opsT5_fresh : (opsT5 : List (HloOp τ sig (Elt F))).Forall fun op => op.fresh = ∅ :=
  ⟨rfl, rfl, rfl⟩
theorem opsT5_keeps : (opsT5 : List (HloOp τ sig (Elt F))).Forall Keeps :=
  ⟨keeps (unary_writes ..), keeps (unary_writes ..), keeps (ternary_writes ..)⟩

theorem opsT6_sub : (opsT6 : List (HloOp τ sig (Elt F))).Forall fun op => op.bufs ⊆ tcRefs τ sig :=
  nullary_bufs_sub ..
theorem opsT6_fresh : (opsT6 : List (HloOp τ sig (Elt F))).Forall fun op => op.fresh = ∅ :=
  rfl
theorem opsT6_keeps : (opsT6 : List (HloOp τ sig (Elt F))).Forall Keeps :=
  keeps (nullary_writes ..)

theorem opsT7_sub : (opsT7 : List (HloOp τ sig (Elt F))).Forall fun op => op.bufs ⊆ tcRefs τ sig :=
  ⟨unary_bufs_sub .., unary_bufs_sub .., ternary_bufs_sub ..⟩
theorem opsT7_fresh : (opsT7 : List (HloOp τ sig (Elt F))).Forall fun op => op.fresh = ∅ :=
  ⟨rfl, rfl, rfl⟩
theorem opsT7_keeps : (opsT7 : List (HloOp τ sig (Elt F))).Forall Keeps :=
  ⟨keeps (unary_writes ..), keeps (unary_writes ..), keeps (ternary_writes ..)⟩

theorem opsT8_sub : (opsT8 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., reshape_bufs_sub .., reshape_bufs_sub .., nullary_bufs_sub ..⟩
theorem opsT8_fresh : (opsT8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem opsT8_keeps : (opsT8 : List (HloOp τ sig (Elt F))).Forall Keeps :=
  ⟨keeps (nullary_writes ..), keeps (unary_writes ..), keeps (nullary_writes ..), keeps (unary_writes ..), keeps (binary_writes ..), keeps (nullary_writes ..), keeps (unary_writes ..), keeps (binary_writes ..), keeps (ternary_writes ..), keeps (nullary_writes ..), keeps (unary_writes ..), keeps (binary_writes ..), keeps (nullary_writes ..), keeps (unary_writes ..), keeps (binary_writes ..), keeps (ternary_writes ..), keeps (unary_writes ..), keeps (unary_writes ..), keeps (binary_writes ..), keeps (ternary_writes ..), keeps (reshape_writes ..), keeps (reshape_writes ..), keeps (nullary_writes ..)⟩

theorem opsT9_sub : (opsT9 : List (HloOp τ sig (Elt F))).Forall fun op => op.bufs ⊆ tcRefs τ sig :=
  ⟨unary_bufs_sub .., unary_bufs_sub .., ternary_bufs_sub ..⟩
theorem opsT9_fresh : (opsT9 : List (HloOp τ sig (Elt F))).Forall fun op => op.fresh = ∅ :=
  ⟨rfl, rfl, rfl⟩
theorem opsT9_keeps : (opsT9 : List (HloOp τ sig (Elt F))).Forall Keeps :=
  ⟨keeps (unary_writes ..), keeps (unary_writes ..), keeps (ternary_writes ..)⟩

/-- Every operation of the line touches TensorCore buffers only: stretch by stretch. -/
theorem ops_sub : (ops : List (HloOp τ sig (Elt F))).Forall fun op => op.bufs ⊆ tcRefs τ sig :=
  List.forall_append.mpr ⟨opsA_sub,
    List.forall_append.mpr ⟨opsRelu_sub,
    List.forall_append.mpr ⟨opsB_sub,
    List.forall_append.mpr ⟨opsT0_sub,
    List.forall_append.mpr ⟨opsT1_sub,
    List.forall_append.mpr ⟨opsT2_sub,
    List.forall_append.mpr ⟨opsT3_sub,
    List.forall_append.mpr ⟨opsT4_sub,
    List.forall_append.mpr ⟨opsT5_sub,
    List.forall_append.mpr ⟨opsT6_sub,
    List.forall_append.mpr ⟨opsT7_sub,
    List.forall_append.mpr ⟨opsT8_sub, opsT9_sub⟩⟩⟩⟩⟩⟩⟩⟩⟩⟩⟩⟩

/-- Every operation of the line determines what it writes. -/
theorem ops_fresh : (ops : List (HloOp τ sig (Elt F))).Forall fun op => op.fresh = ∅ :=
  List.forall_append.mpr ⟨opsA_fresh,
    List.forall_append.mpr ⟨opsRelu_fresh,
    List.forall_append.mpr ⟨opsB_fresh,
    List.forall_append.mpr ⟨opsT0_fresh,
    List.forall_append.mpr ⟨opsT1_fresh,
    List.forall_append.mpr ⟨opsT2_fresh,
    List.forall_append.mpr ⟨opsT3_fresh,
    List.forall_append.mpr ⟨opsT4_fresh,
    List.forall_append.mpr ⟨opsT5_fresh,
    List.forall_append.mpr ⟨opsT6_fresh,
    List.forall_append.mpr ⟨opsT7_fresh,
    List.forall_append.mpr ⟨opsT8_fresh, opsT9_fresh⟩⟩⟩⟩⟩⟩⟩⟩⟩⟩⟩⟩

/-- No operation of the line writes an argument buffer. -/
theorem ops_keeps : (ops : List (HloOp τ sig (Elt F))).Forall Keeps :=
  List.forall_append.mpr ⟨opsA_keeps,
    List.forall_append.mpr ⟨opsRelu_keeps,
    List.forall_append.mpr ⟨opsB_keeps,
    List.forall_append.mpr ⟨opsT0_keeps,
    List.forall_append.mpr ⟨opsT1_keeps,
    List.forall_append.mpr ⟨opsT2_keeps,
    List.forall_append.mpr ⟨opsT3_keeps,
    List.forall_append.mpr ⟨opsT4_keeps,
    List.forall_append.mpr ⟨opsT5_keeps,
    List.forall_append.mpr ⟨opsT6_keeps,
    List.forall_append.mpr ⟨opsT7_keeps,
    List.forall_append.mpr ⟨opsT8_keeps, opsT9_keeps⟩⟩⟩⟩⟩⟩⟩⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

/-! ## The run -/

/-- On every device, for any float values, from any memory with zero counters: every weakly fair execution of @main
    terminates, and every final state has each TensorCore buffer at the fold of the 87 operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (launchContents m c) (Proc.devRef .tc b) :=
  run_seq scopedRefs_eq scopedSems_eq defs main (fun _ => ops) main_eq (fun _ => ops_sub) m ρ
    (fun _ => List.forall_iff_forall_mem.mp ops_fresh)

/-- An argument buffer holds after the line what it held before it: no operation writes it. -/
theorem after_arg (V : Valuation τ sig (Elt F)) (r : Ref sig .tc) (hr : r ∈ args := by decide) :
    StableHlo.after ops V (Proc.devRef .tc r) = V (Proc.devRef .tc r) :=
  after_of_forall_not_mem ops V fun op hop => List.forall_iff_forall_mem.mp ops_keeps op hop r hr

/-- The run leaves the nine argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨(h c main_arg0).trans (after_arg _ main_arg0), (h c main_arg1).trans (after_arg _ main_arg1),
        (h c main_arg2).trans (after_arg _ main_arg2), (h c main_arg3).trans (after_arg _ main_arg3),
        (h c main_arg4).trans (after_arg _ main_arg4), (h c main_arg5).trans (after_arg _ main_arg5),
        (h c main_arg6).trans (after_arg _ main_arg6), (h c main_arg7).trans (after_arg _ main_arg7),
        (h c main_arg8).trans (after_arg _ main_arg8)⟩)
    (run_after m ρ)

end Cert.ReferenceIdeal.HandRun

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.RefScores.lean ====
/-
  THE REFERENCE'S SCORES AT AN INDEX.

  The reference computes, for node n and move q, the second layer over the rectified first layer, where the first
  layer is ONE product of the 256 concatenated features [x[n,:], G[batch[n],:]] with W1. Read at (n, q), under the
  hypothesis that the node's graph word is the number g < 512:

  * the start word is non-negative as a signed word, so the select keeps it, and it lies in [0, 511], so the
    clamp of the row lookup is the identity: the looked-up row is row g of G;
  * a product with one contracted axis is the plain sum over that axis;
  * the sum over the 256 concatenated features is the sum over the first 128 (the node's own features against rows
    k of W1) plus the sum over the last 128 (the graph's features against rows 128 + k of W1): only commutativity and
    associativity of addition are used, so nothing is assumed finite;
  * the biases are vectors repeated down the rows, and the rectifier is the maximum with 0.
-/
import proofs.«423639_j43971875176948_1_alg».proof.Proof.Gen.ReferenceIdeal
import proofs.«423639_j43971875176948_1_alg».proof.Proof.Spec
import proofs.«423639_j43971875176948_1_alg».proof.Proof.LibRowGatherScatter
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws
import Mathlib.Algebra.BigOperators.Fin

noncomputable section

open scoped BigOperators

namespace Cert.ReferenceIdeal.RefScores

open Cert.ReferenceIdeal Cert.ReferenceIdeal.Gen Cert.ReferenceIdeal.Hand Idealize.ShloMosaic Idealize.ShloMosaic.ValueIdx

/-- The scores buffer as one term over the argument arrays: the host operations applied innermost first. -/
def refScores (a0 : FVec Ideal S500000x128 .f32) (a1 : FVec Ideal S512x128 .f32) (a2 : FVec Ideal S256x128 .f32)
    (a3 : FVec Ideal S128 .f32) (a4 : FVec Ideal S128x24 .f32) (a5 : FVec Ideal S24 .f32) (a7 : IVec S500000 32) :
    FVec Ideal S500000x24 .f32 :=
  addf (Host.dotGeneral dot_S500000x128_S128x24_S500000x24_1_0_0_1_n_n none (maximumf (addf (Host.dotGeneral dot_S500000x256_S256x128_S500000x128_1_0_0_1_n_n none (concatenate S500000x256 1 [⟨S500000x128, a0⟩, ⟨S500000x128, Host.gather gather_S512x128_S500000x1_S500000x128_1_0_n_n_0_1_1128 a1 (broadcastInDim S500000x1 ![0] bcast_S500000_S500000x1_0 (select (cmpi .slt a7 (broadcastInDim S500000 ![] bcast_S_S500000 (constantI S_ 32 0#32))) (addi a7 (broadcastInDim S500000 ![] bcast_S_S500000 (constantI S_ 32 512#32))) a7))⟩] concatenates_S500000x128_S500000x128_S500000x256_d1) a2) (broadcastInDim S500000x128 ![0, 1] bcast_S1x128_S500000x128_0_1 (broadcastInDim S1x128 ![1] bcast_S128_S1x128_1 a3))) (broadcastInDim S500000x128 ![] bcast_S_S500000x128 (constant (F := Ideal) S_ .f32 0x00000000#32))) a4) (broadcastInDim S500000x24 ![0, 1] bcast_S1x24_S500000x24_0_1 (broadcastInDim S1x24 ![1] bcast_S24_S1x24_1 a5))

/-! ## The start word -/

/-- A graph number below 512, as a 32-bit word read signed, is itself. -/
theorem toInt_graph (g : Fin 512) : (BitVec.ofNat 32 g.val).toInt = (g.val : ℤ) := by
  have hg := g.isLt
  rw [BitVec.toInt_eq_toNat_cond, BitVec.toNat_ofNat]
  have hm : g.val % 2 ^ 32 = g.val := Nat.mod_eq_of_lt (by omega)
  rw [hm, if_pos (by omega)]

/-- The column of start words at node n: the word is non-negative, so the select keeps it. -/
theorem start_apply (a7 : IVec S500000 32) (n : Fin 500000) (g : Fin 512) (z : Fin 1)
    (hg : a7 (ix1 n) = BitVec.ofNat 32 g.val) :
    broadcastInDim S500000x1 ![0] bcast_S500000_S500000x1_0
      (select (cmpi .slt a7 (broadcastInDim S500000 ![] bcast_S_S500000 (constantI S_ 32 0#32)))
        (addi a7 (broadcastInDim S500000 ![] bcast_S_S500000 (constantI S_ 32 512#32))) a7) (ix2 n z)
      = BitVec.ofNat 32 g.val := by
  rw [bcastCol_apply, select_apply]
  show Scalar.select
      (IntOp.cmpi .slt (a7 (ix1 n)) (broadcastInDim S500000 ![] bcast_S_S500000 (constantI S_ 32 0#32) (ix1 n)))
      (IntOp.addi (a7 (ix1 n)) (broadcastInDim S500000 ![] bcast_S_S500000 (constantI S_ 32 512#32) (ix1 n)))
      (a7 (ix1 n)) = _
  rw [bcastScalar_apply, bcastScalar_apply]
  show Scalar.select (IntOp.cmpi .slt (a7 (ix1 n)) 0#32) (IntOp.addi (a7 (ix1 n)) 512#32) (a7 (ix1 n)) = _
  rw [wrap_select, hg, if_neg]
  rw [toInt_graph]
  omega

/-! ## The row lookup -/

/-- The row lookup at (n, k) when the start word of n is the graph number g: the clamp into [0, 511] is the
    identity, so the entry is G at (g, k). -/
theorem gather_apply (a1 : FVec Ideal S512x128 .f32) (idx : IVec S500000x1 32) (n : Fin 500000) (k : Fin 128)
    (g : Fin 512) (hs : idx (ix2 n 0) = BitVec.ofNat 32 g.val) :
    Host.gather gather_S512x128_S500000x1_S500000x128_1_0_n_n_0_1_1128 a1 idx (ix2 n k) = a1 (ix2 g k) := by
  have e : gather_S512x128_S500000x1_S500000x128_1_0_n_n_0_1_1128
      = rowGather 512 500000 128 gather_S512x128_S500000x1_S500000x128_1_0_n_n_0_1_1128_wf := rfl
  rw [e, rowGather_apply_of_eq (by decide) _ a1 idx n k _ hs]
  refine congrArg (fun r : Fin 512 => a1 (ix2 r k)) (Fin.ext ?_)
  show min (BitVec.ofNat 32 g.val).toInt.toNat (512 - 1) = g.val
  rw [toInt_graph]
  have := g.isLt
  omega

/-! ## The concatenated features -/

/-- Feature k of the first half of the concatenation is feature k of the first piece. -/
theorem cat_lo (x y : FVec Ideal S500000x128 .f32) (n : Fin 500000) (k : Fin 128) :
    concatenate S500000x256 1 [⟨S500000x128, x⟩, ⟨S500000x128, y⟩]
      concatenates_S500000x128_S500000x128_S500000x256_d1 (ix2 n (Cert.Spec.lo k)) = x (ix2 n k) := by
  refine concatenate_pair_apply_left (t := S500000x256) 1 x y _ _ rfl (ix2 n k) fun b => ?_
  match b with
  | ⟨0, _⟩ => rfl
  | ⟨1, _⟩ => rfl

/-- Feature 128 + k of the concatenation is feature k of the second piece. -/
theorem cat_hi (x y : FVec Ideal S500000x128 .f32) (n : Fin 500000) (k : Fin 128) :
    concatenate S500000x256 1 [⟨S500000x128, x⟩, ⟨S500000x128, y⟩]
      concatenates_S500000x128_S500000x128_S500000x256_d1 (ix2 n (Cert.Spec.hi k)) = y (ix2 n k) := by
  refine concatenate_pair_apply_right (t := S500000x256) 1 x y _ _ rfl rfl (ix2 n k) (fun b hb => ?_) ?_
  · match b, hb with
    | ⟨0, _⟩, _ => rfl
    | ⟨1, _⟩, hb => exact absurd rfl hb
  · show k.val + 128 = 128 + k.val
    omega

/-! ## The two products -/

/-- The first layer's product at (n, h): the sum over the 256 concatenated features. -/
theorem dot1_apply (A : FVec Ideal S500000x256 .f32) (B : FVec Ideal S256x128 .f32) (n : Fin 500000) (h : Fin 128) :
    Host.dotGeneral dot_S500000x256_S256x128_S500000x128_1_0_0_1_n_n none A B (ix2 n h)
      = ∑ c : Fin 256, A (ix2 n c) * B (ix2 c h) := by
  have e : dot_S500000x256_S256x128_S500000x128_1_0_0_1_n_n = DotDims.plain 500000 256 128 := rfl
  rw [e]
  exact StackMember.dotGeneral_plain_apply none A B n h

/-- The second layer's product at (n, q): the sum over the 128 hidden units. -/
theorem dot2_apply (A : FVec Ideal S500000x128 .f32) (B : FVec Ideal S128x24 .f32) (n : Fin 500000) (q : Fin 24) :
    Host.dotGeneral dot_S500000x128_S128x24_S500000x24_1_0_0_1_n_n none A B (ix2 n q)
      = ∑ h : Fin 128, A (ix2 n h) * B (ix2 h q) := by
  have e : dot_S500000x128_S128x24_S500000x24_1_0_0_1_n_n = DotDims.plain 500000 128 24 := rfl
  rw [e]
  exact StackMember.dotGeneral_plain_apply none A B n q

/-- A sum over 256 = 128 + 128 features is the sum over the first 128 plus the sum over the last 128. -/
theorem sum_split (f : Fin 256 → EReal) :
    ∑ c : Fin 256, f c = (∑ k : Fin 128, f (Cert.Spec.lo k)) + ∑ k : Fin 128, f (Cert.Spec.hi k) :=
  Fin.sum_univ_add (a := 128) (b := 128) f

/-! ## The biases -/

/-- The first bias, a vector laid as a row and repeated down the rows, at (n, h). -/
theorem bias1_apply (a3 : FVec Ideal S128 .f32) (n : Fin 500000) (h : Fin 128) :
    broadcastInDim S500000x128 ![0, 1] bcast_S1x128_S500000x128_0_1
      (broadcastInDim S1x128 ![1] bcast_S128_S1x128_1 a3) (ix2 n h) = a3 (ix1 h) := by
  rw [bcastRows_apply, bcastRow_apply]

/-- The second bias at (n, q). -/
theorem bias2_apply (a5 : FVec Ideal S24 .f32) (n : Fin 500000) (q : Fin 24) :
    broadcastInDim S500000x24 ![0, 1] bcast_S1x24_S500000x24_0_1
      (broadcastInDim S1x24 ![1] bcast_S24_S1x24_1 a5) (ix2 n q) = a5 (ix1 q) := by
  rw [bcastRows_apply, bcastRow_apply]

/-! ## The scores -/

/-- THE REFERENCE'S SCORE OF MOVE q FOR NODE n, when the node's graph word is the number g: the specification's
    score of (g, n, q). -/
theorem refScores_apply (a0 : FVec Ideal S500000x128 .f32) (a1 : FVec Ideal S512x128 .f32)
    (a2 : FVec Ideal S256x128 .f32) (a3 : FVec Ideal S128 .f32) (a4 : FVec Ideal S128x24 .f32)
    (a5 : FVec Ideal S24 .f32) (a7 : IVec S500000 32) (n : Fin 500000) (q : Fin 24) (g : Fin 512)
    (hg : a7 (ix1 n) = BitVec.ofNat 32 g.val) :
    refScores a0 a1 a2 a3 a4 a5 a7 (ix2 n q) = Cert.Spec.score a0 a1 a2 a3 a4 a5 g n q := by
  unfold refScores Cert.Spec.score
  rw [addf_apply, dot2_apply, bias2_apply]
  congr 1
  refine Finset.sum_congr rfl fun h _ => ?_
  congr 1
  unfold Cert.Spec.hidden
  rw [reluOps_apply, addf_apply, dot1_apply, bias1_apply, sum_split]
  congr 3
  · refine Finset.sum_congr rfl fun k _ => ?_
    rw [cat_lo]
  · refine Finset.sum_congr rfl fun k _ => ?_
    rw [cat_hi, gather_apply a1 _ n k g (start_apply a7 n g 0 hg)]

end Cert.ReferenceIdeal.RefScores

end
-- ==== Proof.RRun.lean ====
/-
  The reference program's run, read: its result buffer is the logits table of its scores, and its nine arguments end as
  launched.

  The reference computes its scores in its first 21 host lines (the graph's row read at the graph word, the node's and the
  graph's features side by side, one product with `W1`, the bias, the positive part, the product with `W2`, the bias) and
  then applies, line for line, the host lines the kernel program applies to its scores. Read in the same four stages they
  leave the same table function of the scores, the cube mask, the graph words and the move mask.
-/
import proofs.«423639_j43971875176948_1_alg».proof.Proof.RefRun
import proofs.«423639_j43971875176948_1_alg».proof.Proof.RefScores
import proofs.«423639_j43971875176948_1_alg».proof.Proof.TailPieces

set_option maxRecDepth 16384

noncomputable section

namespace Cert.ReferenceIdeal.Result

open Cert.ReferenceIdeal Cert.ReferenceIdeal.Gen Cert.ReferenceIdeal.HandRun Cert.ReferenceIdeal.RefScores
open Idealize.ShloMosaic Idealize.ShloMosaic.TcCoe Idealize.SL.Sem Idealize.ShloMosaic.StableHlo

abbrev sS0 : List (HloOp τ sig (Elt Ideal)) := opsA
abbrev sS1 : List (HloOp τ sig (Elt Ideal)) := opsRelu
abbrev sS2 : List (HloOp τ sig (Elt Ideal)) := opsB
abbrev t0 : List (HloOp τ sig (Elt Ideal)) := opsT0
abbrev t1 : List (HloOp τ sig (Elt Ideal)) := opsT1
abbrev t2 : List (HloOp τ sig (Elt Ideal)) := opsT2
abbrev t3 : List (HloOp τ sig (Elt Ideal)) := opsT3
abbrev t4 : List (HloOp τ sig (Elt Ideal)) := opsT4
abbrev t5 : List (HloOp τ sig (Elt Ideal)) := opsT5
abbrev t6 : List (HloOp τ sig (Elt Ideal)) := opsT6
abbrev t7 : List (HloOp τ sig (Elt Ideal)) := opsT7
abbrev t8 : List (HloOp τ sig (Elt Ideal)) := opsT8
abbrev t9 : List (HloOp τ sig (Elt Ideal)) := opsT9

/-- The scores stage: the 21 lines up to the scores. -/
abbrev stS (W : Valuation τ sig (Elt Ideal)) : Valuation τ sig (Elt Ideal) := after sS2 (after sS1 (after sS0 W))
/-- The counts. -/
abbrev stA (W : Valuation τ sig (Elt Ideal)) : Valuation τ sig (Elt Ideal) := after t3 (after t2 (after t1 (after t0 W)))
/-- The two scatter coordinates. -/
abbrev stB (X : Valuation τ sig (Elt Ideal)) : Valuation τ sig (Elt Ideal) := after t7 (after t6 (after t5 X))
/-- The table. -/
abbrev stC (X : Valuation τ sig (Elt Ideal)) : Valuation τ sig (Elt Ideal) := after t9 (after t8 X)

section StageS
variable (W : Valuation τ sig (Elt Ideal))

/-- The graph rows read at the graph words (a negative word counting from the end). -/
def rowsAt (a1 : FVec Ideal S512x128 .f32) (a7 : IVec S500000 32) : FVec Ideal S500000x128 .f32 :=
  Host.gather gather_S512x128_S500000x1_S500000x128_1_0_n_n_0_1_1128 a1
    (broadcastInDim S500000x1 ![0] bcast_S500000_S500000x1_0
      (select (cmpi .slt a7 (broadcastInDim S500000 ![] bcast_S_S500000 (constantI S_ 32 0#32)))
        (addi a7 (broadcastInDim S500000 ![] bcast_S_S500000 (constantI S_ 32 512#32))) a7))

/-- The first nine lines: up to the gathered rows. -/
abbrev sSa : List (HloOp τ sig (Elt Ideal)) := List.take 9 opsA
/-- The other five lines of the first stretch. -/
abbrev sSb : List (HloOp τ sig (Elt Ideal)) := List.drop 9 opsA

theorem s_pre_v6 : after sSa W (Proc.devRef .tc main_v6) = rowsAt (W (Proc.devRef .tc main_arg1)) (W (Proc.devRef .tc main_arg7)) := by
  simp only [sSa, opsA, List.take_succ_cons, List.take_zero]
  after_results_simp
  rfl

theorem s_pre_keep (r : Ref sig .tc)
    (hr : r = main_arg0 ∨ r = main_arg2 ∨ r = main_arg3 ∨ r = main_arg4 ∨ r = main_arg5) :
    after sSa W (Proc.devRef .tc r) = W (Proc.devRef .tc r) := by
  simp only [sSa, opsA, List.take_succ_cons, List.take_zero]
  rcases hr with rfl | rfl | rfl | rfl | rfl <;> after_results_simp

/-- The other five lines of the first stretch, from any buffer contents `Y`: the first layer before the positive part. -/
theorem s_b_v11 (Y : Valuation τ sig (Elt Ideal)) : (after sSb Y (Proc.devRef .tc main_v11) : FVec Ideal S500000x128 .f32)
    = addf (F := Ideal) (Host.dotGeneral (F := Ideal) (φ₁ := .f32) (φ₂ := .f32) dot_S500000x256_S256x128_S500000x128_1_0_0_1_n_n none
          (concatenate S500000x256 1 [⟨S500000x128, (Y (Proc.devRef .tc main_arg0) : FVec Ideal S500000x128 .f32)⟩,
              ⟨S500000x128, (Y (Proc.devRef .tc main_v6) : FVec Ideal S500000x128 .f32)⟩] concatenates_S500000x128_S500000x128_S500000x256_d1)
          (Y (Proc.devRef .tc main_arg2) : FVec Ideal S256x128 .f32))
        (broadcastInDim S500000x128 ![0, 1] bcast_S1x128_S500000x128_0_1
          (broadcastInDim S1x128 ![1] bcast_S128_S1x128_1 (Y (Proc.devRef .tc main_arg3) : FVec Ideal S128 .f32))) := by
  simp only [sSb, opsA, List.drop_succ_cons, List.drop_zero]
  after_results_simp

theorem s_b_keep (Y : Valuation τ sig (Elt Ideal)) (r : Ref sig .tc) (hr : r = main_arg4 ∨ r = main_arg5) :
    after sSb Y (Proc.devRef .tc r) = Y (Proc.devRef .tc r) := by
  simp only [sSb, opsA, List.drop_succ_cons, List.drop_zero]
  rcases hr with rfl | rfl <;> after_results_simp

/-- The positive part, from any buffer contents `Z`. -/
theorem s_relu_v12 (Z : Valuation τ sig (Elt Ideal)) : (after sS1 Z (Proc.devRef .tc main_v12) : FVec Ideal S500000x128 .f32)
    = maximumf (F := Ideal) (Z (Proc.devRef .tc main_v11) : FVec Ideal S500000x128 .f32)
        (broadcastInDim S500000x128 ![] bcast_S_S500000x128 (constant (F := Ideal) S_ .f32 0x00000000#32)) := by
  simp only [sS1, opsRelu]
  after_results_simp
  rfl

theorem s_relu_keep (Z : Valuation τ sig (Elt Ideal)) (r : Ref sig .tc) (hr : r = main_arg4 ∨ r = main_arg5) :
    after sS1 Z (Proc.devRef .tc r) = Z (Proc.devRef .tc r) := by
  simp only [sS1, opsRelu]
  rcases hr with rfl | rfl <;> after_results_simp

/-- The second layer, from any buffer contents `Z`. -/
theorem s_c_v16 (Z : Valuation τ sig (Elt Ideal)) : (after sS2 Z (Proc.devRef .tc main_v16) : FVec Ideal S500000x24 .f32)
    = addf (F := Ideal) (Host.dotGeneral (F := Ideal) (φ₁ := .f32) (φ₂ := .f32) dot_S500000x128_S128x24_S500000x24_1_0_0_1_n_n none
          (Z (Proc.devRef .tc main_v12) : FVec Ideal S500000x128 .f32) (Z (Proc.devRef .tc main_arg4) : FVec Ideal S128x24 .f32))
        (broadcastInDim S500000x24 ![0, 1] bcast_S1x24_S500000x24_0_1
          (broadcastInDim S1x24 ![1] bcast_S24_S1x24_1 (Z (Proc.devRef .tc main_arg5) : FVec Ideal S24 .f32))) := by
  simp only [sS2, opsB]
  after_results_simp

theorem s_v16 : stS W (Proc.devRef .tc main_v16)
    = refScores (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)) := by
  show after sS2 (after sS1 (after sS0 W)) _ = _
  have hs : (sS0 : List (HloOp τ sig (Elt Ideal))) = sSa ++ sSb := (List.take_append_drop 9 _).symm
  rw [hs, StableHlo.after_append, s_c_v16, s_relu_v12, s_relu_keep _ main_arg4 (Or.inl rfl), s_relu_keep _ main_arg5 (Or.inr rfl),
    s_b_v11, s_b_keep _ main_arg4 (Or.inl rfl), s_b_keep _ main_arg5 (Or.inr rfl),
    s_pre_v6, s_pre_keep _ main_arg0 (Or.inl rfl), s_pre_keep _ main_arg2 (Or.inr (Or.inl rfl)),
    s_pre_keep _ main_arg3 (Or.inr (Or.inr (Or.inl rfl))), s_pre_keep _ main_arg4 (Or.inr (Or.inr (Or.inr (Or.inl rfl)))),
    s_pre_keep _ main_arg5 (Or.inr (Or.inr (Or.inr (Or.inr rfl))))]
  rfl

theorem s_keep (r : Ref sig .tc) (hr : r = main_arg6 ∨ r = main_arg7 ∨ r = main_arg8) :
    stS W (Proc.devRef .tc r) = W (Proc.devRef .tc r) := by
  show after sS2 (after sS1 (after sS0 W)) _ = _
  rw [← StableHlo.after_append, ← StableHlo.after_append]
  simp only [sS0, sS1, sS2, opsA, opsRelu, opsB, List.cons_append, List.nil_append]
  rcases hr with rfl | rfl | rfl <;> after_results_simp

end StageS

section StageA
variable (W : Valuation τ sig (Elt Ideal))

theorem a_v18 : stA W (Proc.devRef .tc main_v18) = Cert.KernelIdeal.Tail.cum (W (Proc.devRef .tc main_arg6)) := by
  show after t3 (after t2 (after t1 (after t0 W))) _ = _
  rw [← StableHlo.after_append, ← StableHlo.after_append, ← StableHlo.after_append]
  simp only [t0, t1, t2, t3, opsT0, opsT1, opsT2, opsT3, List.cons_append, List.nil_append]
  after_results_simp
  unfold Cert.KernelIdeal.Tail.cum Cert.KernelIdeal.Tail.maskW
  (simp only [TRef.toBuf, TRef.ofBuf, cast_eq]) <;> rfl

theorem a_v23 : stA W (Proc.devRef .tc main_v23) = Cert.KernelIdeal.Tail.ccum (W (Proc.devRef .tc main_arg6)) (W (Proc.devRef .tc main_arg7)) := by
  show after t3 (after t2 (after t1 (after t0 W))) _ = _
  rw [← StableHlo.after_append, ← StableHlo.after_append, ← StableHlo.after_append]
  simp only [t0, t1, t2, t3, opsT0, opsT1, opsT2, opsT3, List.cons_append, List.nil_append]
  after_results_simp
  unfold Cert.KernelIdeal.Tail.ccum Cert.KernelIdeal.Tail.counts Cert.KernelIdeal.Tail.maskW
  (simp only [TRef.toBuf, TRef.ofBuf, cast_eq]) <;> rfl

theorem a_v22 : stA W (Proc.devRef .tc main_v22) = Cert.KernelIdeal.Tail.first0 := by
  show after t3 (after t2 (after t1 (after t0 W))) _ = _
  rw [← StableHlo.after_append, ← StableHlo.after_append, ← StableHlo.after_append]
  simp only [t0, t1, t2, t3, opsT0, opsT1, opsT2, opsT3, List.cons_append, List.nil_append]
  after_results_simp
  rfl

theorem a_keep (r : Ref sig .tc) (hr : r = main_arg6 ∨ r = main_arg7 ∨ r = main_arg8 ∨ r = main_v16) :
    stA W (Proc.devRef .tc r) = W (Proc.devRef .tc r) := by
  show after t3 (after t2 (after t1 (after t0 W))) _ = _
  rw [← StableHlo.after_append, ← StableHlo.after_append, ← StableHlo.after_append]
  simp only [t0, t1, t2, t3, opsT0, opsT1, opsT2, opsT3, List.cons_append, List.nil_append]
  rcases hr with rfl | rfl | rfl | rfl <;> after_results_simp

end StageA

section StageA2
variable (X : Valuation τ sig (Elt Ideal))

theorem a2_v35 : after t4 X (Proc.devRef .tc main_v35)
    = Cert.KernelIdeal.Tail.cubeIdxOf (X (Proc.devRef .tc main_v18)) (X (Proc.devRef .tc main_v23)) (X (Proc.devRef .tc main_v22)) (X (Proc.devRef .tc main_arg7)) := by
  simp only [t4, opsT4]
  after_results_simp
  rfl

theorem a2_v38 : after t4 X (Proc.devRef .tc main_v38)
    = Cert.KernelIdeal.Tail.validOf (X (Proc.devRef .tc main_arg6)) (Cert.KernelIdeal.Tail.cubeIdxOf (X (Proc.devRef .tc main_v18)) (X (Proc.devRef .tc main_v23)) (X (Proc.devRef .tc main_v22)) (X (Proc.devRef .tc main_arg7))) := by
  simp only [t4, opsT4]
  after_results_simp
  rfl

theorem a2_c7 : after t4 X (Proc.devRef .tc main_c_7) = constantI Cert.KernelIdeal.S_ 32 512#32 := by
  simp only [t4, opsT4]
  after_results_simp
  try rfl

theorem a2_keep (r : Ref sig .tc) (hr : r = main_arg7 ∨ r = main_arg8 ∨ r = main_v16) :
    after t4 X (Proc.devRef .tc r) = X (Proc.devRef .tc r) := by
  simp only [t4, opsT4]
  rcases hr with rfl | rfl | rfl <;> after_results_simp

end StageA2

section StageB
variable (X : Valuation τ sig (Elt Ideal))

theorem b_v39 : stB X (Proc.devRef .tc main_v39) = Cert.KernelIdeal.Tail.rowOf (X (Proc.devRef .tc main_v38)) (X (Proc.devRef .tc main_arg7)) (X (Proc.devRef .tc main_c_7)) := by
  show after t7 (after t6 (after t5 X)) _ = _
  rw [← StableHlo.after_append, ← StableHlo.after_append]
  simp only [t5, t6, t7, opsT5, opsT6, opsT7, List.cons_append, List.nil_append]
  after_results_simp
  unfold Cert.KernelIdeal.Tail.rowOf
  (simp only [TRef.toBuf, TRef.ofBuf, cast_eq]) <;> rfl

theorem b_v40 : stB X (Proc.devRef .tc main_v40) = Cert.KernelIdeal.Tail.colOf (X (Proc.devRef .tc main_v38)) (X (Proc.devRef .tc main_v35)) := by
  show after t7 (after t6 (after t5 X)) _ = _
  rw [← StableHlo.after_append, ← StableHlo.after_append]
  simp only [t5, t6, t7, opsT5, opsT6, opsT7, List.cons_append, List.nil_append]
  after_results_simp
  unfold Cert.KernelIdeal.Tail.colOf
  (simp only [TRef.toBuf, TRef.ofBuf, cast_eq]) <;> rfl

theorem b_keep (r : Ref sig .tc) (hr : r = main_arg8 ∨ r = main_v16) : stB X (Proc.devRef .tc r) = X (Proc.devRef .tc r) := by
  show after t7 (after t6 (after t5 X)) _ = _
  rw [← StableHlo.after_append, ← StableHlo.after_append]
  simp only [t5, t6, t7, opsT5, opsT6, opsT7, List.cons_append, List.nil_append]
  rcases hr with rfl | rfl <;> after_results_simp

end StageB

section StageC
variable (X : Valuation τ sig (Elt Ideal))

abbrev t8a : List (HloOp τ sig (Elt Ideal)) := List.take 18 opsT8
abbrev t8b : List (HloOp τ sig (Elt Ideal)) := List.drop 18 opsT8

theorem c8_v52 : after t8a X (Proc.devRef .tc main_v52) = Cert.KernelIdeal.Tail.colWrap (X (Proc.devRef .tc main_v39)) 512#32 := by
  simp only [t8a, opsT8, List.take_succ_cons, List.take_zero]
  after_results_simp
  rfl

theorem c8_v53 : after t8a X (Proc.devRef .tc main_v53) = Cert.KernelIdeal.Tail.colWrap (X (Proc.devRef .tc main_v40)) 64#32 := by
  simp only [t8a, opsT8, List.take_succ_cons, List.take_zero]
  after_results_simp
  rfl

theorem c8_v41 : after t8a X (Proc.devRef .tc main_v41)
    = broadcastInDim Cert.KernelIdeal.S512x64x24 ![] Cert.KernelIdeal.Gen.bcast_S_S512x64x24 (constant (F := Ideal) Cert.KernelIdeal.S_ .f32 0xCE6E6B28#32) := by
  simp only [t8a, opsT8, List.take_succ_cons, List.take_zero]
  after_results_simp
  try rfl

theorem c8_keep (r : Ref sig .tc) (hr : r = main_arg8 ∨ r = main_v16) : after t8a X (Proc.devRef .tc r) = X (Proc.devRef .tc r) := by
  simp only [t8a, opsT8, List.take_succ_cons, List.take_zero]
  rcases hr with rfl | rfl <;> after_results_simp

theorem c8b_v56 (Y : Valuation τ sig (Elt Ideal)) : after t8b Y (Proc.devRef .tc main_v56)
    = shapeCast Cert.KernelIdeal.S512x1536
        (Host.scatter Cert.KernelIdeal.scatter_S512x64x24_S500000x2_S500000x24_1_01_01_1 (fun _ b => b) (Y (Proc.devRef .tc main_v41))
          (concatenate Cert.KernelIdeal.S500000x2 1 [⟨Cert.KernelIdeal.S500000x1, Y (Proc.devRef .tc main_v52)⟩, ⟨Cert.KernelIdeal.S500000x1, Y (Proc.devRef .tc main_v53)⟩]
            Cert.KernelIdeal.Gen.concatenates_S500000x1_S500000x1_S500000x2_d1)
          (Y (Proc.devRef .tc main_v16)))
        Cert.KernelIdeal.Gen.shapeCasts_S512x64x24_S512x1536 := by
  simp only [t8b, opsT8, List.drop_succ_cons, List.drop_zero]
  after_results_simp
  rfl

theorem c8b_v57 (Y : Valuation τ sig (Elt Ideal)) : after t8b Y (Proc.devRef .tc main_v57)
    = shapeCast Cert.KernelIdeal.S512x1536 (Y (Proc.devRef .tc main_arg8)) Cert.KernelIdeal.Gen.shapeCasts_S512x64x24_S512x1536 := by
  simp only [t8b, opsT8, List.drop_succ_cons, List.drop_zero]
  after_results_simp
  rfl

theorem c8b_cst (Y : Valuation τ sig (Elt Ideal)) : after t8b Y (Proc.devRef .tc main_cst_13) = constant (F := Ideal) Cert.KernelIdeal.S_ .f32 0xCE6E6B28#32 := by
  simp only [t8b, opsT8, List.drop_succ_cons, List.drop_zero]
  after_results_simp
  try rfl

theorem c9_v58 (Z : Valuation τ sig (Elt Ideal)) : after t9 Z (Proc.devRef .tc main_v58)
    = select (Z (Proc.devRef .tc main_v57)) (Z (Proc.devRef .tc main_v56))
        (broadcastInDim Cert.KernelIdeal.S512x1536 ![] Cert.KernelIdeal.Gen.bcast_S_S512x1536 (id (Z (Proc.devRef .tc main_cst_13)))) := by
  simp only [t9, opsT9]
  after_results_simp
  rfl

theorem c_v58 : stC X (Proc.devRef .tc main_v58)
    = Cert.KernelIdeal.Tail.tableOf (X (Proc.devRef .tc main_v16)) (X (Proc.devRef .tc main_v39)) (X (Proc.devRef .tc main_v40)) (X (Proc.devRef .tc main_arg8)) := by
  show after t9 (after t8 X) _ = _
  have hs : (t8 : List (HloOp τ sig (Elt Ideal))) = t8a ++ t8b := (List.take_append_drop 18 _).symm
  rw [hs, StableHlo.after_append, c9_v58, c8b_v56, c8b_v57, c8b_cst, c8_v52, c8_v53, c8_v41,
    c8_keep _ main_v16 (Or.inr rfl), c8_keep _ main_arg8 (Or.inl rfl)]
  rfl

end StageC

/-- The reference's 87 host lines, run from ANY buffer contents `W`, leave in the result buffer the logits table of the
    reference's scores of what `W` holds in the arguments. -/
theorem ref_read (W : Valuation τ sig (Elt Ideal)) :
    StableHlo.after (ops (F := Ideal)) W (Proc.devRef .tc main_v58)
      = Cert.KernelIdeal.Tail.tail (refScores (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg7)))
          (W (Proc.devRef .tc main_arg6)) (W (Proc.devRef .tc main_arg7)) (W (Proc.devRef .tc main_arg8)) := by
  have hsplit : StableHlo.after (ops (F := Ideal)) W = stC (stB (after t4 (stA (stS W)))) := by
    simp only [ops, StableHlo.after_append]
  rw [hsplit, c_v58, b_v39, b_v40, b_keep _ main_arg8 (Or.inl rfl), b_keep _ main_v16 (Or.inr rfl),
    a2_v38, a2_v35, a2_c7, a2_keep _ main_arg7 (Or.inl rfl), a2_keep _ main_arg8 (Or.inr (Or.inl rfl)),
    a2_keep _ main_v16 (Or.inr (Or.inr rfl)), a_v18, a_v23, a_v22,
    a_keep _ main_arg6 (Or.inl rfl), a_keep _ main_arg7 (Or.inr (Or.inl rfl)), a_keep _ main_arg8 (Or.inr (Or.inr (Or.inl rfl))),
    a_keep _ main_v16 (Or.inr (Or.inr (Or.inr rfl))),
    s_v16, s_keep _ main_arg6 (Or.inl rfl), s_keep _ main_arg7 (Or.inr (Or.inl rfl)), s_keep _ main_arg8 (Or.inr (Or.inr rfl))]
  rfl

variable (m : (ℓ : Loc nD τ sig) → Buf (Elt Ideal) ℓ) (ρ : Dev nD → PrngReg)

/-- THE REFERENCE'S RUN, READ: every weakly fair execution ends with the result buffer at the logits table of the
    reference's scores and the arguments as launched. -/
theorem run_value :
    θ_run defs (onTc (τ := τ) (main (F := Ideal))) ⟨m, fun _ => 0, ρ⟩ fun r => ∀ c : Dev nD,
      r.2.mem ((c.tc : Thread nD τ).loc main_v58)
          = Cert.KernelIdeal.Tail.tail (refScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
      ⟨(h c main_v58).trans (ref_read _),
        (h c main_arg0).trans (after_arg _ main_arg0), (h c main_arg1).trans (after_arg _ main_arg1),
        (h c main_arg2).trans (after_arg _ main_arg2), (h c main_arg3).trans (after_arg _ main_arg3),
        (h c main_arg4).trans (after_arg _ main_arg4), (h c main_arg5).trans (after_arg _ main_arg5),
        (h c main_arg6).trans (after_arg _ main_arg6), (h c main_arg7).trans (after_arg _ main_arg7),
        (h c main_arg8).trans (after_arg _ main_arg8)⟩)
    (run_after (F := Ideal) m ρ)

end Cert.ReferenceIdeal.Result

end
-- ==== Proof.PreBatch.lean ====
/-
  The precondition read at the array of graph indices.

  The precondition is a conjunction of statements "every entry of this array satisfies ...", one per argument array.
  Its last two conjuncts speak of the array of graph indices, one 32-bit word per node: every word is at least 0 and
  every word is below 512, both comparisons signed. A word whose signed value lies in [0, 512) has its sign bit clear,
  so its signed and unsigned values agree and it is the 32-bit word of a natural number below 512. This file draws that
  conclusion for each node, first for the precondition as a function of nine arrays, then for the two memories of
  which the precondition is assumed.
-/
import proofs.«423639_j43971875176948_1_alg».proof.Defs
import proofs.«423639_j43971875176948_1_alg».proof.Proof.Gen.Pre_finite_inputs
import Idealize.ShloMosaic.Lib.ValueIdx
import Idealize.ShloMosaic.Lib.ReduceAll

noncomputable section

namespace Cert.PreBatch

open Idealize.ShloMosaic Idealize.ShloMosaic.ValueIdx Idealize.SL.Sem
open Cert.Pre_finite_inputs

/-- The scalar shape has one index. -/
instance subsingleton_scalar_idx : Subsingleton S_.Idx := ⟨fun a b => funext fun d => d.elim0⟩

/-- A 32-bit word whose signed value lies in [0, 512) is the word of a natural number below 512: a non-negative signed
    value means the unsigned value is below 2^31, where the two values agree. -/
theorem word_of_range (w : BitVec 32) (h0 : (0#32 : BitVec 32).toInt ≤ w.toInt)
    (h1 : w.toInt < (512#32 : BitVec 32).toInt) : ∃ g : Fin 512, w = BitVec.ofNat 32 g.val := by
  have e0 : (0#32 : BitVec 32).toInt = 0 := by decide
  have e1 : (512#32 : BitVec 32).toInt = 512 := by decide
  rw [e0] at h0
  rw [e1] at h1
  have hw : w.toNat < 2 ^ 32 := w.isLt
  have hlt : w.toNat < 512 := by
    rw [BitVec.toInt_eq_toNat_cond] at h0 h1
    by_cases hc : 2 * w.toNat < 2 ^ 32
    · rw [if_pos hc] at h1; omega
    · rw [if_neg hc] at h0; omega
  refine ⟨⟨w.toNat, hlt⟩, ?_⟩
  apply BitVec.eq_of_toNat_eq
  rw [BitVec.toNat_ofNat]
  exact (Nat.mod_eq_of_lt hw).symm

/-- THE PRECONDITION DECODED at node n, as a fact about the function of nine arrays: if the conjunction is true, the
    n-th graph index is the word of a natural number below 512. The conjunction's last conjunct is "every index is below
    512", the one before it "every index is at least 0"; each is a conjunction over all nodes, read at node n. -/
theorem word_of_pre [Cert.Pre_finite_inputs.Facts]
    (a0 : FVec Ideal S500000x128 .f32) (a1 : FVec Ideal S512x128 .f32) (a2 : FVec Ideal S256x128 .f32)
    (a3 : FVec Ideal S128 .f32) (a4 : FVec Ideal S128x24 .f32) (a5 : FVec Ideal S24 .f32) (a6 : IVec S500000 1)
    (a7 : IVec S500000 32) (a8 : IVec S512x64x24 1)
    (h : Cert.Pre_finite_inputs.fn (F := Ideal) a0 a1 a2 a3 a4 a5 a6 a7 a8 = (fun _ => 1#1)) (n : Fin 500000) :
    ∃ g : Fin 512, a7 (ix1 n) = BitVec.ofNat 32 g.val := by
  have e := congrFun h ix0
  dsimp only [Cert.Pre_finite_inputs.fn, Cert.Pre_finite_inputs.fn_part1, Cert.Pre_finite_inputs.fn_part2] at e
  obtain ⟨e32, e35⟩ := IntOp.andi_eq_one.1 e
  obtain ⟨-, e31⟩ := IntOp.andi_eq_one.1 e32
  have hge := Host.reduce_andi_all _ _ _ _ _ e31 (ix1 n)
  have hlt := Host.reduce_andi_all _ _ _ _ _ e35 (ix1 n)
  exact word_of_range _ (IntOp.cmpi_sge.1 hge) (IntOp.cmpi_slt.1 hlt)

/-- Every graph index in a memory of which the kernel's precondition holds is the word of a natural number below 512. -/
theorem batch_word [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 500000) :
    ∃ g : Fin 512, m ((c.tc : Thread Cert.KernelIdeal.nD Cert.KernelIdeal.τ).loc Cert.KernelIdeal.main_arg7) (ix1 n)
      = BitVec.ofNat 32 g.val :=
  word_of_pre _ _ _ _ _ _ _ _ _ (h c) n

/-- The same for a memory of which the reference's precondition holds. -/
theorem batch_word_ref [hPre_finite_inputs : Cert.Pre_finite_inputs.Facts]
    (m' : (ℓ : Loc Cert.ReferenceIdeal.nD Cert.ReferenceIdeal.τ Cert.ReferenceIdeal.sig) → Buf (Elt Ideal) ℓ)
    (h : Cert.Pre_ReferenceIdeal m') (c : Dev Cert.ReferenceIdeal.nD) (n : Fin 500000) :
    ∃ g : Fin 512, m' ((c.tc : Thread Cert.ReferenceIdeal.nD Cert.ReferenceIdeal.τ).loc Cert.ReferenceIdeal.main_arg7) (ix1 n)
      = BitVec.ofNat 32 g.val :=
  word_of_pre _ _ _ _ _ _ _ _ _ (h c) n

end Cert.PreBatch

end
-- ==== Proof.lean ====
/-
  The move head: a node's scores `relu(x @ W1[:128] + G[graph] @ W1[128:] + b1) @ W2 + b2`, scattered by (graph, cube index)
  into a table of logits, computed by a tiled kernel and by a whole-array reference.

  What differs between the two programs is how a node's graph row reaches the first layer. The kernel multiplies a
  one-hot row (graph word = column number, over the 512 columns) into the graph table and feeds the product to the lower
  half of `W1`; the reference reads the row at the graph word, sets it beside the node's own features and multiplies the
  256 features into `W1` once. Over the extended reals both are the same double sum, provided the graph word names a graph:
  a one-hot row with its one at column `g` picks row `g` (`0 * x = 0` and `1 * x = x` for every extended real), the sum over
  256 features is the sum over the first 128 plus the sum over the last 128, and the row read at a word in `0 … 511` is
  that row. Hence the precondition's `0 <= batch < 512`: outside it the reference reads a row (the last, or one counted
  from the end) where the kernel's one-hot row is empty. Everything after the scores — the counts of cube nodes, the cube
  index, the scatter and the mask — is the same text in both programs, one function of the scores and three arguments.

  The frames: the kernel program's, at the word level and idealized, from its one pallas_call's run (each grid point
  leaves its inputs' blocks in place and the block of scores in the output's buffer; the host lines after the region
  write no argument and no window's array); the reference's from its host lines' run.
-/
import proofs.«423639_j43971875176948_1_alg».proof.Defs
import proofs.«423639_j43971875176948_1_alg».proof.Proof.Gen.Kernel
import proofs.«423639_j43971875176948_1_alg».proof.Proof.Gen.KernelIdeal
import proofs.«423639_j43971875176948_1_alg».proof.Proof.Gen.ReferenceIdeal
import proofs.«423639_j43971875176948_1_alg».proof.Proof.Gen.Pre_finite_inputs
import proofs.«423639_j43971875176948_1_alg».proof.Proof.KFrameBits
import proofs.«423639_j43971875176948_1_alg».proof.Proof.KRun
import proofs.«423639_j43971875176948_1_alg».proof.Proof.RRun
import proofs.«423639_j43971875176948_1_alg».proof.Proof.PreBatch
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ => Cert.ReferenceIdeal.HandRun.frame (F := Ideal) m ρ

/-- The ideal pass rewrote nothing. -/
theorem preserves : Cert.preserves_Kernel_KernelIdeal := trivial

/-- The reference's scores are the specification's, entry by entry, when `bt` reads the graph words as graphs. -/
theorem scores_agree (a0 : FVec Ideal Cert.ReferenceIdeal.S500000x128 .f32) (a1 : FVec Ideal Cert.ReferenceIdeal.S512x128 .f32)
    (a2 : FVec Ideal Cert.ReferenceIdeal.S256x128 .f32) (a3 : FVec Ideal Cert.ReferenceIdeal.S128 .f32)
    (a4 : FVec Ideal Cert.ReferenceIdeal.S128x24 .f32) (a5 : FVec Ideal Cert.ReferenceIdeal.S24 .f32)
    (a7 : IVec Cert.ReferenceIdeal.S500000 32) (bt : Fin 500000 → Fin 512)
    (hbt : ∀ n : Fin 500000, a7 (ix1 n) = BitVec.ofNat 32 (bt n).val) :
    Cert.ReferenceIdeal.RefScores.refScores a0 a1 a2 a3 a4 a5 a7
      = fun i => Cert.Spec.score a0 a1 a2 a3 a4 a5 (bt (i 0)) (i 0) (i 1) := by
  funext i
  obtain ⟨n, q, rfl⟩ : ∃ (n : Fin 500000) (q : Fin 24), i = ix2 n q := ⟨i 0, i 1, eq_ix2 i⟩
  exact Cert.ReferenceIdeal.RefScores.refScores_apply a0 a1 a2 a3 a4 a5 a7 n q (bt n) (hbt n)

/-- From memories agreeing on the arguments both programs end with the logits table of the same scores: the kernel's
    scores array is the specification's score at every entry (the blocks the grid points write back tile it), the
    reference's scores are too, and the lines after the scores are one function of them. -/
theorem algebraic : Cert.algebraic_KernelIdeal_ReferenceIdeal := by
  intro m ρ m' ρ' hpre hagree
  choose bt hbt using fun cn : Dev Cert.KernelIdeal.nD × Fin 500000 => Cert.PreBatch.batch_word m hpre cn.1 cn.2
  refine ⟨_, Cert.KernelIdeal.Result.run_value m ρ (fun c n => bt (c, n)) (fun c n => hbt (c, n)), ?_⟩
  refine (θ_run Cert.ReferenceIdeal.defs _ _).mono (fun r h c => ⟨(h c).1.trans ?_, (h c).2⟩)
    (Cert.ReferenceIdeal.Result.run_value m' ρ')
  obtain ⟨e0, e1, e2, e3, e4, e5, e6, e7, e8⟩ := hagree c
  rw [e0, e1, e2, e3, e4, e5, e6, e7, e8,
    scores_agree _ _ _ _ _ _ _ (fun n => bt (c, n)) (fun n => hbt (c, n))]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
